-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x4 : Shape := ⟨2, ![150000, 4]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x4800000 : Shape := ⟨2, ![2, 4800000]⟩
abbrev S150000 : Shape := ⟨1, ![150000]⟩
abbrev S_ : Shape := ⟨0, ![]⟩

class Facts : Prop where
  bcast_S_S150000x4 : S_.BroadcastsInDim S150000x4 (![] : Fin 0 → Fin S150000x4.rank)
  reducesTo_S150000x4_S_d0_1 : S150000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x1 .f32) (main_arg8 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S150000x4 .f32) (main_arg1 : FVec F S4x16 .f32) (main_arg2 : FVec F S16 .f32) (main_arg3 : FVec F S16x16 .f32) (main_arg4 : FVec F S16 .f32) (main_arg5 : FVec F S16x16 .f32) (main_arg6 : FVec F S16 .f32) (main_arg7 : FVec F S16x1 .f32) (main_arg8 : FVec F S1 .f32) (main_arg9 : IVec S2x4800000 32) (main_arg10 : IVec S150000 32) : IVec S_ 1 :=
  let main_v0 : FVec F S150000x4 .f32 := Host.absf main_arg0
  let main_cst : FVec F S_ .f32 := constant S_ .f32 0x7F800000#32
  let main_v1 : FVec F S150000x4 .f32 := broadcastInDim S150000x4 ![] bcast_S_S150000x4 main_cst
  let main_v2 : IVec S150000x4 1 := cmpf .olt main_v0 main_v1
  let main_c : IVec S_ 1 := constantI S_ 1 1#1
  let main_v3 : IVec S_ 1 := (fun x v => Host.reduce IntOp.andi x v reducesTo_S150000x4_S_d0_1 h_S_) main_v2 main_c
  let main_v4 : FVec F S4x16 .f32 := Host.absf main_arg1
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S150000x4 : Shape := ⟨2, ![150000, 4]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x4800000 : Shape := ⟨2, ![2, 4800000]⟩
abbrev S150000 : Shape := ⟨1, ![150000]⟩
abbrev S1x4800000 : Shape := ⟨2, ![1, 4800000]⟩
abbrev S4800000 : Shape := ⟨1, ![4800000]⟩
abbrev S4950000 : Shape := ⟨1, ![4950000]⟩
abbrev S_ : Shape := ⟨0, ![]⟩
abbrev S4950000x1 : Shape := ⟨2, ![4950000, 1]⟩
abbrev S150000x1 : Shape := ⟨2, ![150000, 1]⟩
abbrev S4950000x4 : Shape := ⟨2, ![4950000, 4]⟩
abbrev S150000x16 : Shape := ⟨2, ![150000, 16]⟩
abbrev S3000x4 : Shape := ⟨2, ![3000, 4]⟩
abbrev S3000x1 : Shape := ⟨2, ![3000, 1]⟩
abbrev S3000x16 : Shape := ⟨2, ![3000, 16]⟩
abbrev S1x16 : Shape := ⟨2, ![1, 16]⟩
abbrev S4950000x16 : Shape := ⟨2, ![4950000, 16]⟩
abbrev S512x1 : Shape := ⟨2, ![512, 1]⟩
abbrev S512x16 : Shape := ⟨2, ![512, 16]⟩
abbrev S3000x512 : Shape := ⟨2, ![3000, 512]⟩
abbrev S1x1 : Shape := ⟨2, ![1, 1]⟩

abbrev nBuf : Space → Nat
  | .hbm => 67
  | .vmem => 22
  | .smem => 0
  | _ => 0

abbrev bufTy : (tb : Table) → Fin (tcTables nBuf tb) → BufTy
  | .hbm, ⟨0, _⟩ => ⟨S150000x4, .f32⟩
  | .hbm, ⟨1, _⟩ => ⟨S4x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S2x4800000, .i32⟩
  | .hbm, ⟨10, _⟩ => ⟨S150000, .i32⟩
  | .hbm, ⟨11, _⟩ => ⟨S150000, .i32⟩
  | .hbm, ⟨12, _⟩ => ⟨S1x4800000, .i32⟩
  | .hbm, ⟨13, _⟩ => ⟨S4800000, .i32⟩
  | .hbm, ⟨14, _⟩ => ⟨S4950000, .i32⟩
  | .hbm, ⟨15, _⟩ => ⟨S1x4800000, .i32⟩
  | .hbm, ⟨16, _⟩ => ⟨S4800000, .i32⟩
  | .hbm, ⟨17, _⟩ => ⟨S4950000, .i32⟩
  | .hbm, ⟨18, _⟩ => ⟨S_, .f32⟩
  | .hbm, ⟨19, _⟩ => ⟨S4950000, .f32⟩
  | .hbm, ⟨20, _⟩ => ⟨S_, .f32⟩
  | .hbm, ⟨21, _⟩ => ⟨S150000, .f32⟩
  | .hbm, ⟨22, _⟩ => ⟨S4950000x1, .i32⟩
  | .hbm, ⟨23, _⟩ => ⟨S150000, .f32⟩
  | .hbm, ⟨24, _⟩ => ⟨S_, .f32⟩
  | .hbm, ⟨25, _⟩ => ⟨S150000, .f32⟩
  | .hbm, ⟨26, _⟩ => ⟨S150000, .i1⟩
  | .hbm, ⟨27, _⟩ => ⟨S_, .f32⟩
  | .hbm, ⟨28, _⟩ => ⟨S150000, .f32⟩
  | .hbm, ⟨29, _⟩ => ⟨S150000, .f32⟩
  | .hbm, ⟨30, _⟩ => ⟨S150000, .f32⟩
  | .hbm, ⟨31, _⟩ => ⟨S_, .f32⟩
  | .hbm, ⟨32, _⟩ => ⟨S_, .f32⟩
  | .hbm, ⟨33, _⟩ => ⟨S150000, .f32⟩
  | .hbm, ⟨34, _⟩ => ⟨S150000, .f32⟩
  | .hbm, ⟨35, _⟩ => ⟨S150000x1, .f32⟩
  | .hbm, ⟨36, _⟩ => ⟨S150000x4, .f32⟩
  | .hbm, ⟨37, _⟩ => ⟨S150000x4, .f32⟩
  | .hbm, ⟨38, _⟩ => ⟨S_, .i32⟩
  | .hbm, ⟨39, _⟩ => ⟨S4950000, .i32⟩
  | .hbm, ⟨40, _⟩ => ⟨S4950000, .i1⟩
  | .hbm, ⟨41, _⟩ => ⟨S_, .i32⟩
  | .hbm, ⟨42, _⟩ => ⟨S4950000, .i32⟩
  | .hbm, ⟨43, _⟩ => ⟨S4950000, .i32⟩
  | .hbm, ⟨44, _⟩ => ⟨S4950000, .i32⟩
  | .hbm, ⟨45, _⟩ => ⟨S4950000x1, .i32⟩
  | .hbm, ⟨46, _⟩ => ⟨S4950000x4, .f32⟩
  | .hbm, ⟨47, _⟩ => ⟨S_, .f32⟩
  | .hbm, ⟨48, _⟩ => ⟨S150000x4, .f32⟩
  | .hbm, ⟨49, _⟩ => ⟨S4950000x1, .i32⟩
  | .hbm, ⟨50, _⟩ => ⟨S150000x4, .f32⟩
  | .hbm, ⟨51, _⟩ => ⟨S150000x16, .f32⟩
  | .hbm, ⟨52, _⟩ => ⟨S_, .i32⟩
  | .hbm, ⟨53, _⟩ => ⟨S4950000, .i32⟩
  | .hbm, ⟨54, _⟩ => ⟨S4950000, .i1⟩
  | .hbm, ⟨55, _⟩ => ⟨S_, .i32⟩
  | .hbm, ⟨56, _⟩ => ⟨S4950000, .i32⟩
  | .hbm, ⟨57, _⟩ => ⟨S4950000, .i32⟩
  | .hbm, ⟨58, _⟩ => ⟨S4950000, .i32⟩
  | .hbm, ⟨59, _⟩ => ⟨S4950000x1, .i32⟩
  | .hbm, ⟨60, _⟩ => ⟨S4950000x16, .f32⟩
  | .hbm, ⟨61, _⟩ => ⟨S_, .f32⟩
  | .hbm, ⟨62, _⟩ => ⟨S150000x16, .f32⟩
  | .hbm, ⟨63, _⟩ => ⟨S4950000x1, .i32⟩
  | .hbm, ⟨64, _⟩ => ⟨S150000x16, .f32⟩
  | .hbm, ⟨65, _⟩ => ⟨S150000x1, .i32⟩
  | .hbm, ⟨66, _⟩ => ⟨S512x1, .f32⟩
  | .local _ .vmem, ⟨0, _⟩ => ⟨S3000x4, .f32⟩
  | .local _ .vmem, ⟨1, _⟩ => ⟨S3000x4, .f32⟩
  | .local _ .vmem, ⟨2, _⟩ => ⟨S3000x1, .f32⟩
  | .local _ .vmem, ⟨3, _⟩ => ⟨S3000x1, .f32⟩
  | .local _ .vmem, ⟨4, _⟩ => ⟨S4x16, .f32⟩
  | .local _ .vmem, ⟨5, _⟩ => ⟨S16, .f32⟩
  | .local _ .vmem, ⟨6, _⟩ => ⟨S16x16, .f32⟩
  | .local _ .vmem, ⟨7, _⟩ => ⟨S3000x16, .f32⟩
  | .local _ .vmem, ⟨8, _⟩ => ⟨S3000x16, .f32⟩
  | .local _ .vmem, ⟨9, _⟩ => ⟨S3000x16, .f32⟩
  | .local _ .vmem, ⟨10, _⟩ => ⟨S3000x16, .f32⟩
  | .local _ .vmem, ⟨11, _⟩ => ⟨S3000x1, .f32⟩
  | .local _ .vmem, ⟨12, _⟩ => ⟨S3000x1, .f32⟩
  | .local _ .vmem, ⟨13, _⟩ => ⟨S3000x1, .i32⟩
  | .local _ .vmem, ⟨14, _⟩ => ⟨S3000x1, .i32⟩
  | .local _ .vmem, ⟨15, _⟩ => ⟨S16, .f32⟩
  | .local _ .vmem, ⟨16, _⟩ => ⟨S16x16, .f32⟩
  | .local _ .vmem, ⟨17, _⟩ => ⟨S16, .f32⟩
  | .local _ .vmem, ⟨18, _⟩ => ⟨S16x1, .f32⟩
  | .local _ .vmem, ⟨19, _⟩ => ⟨S1, .f32⟩
  | .local _ .vmem, ⟨20, _⟩ => ⟨S512x1, .f32⟩
  | .local _ .vmem, ⟨21, _⟩ => ⟨S512x16, .f32⟩
  | _, _ => ⟨S150000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v31 : BitVec 1 := Scalar.cmpi .eq arg0 c49_i32
  let v32 : BitVec 32 := Scalar.extui v31
  let c0_i32_12 : BitVec 32 := 0#32
  let v33 : BitVec 1 := Scalar.cmpi .ne v32 c0_i32_12
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  slices_S2x4800000_S1x4800000_0_0 : S2x4800000.Slices ![0, 0] S1x4800000
  shapeCasts_S1x4800000_S4800000 : S1x4800000.ShapeCasts S4800000
  concatenates_S4800000_S150000_S4950000_d0 : Shape.Concatenates [S4800000, S150000] S4950000 0
  slices_S2x4800000_S1x4800000_1_0 : S2x4800000.Slices ![1, 0] S1x4800000
  bcast_S_S4950000 : S_.BroadcastsInDim S4950000 (![] : Fin 0 → Fin S4950000.rank)
  bcast_S_S150000 : S_.BroadcastsInDim S150000 (![] : Fin 0 → Fin S150000.rank)
  bcast_S4950000_S4950000x1_0 : S4950000.BroadcastsInDim S4950000x1 (![0] : Fin 1 → Fin S4950000x1.rank)
  shapeCasts_S150000_S150000x1 : S150000.ShapeCasts S150000x1
  bcast_S150000x1_S150000x4_0_1 : S150000x1.BroadcastsInDim S150000x4 (![0, 1] : Fin 2 → Fin S150000x4.rank)
  bcast_S_S150000x4 : S_.BroadcastsInDim S150000x4 (![] : Fin 0 → Fin S150000x4.rank)
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x4 : S3000x1.Broadcasts S3000x4
  inb_S3000x4_S3000x4_0_0 : ∀ a, (![0, 0] : Fin 2 → Nat) a + S3000x4.size a ≤ S3000x4.size a
  h_S3000x4 : 0 < S3000x4.numel
  shapeCasts_S3000x4_S3000x4 : S3000x4.ShapeCasts S3000x4
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S16_S16_0 : ∀ a, (![0] : Fin 1 → Nat) a + S16.size a ≤ S16.size a
  h_S16 : 0 < S16.numel
  shapeCasts_S16_S1x16 : S16.ShapeCasts S1x16
  broadcasts_S1x16_S3000x16 : S1x16.Broadcasts S3000x16
  inb_S16x16_S16x16_0_0 : ∀ a, (![0, 0] : Fin 2 → Nat) a + S16x16.size a ≤ S16x16.size a
  h_S16x16 : 0 < S16x16.numel
  broadcasts_S3000x1_S3000x16 : S3000x1.Broadcasts S3000x16
  inb_S3000x16_S3000x16_0_0 : ∀ a, (![0, 0] : Fin 2 → Nat) a + S3000x16.size a ≤ S3000x16.size a
  h_S3000x16 : 0 < S3000x16.numel
  bcast_S_S150000x16 : S_.BroadcastsInDim S150000x16 (![] : Fin 0 → Fin S150000x16.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S3000x16_S3000x16 : S3000x16.ShapeCasts S3000x16
  iota_S3000x512_d1_w32 : S3000x512.Iotas .tc 32 [1]
  broadcasts_S3000x1_S3000x512 : S3000x1.Broadcasts S3000x512
  natLt_1_32 : 1 < 32
  broadcasts_S1x16_S512x16 : S1x16.Broadcasts S512x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S150000_S4950000x1_S4950000_n_0_0_1_wf : ScatterDims.WF S150000 S4950000x1 S4950000 [] [0] [0] 1
  gather_S150000x4_S4950000x1_S4950000x4_1_0_n_n_0_1_14_wf : GatherDims.WF S150000x4 S4950000x1 S4950000x4 [1] [0] [] [0] [] 1 ![1, 4]
  scatter_S150000x4_S4950000x1_S4950000x4_1_0_0_1_wf : ScatterDims.WF S150000x4 S4950000x1 S4950000x4 [1] [0] [0] 1
  dot_S3000x4_S4x16_S3000x16_1_0_0_1_n_n_wf : DotDims.WF S3000x4 S4x16 S3000x16 [1] [0] [0] [1] [] []
  dot_S3000x16_S16x16_S3000x16_1_0_0_1_n_n_wf : DotDims.WF S3000x16 S16x16 S3000x16 [1] [0] [0] [1] [] []
  gather_S150000x16_S4950000x1_S4950000x16_1_0_n_n_0_1_116_wf : GatherDims.WF S150000x16 S4950000x1 S4950000x16 [1] [0] [] [0] [] 1 ![1, 16]
  scatter_S150000x16_S4950000x1_S4950000x16_1_0_0_1_wf : ScatterDims.WF S150000x16 S4950000x1 S4950000x16 [1] [0] [0] 1
  dot_S3000x512_S3000x16_S512x16_0_0_1_1_n_n_wf : DotDims.WF S3000x512 S3000x16 S512x16 [0] [0] [1] [1] [] []
  dot_S512x16_S16x16_S512x16_1_0_0_1_n_n_wf : DotDims.WF S512x16 S16x16 S512x16 [1] [0] [0] [1] [] []
  dot_S512x16_S16x1_S512x1_1_0_0_1_n_n_wf : DotDims.WF S512x16 S16x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x4.size a ≤ S150000x4.size a
  hwx0_0 : ∀ i : grid0.Coords, EltTy.bits .f32 = 32 ∨ (Rect.block (s := S150000x4) S3000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x1.size a ≤ S150000x1.size a
  hwx0_1 : ∀ i : grid0.Coords, EltTy.bits .f32 = 32 ∨ (Rect.block (s := S150000x1) S3000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16.size a ≤ S4x16.size a
  hwx0_2 : ∀ i : grid0.Coords, EltTy.bits .f32 = 32 ∨ (Rect.block (s := S4x16) S4x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x16.size a ≤ S150000x16.size a
  hwx0_5 : ∀ i : grid0.Coords, EltTy.bits .f32 = 32 ∨ (Rect.block (s := S150000x16) S3000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x16.size a ≤ S150000x16.size a
  hwx1_0 : ∀ i : grid1.Coords, EltTy.bits .f32 = 32 ∨ (Rect.block (s := S150000x16) S3000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x1.size a ≤ S150000x1.size a
  hwx1_1 : ∀ i : grid1.Coords, EltTy.bits .f32 = 32 ∨ (Rect.block (s := S150000x1) S3000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x1.size a ≤ S150000x1.size a
  hwx1_2 : ∀ i : grid1.Coords, EltTy.bits .i32 = 32 ∨ (Rect.block (s := S150000x1) S3000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S512x1.size a
  hwx1_8 : ∀ i : grid1.Coords, EltTy.bits .f32 = 32 ∨ (Rect.block (s := S512x1) S512x1.size (cc1_transform_8 i) (hinb1_8 i)).WholeWords (EltTy.packing .f32)

variable [Facts₀]

def scatter_S150000_S4950000x1_S4950000_n_0_0_1 : ScatterDims S150000 S4950000x1 S4950000 where
  updateWindowDims := []
  insertedWindowDims := [0]
  scatterDimsToOperandDims := [0]
  indexVectorDim := 1
  wf := scatter_S150000_S4950000x1_S4950000_n_0_0_1_wf
def gather_S150000x4_S4950000x1_S4950000x4_1_0_n_n_0_1_14 : GatherDims S150000x4 S4950000x1 S4950000x4 where
  offsetDims := [1]
  collapsedSliceDims := [0]
  operandBatchingDims := []
  startIndicesBatchingDims := []
  startIndexMap := [0]
  indexVectorDim := 1
  sliceSizes := ![1, 4]
  wf := gather_S150000x4_S4950000x1_S4950000x4_1_0_n_n_0_1_14_wf
def scatter_S150000x4_S4950000x1_S4950000x4_1_0_0_1 : ScatterDims S150000x4 S4950000x1 S4950000x4 where
  updateWindowDims := [1]
  insertedWindowDims := [0]
  scatterDimsToOperandDims := [0]
  indexVectorDim := 1
  wf := scatter_S150000x4_S4950000x1_S4950000x4_1_0_0_1_wf
def dot_S3000x4_S4x16_S3000x16_1_0_0_1_n_n : DotDims S3000x4 S4x16 S3000x16 where
  lhsContracting := [1]
  rhsContracting := [0]
  lhsNonContracting := [0]
  rhsNonContracting := [1]
  lhsBatch := []
  rhsBatch := []
  wf := dot_S3000x4_S4x16_S3000x16_1_0_0_1_n_n_wf
def dot_S3000x16_S16x16_S3000x16_1_0_0_1_n_n : DotDims S3000x16 S16x16 S3000x16 where
  lhsContracting := [1]
  rhsContracting := [0]
  lhsNonContracting := [0]
  rhsNonContracting := [1]
  lhsBatch := []
  rhsBatch := []
  wf := dot_S3000x16_S16x16_S3000x16_1_0_0_1_n_n_wf
def gather_S150000x16_S4950000x1_S4950000x16_1_0_n_n_0_1_116 : GatherDims S150000x16 S4950000x1 S4950000x16 where
  offsetDims := [1]
  collapsedSliceDims := [0]
  operandBatchingDims := []
  startIndicesBatchingDims := []
  startIndexMap := [0]
  indexVectorDim := 1
  sliceSizes := ![1, 16]
  wf := gather_S150000x16_S4950000x1_S4950000x16_1_0_n_n_0_1_116_wf
def scatter_S150000x16_S4950000x1_S4950000x16_1_0_0_1 : ScatterDims S150000x16 S4950000x1 S4950000x16 where
  updateWindowDims := [1]
  insertedWindowDims := [0]
  scatterDimsToOperandDims := [0]
  indexVectorDim := 1
  wf := scatter_S150000x16_S4950000x1_S4950000x16_1_0_0_1_wf
def dot_S3000x512_S3000x16_S512x16_0_0_1_1_n_n : DotDims S3000x512 S3000x16 S512x16 where
  lhsContracting := [0]
  rhsContracting := [0]
  lhsNonContracting := [1]
  rhsNonContracting := [1]
  lhsBatch := []
  rhsBatch := []
  wf := dot_S3000x512_S3000x16_S512x16_0_0_1_1_n_n_wf
def dot_S512x16_S16x16_S512x16_1_0_0_1_n_n : DotDims S512x16 S16x16 S512x16 where
  lhsContracting := [1]
  rhsContracting := [0]
  lhsNonContracting := [0]
  rhsNonContracting := [1]
  lhsBatch := []
  rhsBatch := []
  wf := dot_S512x16_S16x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

abbrev win0_0 : Pipeline.Window sig grid0 :=
  Pipeline.Window.ofSpec (Memref.whole main_v29) S3000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S3000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S3000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S3000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S3000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S512x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S150000x4 : Shape := ⟨2, ![150000, 4]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x4800000 : Shape := ⟨2, ![2, 4800000]⟩
abbrev S150000 : Shape := ⟨1, ![150000]⟩
abbrev S1x4800000 : Shape := ⟨2, ![1, 4800000]⟩
abbrev S4800000 : Shape := ⟨1, ![4800000]⟩
abbrev S4950000 : Shape := ⟨1, ![4950000]⟩
abbrev S_ : Shape := ⟨0, ![]⟩
abbrev S4950000x1 : Shape := ⟨2, ![4950000, 1]⟩
abbrev S150000x16 : Shape := ⟨2, ![150000, 16]⟩
abbrev S4950000x16 : Shape := ⟨2, ![4950000, 16]⟩
abbrev S1x16 : Shape := ⟨2, ![1, 16]⟩
abbrev S512x16 : Shape := ⟨2, ![512, 16]⟩
abbrev S150000x1 : Shape := ⟨2, ![150000, 1]⟩
abbrev S512x1 : Shape := ⟨2, ![512, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S150000x4, .f32⟩
  | 1 => ⟨S4x16, .f32⟩
  | 2 => ⟨S16, .f32⟩
  | 3 => ⟨S16x16, .f32⟩
  | 4 => ⟨S16, .f32⟩
  | 5 => ⟨S16x16, .f32⟩
  | 6 => ⟨S16, .f32⟩
  | 7 => ⟨S16x1, .f32⟩
  | 8 => ⟨S1, .f32⟩
  | 9 => ⟨S2x4800000, .i32⟩
  | 10 => ⟨S150000, .i32⟩
  | 11 => ⟨S150000, .i32⟩
  | 12 => ⟨S1x4800000, .i32⟩
  | 13 => ⟨S4800000, .i32⟩
  | 14 => ⟨S4950000, .i32⟩
  | 15 => ⟨S1x4800000, .i32⟩
  | 16 => ⟨S4800000, .i32⟩
  | 17 => ⟨S4950000, .i32⟩
  | 18 => ⟨S_, .f32⟩
  | 19 => ⟨S4950000, .f32⟩
  | 20 => ⟨S_, .f32⟩
  | 21 => ⟨S150000, .f32⟩
  | 22 => ⟨S4950000x1, .i32⟩
  | 23 => ⟨S150000, .f32⟩
  | 24 => ⟨S_, .f32⟩
  | 25 => ⟨S150000, .f32⟩
  | 26 => ⟨S150000, .i1⟩
  | 27 => ⟨S_, .f32⟩
  | 28 => ⟨S150000, .f32⟩
  | 29 => ⟨S150000, .f32⟩
  | 30 => ⟨S150000, .f32⟩
  | 31 => ⟨S_, .f32⟩
  | 32 => ⟨S_, .f32⟩
  | 33 => ⟨S150000, .f32⟩
  | 34 => ⟨S150000, .f32⟩
  | 35 => ⟨S150000x16, .f32⟩
  | 36 => ⟨S_, .i32⟩
  | 37 => ⟨S4950000, .i32⟩
  | 38 => ⟨S4950000, .i1⟩
  | 39 => ⟨S_, .i32⟩
  | 40 => ⟨S4950000, .i32⟩
  | 41 => ⟨S4950000, .i32⟩
  | 42 => ⟨S4950000, .i32⟩
  | 43 => ⟨S4950000x1, .i32⟩
  | 44 => ⟨S4950000, .f32⟩
  | 45 => ⟨S_, .i32⟩
  | 46 => ⟨S4950000, .i32⟩
  | 47 => ⟨S4950000, .i1⟩
  | 48 => ⟨S_, .i32⟩
  | 49 => ⟨S4950000, .i32⟩
  | 50 => ⟨S4950000, .i32⟩
  | 51 => ⟨S4950000, .i32⟩
  | 52 => ⟨S4950000x1, .i32⟩
  | 53 => ⟨S4950000, .f32⟩
  | 54 => ⟨S4950000, .f32⟩
  | 55 => ⟨S_, .i32⟩
  | 56 => ⟨S4950000, .i32⟩
  | 57 => ⟨S4950000, .i1⟩
  | 58 => ⟨S_, .i32⟩
  | 59 => ⟨S4950000, .i32⟩
  | 60 => ⟨S4950000, .i32⟩
  | 61 => ⟨S4950000, .i32⟩
  | 62 => ⟨S4950000x1, .i32⟩
  | 63 => ⟨S4950000x16, .f32⟩
  | 64 => ⟨S4950000x1, .f32⟩
  | 65 => ⟨S4950000x16, .f32⟩
  | 66 => ⟨S4950000x16, .f32⟩
  | 67 => ⟨S_, .f32⟩
  | 68 => ⟨S150000x16, .f32⟩
  | 69 => ⟨S4950000x1, .i32⟩
  | 70 => ⟨S150000x16, .f32⟩
  | 71 => ⟨S1x16, .f32⟩
  | 72 => ⟨S150000x16, .f32⟩
  | 73 => ⟨S150000x16, .f32⟩
  | 74 => ⟨S_, .f32⟩
  | 75 => ⟨S150000x16, .f32⟩
  | 76 => ⟨S150000x16, .f32⟩
  | 77 => ⟨S150000x16, .f32⟩
  | 78 => ⟨S_, .i32⟩
  | 79 => ⟨S4950000, .i32⟩
  | 80 => ⟨S4950000, .i1⟩
  | 81 => ⟨S_, .i32⟩
  | 82 => ⟨S4950000, .i32⟩
  | 83 => ⟨S4950000, .i32⟩
  | 84 => ⟨S4950000, .i32⟩
  | 85 => ⟨S4950000x1, .i32⟩
  | 86 => ⟨S4950000, .f32⟩
  | 87 => ⟨S_, .i32⟩
  | 88 => ⟨S4950000, .i32⟩
  | 89 => ⟨S4950000, .i1⟩
  | 90 => ⟨S_, .i32⟩
  | 91 => ⟨S4950000, .i32⟩
  | 92 => ⟨S4950000, .i32⟩
  | 93 => ⟨S4950000, .i32⟩
  | 94 => ⟨S4950000x1, .i32⟩
  | 95 => ⟨S4950000, .f32⟩
  | 96 => ⟨S4950000, .f32⟩
  | 97 => ⟨S_, .i32⟩
  | 98 => ⟨S4950000, .i32⟩
  | 99 => ⟨S4950000, .i1⟩
  | 100 => ⟨S_, .i32⟩
  | 101 => ⟨S4950000, .i32⟩
  | 102 => ⟨S4950000, .i32⟩
  | 103 => ⟨S4950000, .i32⟩
  | 104 => ⟨S4950000x1, .i32⟩
  | 105 => ⟨S4950000x16, .f32⟩
  | 106 => ⟨S4950000x1, .f32⟩
  | 107 => ⟨S4950000x16, .f32⟩
  | 108 => ⟨S4950000x16, .f32⟩
  | 109 => ⟨S_, .f32⟩
  | 110 => ⟨S150000x16, .f32⟩
  | 111 => ⟨S4950000x1, .i32⟩
  | 112 => ⟨S150000x16, .f32⟩
  | 113 => ⟨S1x16, .f32⟩
  | 114 => ⟨S150000x16, .f32⟩
  | 115 => ⟨S150000x16, .f32⟩
  | 116 => ⟨S_, .f32⟩
  | 117 => ⟨S150000x16, .f32⟩
  | 118 => ⟨S150000x16, .f32⟩
  | 119 => ⟨S_, .f32⟩
  | 120 => ⟨S512x16, .f32⟩
  | 121 => ⟨S150000x1, .i32⟩
  | 122 => ⟨S512x16, .f32⟩
  | 123 => ⟨S512x16, .f32⟩
  | 124 => ⟨S1x16, .f32⟩
  | 125 => ⟨S512x16, .f32⟩
  | 126 => ⟨S512x16, .f32⟩
  | 127 => ⟨S_, .f32⟩
  | _ => ⟨S150000x4, .f32⟩

abbrev hbmTy0_1 (i : Nat) : BufTy := match i % 128 with
  | 0 => ⟨S512x16, .f32⟩
  | 1 => ⟨S512x16, .f32⟩
  | 2 => ⟨S512x1, .f32⟩
  | 3 => ⟨S1x1, .f32⟩
  | 4 => ⟨S512x1, .f32⟩
  | 5 => ⟨S512x1, .f32⟩
  | _ => ⟨S150000x4, .f32⟩

abbrev hbmTy (i : Nat) : BufTy := match i / 128 with
  | 0 => hbmTy0_0 i
  | 1 => hbmTy0_1 i
  | _ => ⟨S150000x4, .f32⟩

abbrev bufTy : (tb : Table) → Fin (tcTables nBuf tb) → BufTy
  | .hbm, ⟨i, _⟩ => hbmTy i
  | _, _ => ⟨S150000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call3_cst : Ref sig .tc := ⟨.hbm, 127, rfl⟩
abbrev main_call3_v0 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  slices_S2x4800000_S1x4800000_0_0 : S2x4800000.Slices ![0, 0] S1x4800000
  shapeCasts_S1x4800000_S4800000 : S1x4800000.ShapeCasts S4800000
  concatenates_S4800000_S150000_S4950000_d0 : Shape.Concatenates [S4800000, S150000] S4950000 0
  slices_S2x4800000_S1x4800000_1_0 : S2x4800000.Slices ![1, 0] S1x4800000
  bcast_S_S4950000 : S_.BroadcastsInDim S4950000 (![] : Fin 0 → Fin S4950000.rank)
  bcast_S_S150000 : S_.BroadcastsInDim S150000 (![] : Fin 0 → Fin S150000.rank)
  bcast_S4950000_S4950000x1_0 : S4950000.BroadcastsInDim S4950000x1 (![0] : Fin 1 → Fin S4950000x1.rank)
  bcast_S4950000x1_S4950000x16_0_1 : S4950000x1.BroadcastsInDim S4950000x16 (![0, 1] : Fin 2 → Fin S4950000x16.rank)
  bcast_S_S150000x16 : S_.BroadcastsInDim S150000x16 (![] : Fin 0 → Fin S150000x16.rank)
  bcast_S16_S1x16_1 : S16.BroadcastsInDim S1x16 (![1] : Fin 1 → Fin S1x16.rank)
  bcast_S1x16_S150000x16_0_1 : S1x16.BroadcastsInDim S150000x16 (![0, 1] : Fin 2 → Fin S150000x16.rank)
  bcast_S_S512x16 : S_.BroadcastsInDim S512x16 (![] : Fin 0 → Fin S512x16.rank)
  bcast_S150000_S150000x1_0 : S150000.BroadcastsInDim S150000x1 (![0] : Fin 1 → Fin S150000x1.rank)
  bcast_S1x16_S512x16_0_1 : S1x16.BroadcastsInDim S512x16 (![0, 1] : Fin 2 → Fin S512x16.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S150000_S4950000x1_S4950000_n_0_0_1_wf : ScatterDims.WF S150000 S4950000x1 S4950000 [] [0] [0] 1
  dot_S150000x4_S4x16_S150000x16_1_0_0_1_n_n_wf : DotDims.WF S150000x4 S4x16 S150000x16 [1] [0] [0] [1] [] []
  gather_S150000_S4950000x1_S4950000_n_0_n_n_0_1_1_wf : GatherDims.WF S150000 S4950000x1 S4950000 [] [0] [] [0] [] 1 ![1]
  gather_S150000x16_S4950000x1_S4950000x16_1_0_n_n_0_1_116_wf : GatherDims.WF S150000x16 S4950000x1 S4950000x16 [1] [0] [] [0] [] 1 ![1, 16]
  scatter_S150000x16_S4950000x1_S4950000x16_1_0_0_1_wf : ScatterDims.WF S150000x16 S4950000x1 S4950000x16 [1] [0] [0] 1
  dot_S150000x16_S16x16_S150000x16_1_0_0_1_n_n_wf : DotDims.WF S150000x16 S16x16 S150000x16 [1] [0] [0] [1] [] []
  scatter_S512x16_S150000x1_S150000x16_1_0_0_1_wf : ScatterDims.WF S512x16 S150000x1 S150000x16 [1] [0] [0] 1
  dot_S512x16_S16x16_S512x16_1_0_0_1_n_n_wf : DotDims.WF S512x16 S16x16 S512x16 [1] [0] [0] [1] [] []
  dot_S512x16_S16x1_S512x1_1_0_0_1_n_n_wf : DotDims.WF S512x16 S16x1 S512x1 [1] [0] [0] [1] [] []

variable [Facts₀]

def scatter_S150000_S4950000x1_S4950000_n_0_0_1 : ScatterDims S150000 S4950000x1 S4950000 where
  updateWindowDims := []
  insertedWindowDims := [0]
  scatterDimsToOperandDims := [0]
  indexVectorDim := 1
  wf := scatter_S150000_S4950000x1_S4950000_n_0_0_1_wf
def dot_S150000x4_S4x16_S150000x16_1_0_0_1_n_n : DotDims S150000x4 S4x16 S150000x16 where
  lhsContracting := [1]
  rhsContracting := [0]
  lhsNonContracting := [0]
  rhsNonContracting := [1]
  lhsBatch := []
  rhsBatch := []
  wf := dot_S150000x4_S4x16_S150000x16_1_0_0_1_n_n_wf
def gather_S150000_S4950000x1_S4950000_n_0_n_n_0_1_1 : GatherDims S150000 S4950000x1 S4950000 where
  offsetDims := []
  collapsedSliceDims := [0]
  operandBatchingDims := []
  startIndicesBatchingDims := []
  startIndexMap := [0]
  indexVectorDim := 1
  sliceSizes := ![1]
  wf := gather_S150000_S4950000x1_S4950000_n_0_n_n_0_1_1_wf
def gather_S150000x16_S4950000x1_S4950000x16_1_0_n_n_0_1_116 : GatherDims S150000x16 S4950000x1 S4950000x16 where
  offsetDims := [1]
  collapsedSliceDims := [0]
  operandBatchingDims := []
  startIndicesBatchingDims := []
  startIndexMap := [0]
  indexVectorDim := 1
  sliceSizes := ![1, 16]
  wf := gather_S150000x16_S4950000x1_S4950000x16_1_0_n_n_0_1_116_wf
def scatter_S150000x16_S4950000x1_S4950000x16_1_0_0_1 : ScatterDims S150000x16 S4950000x1 S4950000x16 where
  updateWindowDims := [1]
  insertedWindowDims := [0]
  scatterDimsToOperandDims := [0]
  indexVectorDim := 1
  wf := scatter_S150000x16_S4950000x1_S4950000x16_1_0_0_1_wf
def dot_S150000x16_S16x16_S150000x16_1_0_0_1_n_n : DotDims S150000x16 S16x16 S150000x16 where
  lhsContracting := [1]
  rhsContracting := [0]
  lhsNonContracting := [0]
  rhsNonContracting := [1]
  lhsBatch := []
  rhsBatch := []
  wf := dot_S150000x16_S16x16_S150000x16_1_0_0_1_n_n_wf
def scatter_S512x16_S150000x1_S150000x16_1_0_0_1 : ScatterDims S512x16 S150000x1 S150000x16 where
  updateWindowDims := [1]
  insertedWindowDims := [0]
  scatterDimsToOperandDims := [0]
  indexVectorDim := 1
  wf := scatter_S512x16_S150000x1_S150000x16_1_0_0_1_wf
def dot_S512x16_S16x16_S512x16_1_0_0_1_n_n : DotDims S512x16 S16x16 S512x16 where
  lhsContracting := [1]
  rhsContracting := [0]
  lhsNonContracting := [0]
  rhsNonContracting := [1]
  lhsBatch := []
  rhsBatch := []
  wf := dot_S512x16_S16x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

class Facts : Prop extends Facts₀ where

variable [Facts]
-- ==== Proof.KBody0.lean ====
/-
  The first kernel region (the fused node transform) on one core, at the buffer contents `V` the region is entered
  with.  At grid point t the body reads the t-th block of 3000 rows of the raw width-4 aggregate and of the
  degree column, and the three weight arrays whole; it writes one block of 3000 rows of the output:
    out[r, :] = (relu((agg[r, :] * d[r]) · W1 + b1) · W2) * d[r].
  Nothing is carried from one point to the next.  Stated here: what each staging buffer holds before and after the
  body at a point, the body's triple, and the obligation the pipeline rule asks of the body at every point.
-/
import proofs.«400391_j66829691126192_3_alg».proof.Proof.Gen.Kernel.Launch
import proofs.«400391_j66829691126192_3_alg».proof.Proof.Gen.Kernel.Skeleton
import proofs.«400391_j66829691126192_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the block index has not moved since): one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole staging buffer -/

abbrev rA : Rect S3000x4 := Rect.unit (s := S3000x4) ![0, 0] S3000x4.size inb_S3000x4_S3000x4_0_0
abbrev rD : Rect S3000x1 := Rect.unit (s := S3000x1) ![0, 0] S3000x1.size inb_S3000x1_S3000x1_0_0
abbrev rW1 : Rect S4x16 := Rect.unit (s := S4x16) ![0, 0] S4x16.size inb_S4x16_S4x16_0_0
abbrev rB : Rect S16 := Rect.unit (s := S16) ![0] S16.size inb_S16_S16_0
abbrev rW2 : Rect S16x16 := Rect.unit (s := S16x16) ![0, 0] S16x16.size inb_S16x16_S16x16_0_0
abbrev rO : Rect S3000x16 := Rect.unit (s := S3000x16) ![0, 0] S3000x16.size inb_S3000x16_S3000x16_0_0

/-- The output block after the body, from the five input blocks: the body's one store, over the whole buffer. -/
def out0_5 (x0 : Vec F S3000x4 .f32) (x1 : Vec F S3000x1 .f32) (x2 : Vec F S4x16 .f32) (x3 : Vec F S16 .f32) (x4 : Vec F S16x16 .f32) :
    Vec F S3000x16 .f32 :=
  View.canon [⟨rO, k0_pay1 (View.ld x1 rD) (View.ld x0 rA) (View.ld x2 rW1) (View.ld x3 rB) (View.ld x4 rW2) (View.ld x1 rD)⟩]

/-- The one store covers the output buffer. -/
theorem cover0_5 (p0 : Vec F S3000x16 .f32) (y : S3000x16.Idx) :
    ∃ pc ∈ ([⟨rO, p0⟩] : List (View.Piece (Elt F) S3000x16 .f32)), y ∈ pc.1.set :=
  View.cover_of_tiled [⟨rO, p0⟩] S3000x16.size (by rfl) y

set_option maxHeartbeats 4000000 in
/-- The body on whole staging memrefs: with the inputs' buffers at `x0 … x4` and the output's at anything, it runs to
    the continuation holding the inputs as they were and the output at `out0_5` of them. -/
theorem sound_kernel0 (c : Dev nD) (E : Set ℕ) (i : grid0.Coords)
    (arg1 : Memref sig .tc .vmem S3000x4 .f32) (harg1 : arg1.IsWhole) (arg2 : Memref sig .tc .vmem S3000x1 .f32) (harg2 : arg2.IsWhole)
    (arg3 : Memref sig .tc .vmem S4x16 .f32) (harg3 : arg3.IsWhole) (arg4 : Memref sig .tc .vmem S16 .f32) (harg4 : arg4.IsWhole)
    (arg5 : Memref sig .tc .vmem S16x16 .f32) (harg5 : arg5.IsWhole) (arg6 : Memref sig .tc .vmem S3000x16 .f32) (harg6 : arg6.IsWhole)
    (x0 : Vec F S3000x4 .f32) (x1 : Vec F S3000x1 .f32) (x2 : Vec F S4x16 .f32) (x3 : Vec F S16 .f32) (x4 : Vec F S16x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_transform_kernel i arg1 harg1 arg2 harg2 arg3 harg3 arg4 harg4 arg5 harg5 arg6 harg6) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region on one core -/

/-- Arrays as the region finds them; after the body at point `t` every input buffer still holds its block and the
    output buffer holds `out0_5` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KVals.lean ====
/-
  The buffers' contents between the program's items, up to the entry of the pooling region: the launch memory, each
  host stretch applied in turn, and the node-transform region's output array replaced by what its write-backs leave.
-/
import proofs.«400391_j66829691126192_3_alg».proof.Proof.Gen.Kernel.Launch
import proofs.«400391_j66829691126192_3_alg».proof.Proof.Gen.Kernel.Skeleton
import proofs.«400391_j66829691126192_3_alg».proof.Proof.Gen.Kernel.Points
import proofs.«400391_j66829691126192_3_alg».proof.Proof.Gen.Kernel.Regions
import proofs.«400391_j66829691126192_3_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The valuations between the items -/

/-- The TensorCore's buffers when the first region is entered. -/
abbrev E3 (c : Dev nD) (b : Ref sig .tc) : Buf (Elt F) ((c : Thread nD τ).loc b) := Gen.V3 m c b

/-- What the first region leaves in its output array. -/
def o4 (c : Dev nD) : Buf (Elt F) ((c : Thread nD τ).loc main_v30) := (dat0 (E3 m) c).arrAt 5 cfg0.N

/-- The contents the regions leave, as far as the first region: its output array at `o4`. -/
def outsA : Gen.Outs (F := F) := fun _ r c => Function.update (Gen.V3 m c) main_v30 (o4 m c) r

/-- The TensorCore's buffers when the second region is entered. -/
abbrev E5 (c : Dev nD) (b : Ref sig .tc) : Buf (Elt F) ((c : Thread nD τ).loc b) := Gen.V5 m (outsA m) c b

end Cert.Kernel.Hand

end
-- ==== Proof.KBody1.lean ====
/-
  The second kernel region (pooling the node features by graph, then the two-layer head) on one core, at the buffer
  contents `V` the region is entered with.  The grid has 50 points; the region carries an accumulator of 512 rows by
  16 columns from one point to the next.  At point t the body reads the t-th block of 3000 rows of the width-16
  aggregate, of the degree column and of the graph-index column, and the first bias whole:
    h = relu(agg * d + b),   acc := acc + onehot(graph)ᵀ · h,
  the accumulator having been set to zero first at point 0.  At point 49 it then reads the head's two weight arrays and
  two biases and writes the one output block
    out = relu(acc · Wf1 + bf1) · Wf2 + bf2;
  at every other point the output's staging buffer is left as found, and it is written back after point 49 only.
  So there are three control cases: the first point (reset, no head), the points strictly between (neither), the
  last point (head).  Stated here: what each staging buffer and the accumulator hold before and after the body at a
  point, the body's triple per case, and the obligation the pipeline rule asks of the body at every point.
-/
import proofs.«400391_j66829691126192_3_alg».proof.Proof.Gen.Kernel.Launch
import proofs.«400391_j66829691126192_3_alg».proof.Proof.Gen.Kernel.Skeleton
import proofs.«400391_j66829691126192_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the block index has not moved since): one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid coordinate, in closed form -/

/-- The body's first branch (zero the accumulator) is taken where the coordinate is 0: the scalar chain the body computes. -/
abbrev isFirst (i : grid1.Coords) : Prop :=
  (Scalar.cmpi .ne (Scalar.extui (Scalar.cmpi .eq (BitVec.ofNat 32 (i 0).val) 0#32)) 0#32) = 1#1
/-- It holds at point 0 only — decided over the grid. -/
theorem isFirst_iff : ∀ t : Fin cfg1.N, isFirst (grid1.coords t) ↔ t.val = 0 :=
  (by decide +kernel : ∀ t : Fin grid1.N, isFirst (grid1.coords t) ↔ t.val = 0)

/-- The body's second branch (the head) is taken where the coordinate is 49. -/
abbrev isLast (i : grid1.Coords) : Prop := k1_cond2 i = 1#1
/-- It holds at point 49 only — decided over the grid. -/
theorem isLast_iff : ∀ t : Fin cfg1.N, isLast (grid1.coords t) ↔ t.val = 49 :=
  (by decide +kernel : ∀ t : Fin grid1.N, isLast (grid1.coords t) ↔ t.val = 49)

/-! ## Where the output window is idle -/

/-- Off the last point the output window is idle (the body stores nothing into it) -/
theorem idle8_of_not_last : ∀ t : Fin cfg1.N, ¬isLast (grid1.coords t) → cfg1.idle 8 (grid1.coords t) = true := by decide +kernel
/-- and its block is not written back; -/
theorem noFlush8_of_not_last : ∀ t : Fin cfg1.N, ¬isLast (grid1.coords t) → (cfg1.win 8).flush t = false := by decide +kernel
/-- at the last point it is live. -/
theorem live8_of_last : ∀ t : Fin cfg1.N, isLast (grid1.coords t) → cfg1.idle 8 (grid1.coords t) = false := by decide +kernel

/-! ## The accumulator -/

/-- The accumulator the body carries from point to point, as the memref the pipeline passes. -/
abbrev accM : Memref sig .tc .vmem S512x16 .f32 := Memref.whole cc1_scratch0

/-- THE ACCUMULATION.  What the accumulator holds after the body at point `n`: the point's update of what the point
    before left, the first point's of the zero block. -/
def accAt (c : Dev nD) : (n : ℕ) → n < cfg1.N → Vec F S512x16 .f32
  | 0, h => k1_pay2 (iblk1 V c 1 ⟨0, h⟩) (iblk1 V c 0 ⟨0, h⟩) (iblk1 V c 3 ⟨0, h⟩) (iblk1 V c 2 ⟨0, h⟩) (k1_pay1 (F := F))
  | n + 1, h => k1_pay2 (iblk1 V c 1 ⟨n + 1, h⟩) (iblk1 V c 0 ⟨n + 1, h⟩) (iblk1 V c 3 ⟨n + 1, h⟩) (iblk1 V c 2 ⟨n + 1, h⟩)
      (accAt c n (Nat.lt_of_succ_lt h))

/-- The core's scoped buffers the region never touches: the first region's nine staging buffers, each at anything. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region invariant before point `n`: before the first point what the launch hands over (every scoped buffer
    that is no staging buffer of this region at anything, and the generator register); afterwards the same with the
    accumulator at what the point before left in it. -/
def PhiS1 (c : Dev nD) : (n : ℕ) → n ≤ cfg1.N → sProp 𝕄
  | 0, _ => Pipeline.ΦA spec1 c
  | n + 1, hn => iprop((others1 (F := F) c ∗ owns (c : Thread nD τ) accM fullShare (accAt V c n hn)) ∗ (∃ r, prngReg c r))

/-! ## The proof data of the region on one core -/

/-- Arrays as the region finds them; after the body at point `t` every input buffer still holds its block, and the
    output buffer holds the head of the accumulator after `t` (stored, and so meant, at the last point only); the
    invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay3 (accAt V c t.val t.isLt) (iblk1 V c 4 t) (iblk1 V c 5 t) (iblk1 V c 6 t) (iblk1 V c 7 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

/-! ## The body on any whole staging memrefs, case by case: the pieces each run leaves are found by the run itself -/

set_option maxHeartbeats 4000000 in
/-- THE FIRST POINT (reset taken, head not).  With the three row blocks and the first bias at `x0 … x3` and the
    accumulator at anything, the body runs to the continuation holding those as they were and the accumulator with
    the pieces `LS` written; it stores nothing into the output (`L8` is empty) and touches no other operand. -/
noncomputable def kernelRun1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨[], ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 4000000 in
/-- A POINT STRICTLY BETWEEN (neither branch taken).  As the first point's, the accumulator now at `xs`. -/
noncomputable def kernelRun1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨[], ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg10.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 4000000 in
/-- THE LAST POINT (head taken, reset not).  With all eight inputs at `x0 … x7`, the output at anything and the
    accumulator at `xs`, the body runs to the continuation holding the inputs as they were, the output with the
    pieces `L8` written and the accumulator with `LS` written. -/
noncomputable def kernelRun1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

/-! ## The staging memrefs at a point, as the pipeline passes them -/

abbrev ms1_0 (t : Fin cfg1.N) : Memref sig .tc .vmem S3000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)

/-! ## What each case leaves: the pieces the runs found, read back -/

theorem zeros2 : (![0, 0] : Fin 2 → Nat) = fun _ => 0 := funext fun a => by fin_cases a <;> rfl
theorem zeros1 : (![0] : Fin 1 → Nat) = fun _ => 0 := funext fun a => by fin_cases a <;> rfl

/-- The first point's pieces for the accumulator (the zero block, then the update over it) cover it. -/
theorem scover1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) (y : S512x16.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.1 S512x16.size (by sl_kernel_rfl) y

/-- A middle point's one piece for the accumulator covers it. -/
theorem scover1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) (y : S512x16.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xs).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xs).2.1 S512x16.size (by sl_kernel_rfl) y

/-- The last point's one piece for the accumulator covers it, -/
theorem scover1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) (y : S512x16.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1 S512x16.size (by sl_kernel_rfl) y

/-- and its one piece for the output covers the output block. -/
theorem ocover1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) (y : S512x1.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1 S512x1.size (by sl_kernel_rfl) y

/-- THE FIRST POINT leaves in the accumulator the update of the zero block: the second store covers, and its payload
    read the zero block back. -/
theorem sread1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) :
    View.canon (kernelRun1_A c i arg1 harg1 arg2 harg2 arg3 harg3 arg4 harg4 arg5 harg5 arg6 harg6 arg7 harg7 arg8 harg8 arg9 harg9 arg10 harg10 hc0 hc1 x0 x1 x2 x3).2.1 = k1_pay2 x1 x0 x3 x2 (k1_pay1 (F := F)) := by
  unfold kernelRun1_A
  dsimp only
  sl_unfold_words
  rw [View.canon_cons_unit_zero (S := S512x16) zeros2, View.readCov_unit_zero (S := S512x16) _ zeros2]
  simp only [View.readAt_eq_ld, harg1.read_unread, harg2.read_unread, harg3.read_unread, harg4.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- A MIDDLE POINT leaves in the accumulator the update of what it found there. -/
theorem sread1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) :
    View.canon (kernelRun1_B c i arg1 harg1 arg2 harg2 arg3 harg3 arg4 harg4 arg5 harg5 arg6 harg6 arg7 harg7 arg8 harg8 arg9 harg9 arg10 harg10 hc0 hc1 x0 x1 x2 x3 xs).2.1 = k1_pay2 x1 x0 x3 x2 xs := by
  unfold kernelRun1_B
  dsimp only
  sl_unfold_words
  rw [View.canon_unit_zero (S := S512x16) zeros2]
  simp only [View.readAt_eq_ld, harg1.read_unread, harg2.read_unread, harg3.read_unread, harg4.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- THE LAST POINT leaves in the accumulator the update of what it found there, -/
theorem sread1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    View.canon (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1 = k1_pay2 x1 x0 x3 x2 xs := by
  unfold kernelRun1_C
  dsimp only
  sl_unfold_words
  rw [View.canon_unit_zero (S := S512x16) zeros2]
  simp only [View.readAt_eq_ld, harg1.read_unread, harg2.read_unread, harg3.read_unread, harg4.read_unread, harg5.read_unread, harg6.read_unread, harg7.read_unread, harg8.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- and in the output the head of that updated accumulator (the head's load of the accumulator reads the store just
    made). -/
theorem oread1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    View.canon (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1 = k1_pay3 (k1_pay2 x1 x0 x3 x2 xs) x4 x5 x6 x7 := by
  unfold kernelRun1_C
  dsimp only
  sl_unfold_words
  rw [View.canon_unit_zero (S := S512x1) zeros2]
  simp only [View.readCov_unit_zero (S := S512x16) _ zeros2, View.readAt_eq_ld, harg1.read_unread, harg2.read_unread, harg3.read_unread, harg4.read_unread, harg5.read_unread, harg6.read_unread, harg7.read_unread, harg8.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-! ## The accumulation, at a point given by its place in the grid -/

theorem accAt_first (c : Dev nD) (t : Fin cfg1.N) (hz : t.val = 0) :
    accAt V c t.val t.isLt = k1_pay2 (iblk1 V c 1 t) (iblk1 V c 0 t) (iblk1 V c 3 t) (iblk1 V c 2 t) (k1_pay1 (F := F)) := by
  obtain ⟨n, hn⟩ := t
  cases n with
  | zero => rfl
  | succ n => exact absurd hz (Nat.succ_ne_zero n)

theorem accAt_later (c : Dev nD) (t : Fin cfg1.N) (hz : t.val ≠ 0) :
    accAt V c t.val t.isLt = k1_pay2 (iblk1 V c 1 t) (iblk1 V c 0 t) (iblk1 V c 3 t) (iblk1 V c 2 t) (accAt V c (t.val - 1) (Nat.lt_of_le_of_lt (Nat.sub_le _ _) t.isLt)) := by
  obtain ⟨n, hn⟩ := t
  cases n with
  | zero => exact absurd rfl hz
  | succ n => rfl

/-! ## The invariant, opened -/

/-- What the launch hands the region, opened: the nine buffers the region never touches, the accumulator at anything,
    and the generator register; -/
theorem PhiA1_open (c : Dev nD) : (Pipeline.ΦA spec1 c : sProp 𝕄) ⊢ iprop((others1 (F := F) c ∗ (∃ d, owns (c : Thread nD τ) accM fullShare d)) ∗ (∃ r, prngReg c r)) := by
  unfold Pipeline.ΦA; rw [scopedRest1_eq]; unfold others1; simp only [accM, owns_whole]
  iintro ⟨⟨G0, G1, G2, G3, G4, G5, G6, G7, G8, HS⟩, Hg⟩
  isplitl [G0 G1 G2 G3 G4 G5 G6 G7 G8 HS]
  · isplitl [G0 G1 G2 G3 G4 G5 G6 G7 G8]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      iexact G8
    iexact HS
  iexact Hg

/-- and closed again. -/
theorem PhiA1_close (c : Dev nD) : iprop((others1 (F := F) c ∗ (∃ d, owns (c : Thread nD τ) accM fullShare d)) ∗ (∃ r, prngReg c r)) ⊢ (Pipeline.ΦA spec1 c : sProp 𝕄) := by
  unfold Pipeline.ΦA; rw [scopedRest1_eq]; unfold others1; simp only [accM, owns_whole]
  iintro ⟨⟨⟨G0, G1, G2, G3, G4, G5, G6, G7, G8⟩, HS⟩, Hg⟩
  isplitl [G0 G1 G2 G3 G4 G5 G6 G7 G8 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact HS
  iexact Hg

theorem PhiA1_split (c : Dev nD) : (Pipeline.ΦA spec1 c : sProp 𝕄) = iprop((others1 (F := F) c ∗ (∃ d, owns (c : Thread nD τ) accM fullShare d)) ∗ (∃ r, prngReg c r)) :=
  BI.equiv_iff.mp ⟨PhiA1_open c, PhiA1_close c⟩

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop((others1 (F := F) c ∗ owns (c : Thread nD τ) accM fullShare (accAt V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop((others1 (F := F) c ∗ owns (c : Thread nD τ) accM fullShare (accAt V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = k1_pay3 (accAt V c t.val t.isLt) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ (dat1 V c).leavesExact 8 t)

set_option maxHeartbeats 8000000 in
/-- The body at any point.  The inputs' memrefs hold their blocks; the closed forms say which case the point is in;
    the invariant hands the body the accumulator at what the point before left (at anything before the first point)
    and takes it back at this point's contents; off the last point the output's buffer goes back as it came, at the
    last point it comes back holding the head. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7]
  have hN : t.val < 50 := lt_of_lt_of_eq t.isLt (show cfg1.N = 50 from N_1)
  by_cases h0 : t.val = 0
  · have hL : ¬t.val = 49 := by omega
    rw [Dat.leavesExact_idle (dat1 V c) 8 t (idle8_of_not_last t (fun h => hL ((isLast_iff t).mp h))) (noFlush8_of_not_last t (fun h => hL ((isLast_iff t).mp h)))]
    rw [accAt_first V c t h0]
    rw [PhiS1_castSucc V c t, PhiS1_zero V c _ _ h0, PhiA1_split]
    iintro ⟨⟨⟨Hoth, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [HS]; · iexists _; iexact HS
    iintro ⟨H0, H1, H2, H3, ⟨%es, HS⟩⟩
    isplitl [Hoth HS Hg]
    · isplitl [Hoth HS]
      · isplitl [Hoth]; · iexact Hoth
        unfold owns; iexists _; isplitr
        swap; · iexact HS
        ipureintro
        exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t))).trans (sread1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hL : t.val = 49
    · rw [show (dat1 V c).leavesExact 8 t = owns (c : Thread nD τ) (ms1_8 t) fullShare ((dat1 V c).after 8 t) from by
        unfold Dat.leavesExact; rw [live8_of_last t ((isLast_iff t).mpr hL)], after1_8]
      rw [accAt_later V c t h0]
      rw [PhiS1_castSucc V c t, PhiS1_pos V c _ _ h0]
      iintro ⟨⟨⟨Hoth, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [Hoth HS Hg]
      · isplitl [Hoth HS]
        · isplitl [Hoth]; · iexact Hoth
          unfold owns; iexists _; isplitr
          swap; · iexact HS
          ipureintro
          exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))).trans (sread1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro
      exact (View.read_writes_eq_canon _ _ _ (ocover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))).trans (oread1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))
    · rw [Dat.leavesExact_idle (dat1 V c) 8 t (idle8_of_not_last t (fun h => hL ((isLast_iff t).mp h))) (noFlush8_of_not_last t (fun h => hL ((isLast_iff t).mp h)))]
      rw [accAt_later V c t h0]
      rw [PhiS1_castSucc V c t, PhiS1_pos V c _ _ h0]
      iintro ⟨⟨⟨Hoth, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth HS]
        · isplitl [Hoth]; · iexact Hoth
          unfold owns; iexists _; isplitr
          swap; · iexact HS
          ipureintro
          exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt)))).trans (sread1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_split]
  iintro ⟨⟨Hoth, HS⟩, Hg⟩
  isplitl [Hoth HS]
  · isplitl [Hoth]; · iexact Hoth
    iexists _; iexact HS
  iexact Hg

/-! ## The accumulation and the output, as equations -/

theorem accAt_zero (c : Dev nD) (h : 0 < cfg1.N) :
    accAt V c 0 h = k1_pay2 (iblk1 V c 1 ⟨0, h⟩) (iblk1 V c 0 ⟨0, h⟩) (iblk1 V c 3 ⟨0, h⟩) (iblk1 V c 2 ⟨0, h⟩) (k1_pay1 (F := F)) := rfl
theorem accAt_succ (c : Dev nD) (n : ℕ) (h : n + 1 < cfg1.N) :
    accAt V c (n + 1) h = k1_pay2 (iblk1 V c 1 ⟨n + 1, h⟩) (iblk1 V c 0 ⟨n + 1, h⟩) (iblk1 V c 3 ⟨n + 1, h⟩) (iblk1 V c 2 ⟨n + 1, h⟩)
      (accAt V c n (by omega)) := rfl
theorem after1_8_last (c : Dev nD) (h : 49 < cfg1.N) :
    (dat1 V c).after 8 ⟨49, h⟩ = k1_pay3 (accAt V c 49 h) (iblk1 V c 4 ⟨49, h⟩) (iblk1 V c 5 ⟨49, h⟩) (iblk1 V c 6 ⟨49, h⟩) (iblk1 V c 7 ⟨49, h⟩) := by
  dsimp only [dat1]

end Cert.Kernel.Hand

end
-- ==== Proof.KRun.lean ====
/-
  The whole program on the TensorCore: host operations, the node-transform region, host operations, the pooling region.
  The buffers' contents between the items are followed as a chain of valuations: the launch memory, then each host
  stretch applied, then — after a region — the region's output array replaced by what its write-backs leave and every
  other buffer as it was.  Each region is entered from "every unscoped buffer at the current valuation, the generator
  register at some state, nothing owed" and left in the same shape at the next valuation.  The run's conclusion reads
  every unscoped buffer of the final memory at the last valuation: the argument arrays come out as launched (no item
  writes one), the result array at what the pooling region's last write-back leaves.
-/
import proofs.«400391_j66829691126192_3_alg».proof.Proof.Gen.Kernel.Launch
import proofs.«400391_j66829691126192_3_alg».proof.Proof.Gen.Kernel.Skeleton
import proofs.«400391_j66829691126192_3_alg».proof.Proof.Gen.Kernel.Points
import proofs.«400391_j66829691126192_3_alg».proof.Proof.Gen.Kernel.Regions
import proofs.«400391_j66829691126192_3_alg».proof.Proof.KVals
import proofs.«400391_j66829691126192_3_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region leaves in its output array (written back once, at the last point). -/
def o6 (c : Dev nD) : Buf (Elt F) ((c : Thread nD τ).loc main_v42) := (dat1 (E5 m) c).arrAt 8 cfg1.N

/-- The contents the regions leave: after the first region `o4` in its output, after the second `o6` in its. -/
def outs : Gen.Outs (F := F) := fun j r c =>
  match j with
  | 4 => outsA m 4 r c
  | _ => Function.update (Gen.V5 m (outsA m) c) main_v42 (o6 m c) r

theorem V4_outs (c : Dev nD) : Gen.V4 m (outs m) c = Gen.V4 m (outsA m) c := rfl
theorem V5_outs (c : Dev nD) : Gen.V5 m (outs m) c = Gen.V5 m (outsA m) c := rfl

/-- After the first region its output array holds `o4`. -/
theorem V4_v30 (c : Dev nD) : Gen.V4 m (outs m) c main_v30 = o4 m c := by
  show Function.update (Gen.V3 m c) main_v30 (Function.update (Gen.V3 m c) main_v30 (o4 m c) main_v30) main_v30 = _
  rw [Function.update_self, Function.update_self]

/-- After the second region its output array holds `o6`. -/
theorem V6_v42 (c : Dev nD) : Gen.V6 m (outs m) c main_v42 = o6 m c := by
  show Function.update (Gen.V5 m (outs m) c) main_v42 (Function.update (Gen.V5 m (outsA m) c) main_v42 (o6 m c) main_v42) main_v42 = _
  rw [Function.update_self, Function.update_self]

/-! ## The proof data family and the thread state -/

/-- Each region's proof data at its entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev Est : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option maxHeartbeats 4000000 in
theorem hF0 (c : Dev nD) (w : Fin cfg0.W) :
    (pdats m 0 c).arrAt w cfg0.N = (fun b : Ref sig .tc => Gen.V4 m (outs m) c b) (Pipeline.arrRef spec0 w) := by
  fin_cases w
  · exact ((pdats m 0 c).arrAt_in 0 rfl _).trans ((A_eq0 (E3 m) c 0).trans (Gen.V4_of m (outs m) c main_v29 (by decide)).symm)
  · exact ((pdats m 0 c).arrAt_in 1 rfl _).trans ((A_eq0 (E3 m) c 1).trans (Gen.V4_of m (outs m) c main_v17 (by decide)).symm)
  · exact ((pdats m 0 c).arrAt_in 2 rfl _).trans ((A_eq0 (E3 m) c 2).trans (Gen.V4_of m (outs m) c main_arg1 (by decide)).symm)
  · exact ((pdats m 0 c).arrAt_in 3 rfl _).trans ((A_eq0 (E3 m) c 3).trans (Gen.V4_of m (outs m) c main_arg2 (by decide)).symm)
  · exact ((pdats m 0 c).arrAt_in 4 rfl _).trans ((A_eq0 (E3 m) c 4).trans (Gen.V4_of m (outs m) c main_arg3 (by decide)).symm)
  · exact (V4_v30 m c).symm

theorem hrest0 (c : Dev nD) : ∀ b : Ref sig .tc, b ∉ Finset.univ.image (Pipeline.arrRef spec0) →
    (fun b : Ref sig .tc => Gen.V4 m (outs m) c b) b = E3 m c b := fun b hb =>
  Gen.V4_of m (outs m) c b (fun h => hb (Finset.mem_image.mpr ⟨5, Finset.mem_univ _, (List.mem_singleton.mp h).symm⟩))

set_option backward.isDefEq.respectTransparency.types false in
/-- The node-transform region: entered from every unscoped buffer at the valuation after the third host stretch, left
    at that valuation with the region's output array replaced. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (fun b : Ref sig .tc => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

set_option maxHeartbeats 4000000 in
theorem hF1 (c : Dev nD) (w : Fin cfg1.W) :
    (pdats m 1 c).arrAt w cfg1.N = (fun b : Ref sig .tc => Gen.V6 m (outs m) c b) (Pipeline.arrRef spec1 w) := by
  fin_cases w
  · exact ((pdats m 1 c).arrAt_in 0 rfl _).trans ((A_eq1 (E5 m) c 0).trans (Gen.V6_of m (outs m) c main_v40 (by decide)).symm)
  · exact ((pdats m 1 c).arrAt_in 1 rfl _).trans ((A_eq1 (E5 m) c 1).trans (Gen.V6_of m (outs m) c main_v17 (by decide)).symm)
  · exact ((pdats m 1 c).arrAt_in 2 rfl _).trans ((A_eq1 (E5 m) c 2).trans (Gen.V6_of m (outs m) c main_v41 (by decide)).symm)
  · exact ((pdats m 1 c).arrAt_in 3 rfl _).trans ((A_eq1 (E5 m) c 3).trans (Gen.V6_of m (outs m) c main_arg4 (by decide)).symm)
  · exact ((pdats m 1 c).arrAt_in 4 rfl _).trans ((A_eq1 (E5 m) c 4).trans (Gen.V6_of m (outs m) c main_arg5 (by decide)).symm)
  · exact ((pdats m 1 c).arrAt_in 5 rfl _).trans ((A_eq1 (E5 m) c 5).trans (Gen.V6_of m (outs m) c main_arg6 (by decide)).symm)
  · exact ((pdats m 1 c).arrAt_in 6 rfl _).trans ((A_eq1 (E5 m) c 6).trans (Gen.V6_of m (outs m) c main_arg7 (by decide)).symm)
  · exact ((pdats m 1 c).arrAt_in 7 rfl _).trans ((A_eq1 (E5 m) c 7).trans (Gen.V6_of m (outs m) c main_arg8 (by decide)).symm)
  · exact (V6_v42 m c).symm

theorem hrest1 (c : Dev nD) : ∀ b : Ref sig .tc, b ∉ Finset.univ.image (Pipeline.arrRef spec1) →
    (fun b : Ref sig .tc => Gen.V6 m (outs m) c b) b = E5 m c b := fun b hb =>
  Gen.V6_of m (outs m) c b (fun h => hb (Finset.mem_image.mpr ⟨8, Finset.mem_univ _, (List.mem_singleton.mp h).symm⟩))

set_option backward.isDefEq.respectTransparency.types false in
/-- The pooling region: entered from every unscoped buffer at the valuation after the fourth host stretch, left at that
    valuation with the result array replaced.  Its invariant is its own (the accumulator's contents are named from
    point to point); it is entered from, and gives back, the scoped rest at anything and the generator register. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (E5 m c) fun w => A_eq1 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E5 m) c)
    unfold Pipeline.ΦA
    iintro ⟨Hp, -, Hr⟩
    isplitl [Hr]; · iexact Hr
    iexact Hp
  hout c := by
    rw [Pipeline.ownSems0_none]
    refine (hout1 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (fun b : Ref sig .tc => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and the
    final memory holds every unscoped buffer at the last valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv Est () (pdats m) (reg0 m) (reg1 m))
    (fun c Q => by
      rewrite [main_chain c, Pipeline.Seg.run_eq_chain,
        show (Gen.segs m (outs m) 𝒱₀ L lv Est () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V6 m (outs m) c) ∗ ∃ r, prngReg c r))
    (hch := fun c => ⟨.rfl, .rfl, .rfl, .rfl, .rfl, .rfl,
      (show iprop(StableHlo.held (c : Thread nD τ) (Pipeline.ucRefs τ sig) (Gen.V6 m (outs m) c) ∗ R c)
          ⊢ iprop((StableHlo.held (c : Thread nD τ) (Pipeline.ucRefs τ sig) (Gen.V6 m (outs m) c) ∗ ∃ r, prngReg c r)
            ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

/-- The run with the result named: the result array ends at what the pooling region's write-back leaves, the
    argument arrays as launched. -/
theorem run_value : θ_run defs (onTc (τ := τ) (main (F := F))) ⟨m, fun _ => 0, ρ⟩ (fun r => ∀ c : Dev nD,
      r.2.mem ((c.tc : Thread nD τ).loc main_v42) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v42 (by decide))).trans (V6_v42 m c),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

end Cert.Kernel.Hand

end
-- ==== Proof.KIBody0.lean ====
/-
  The first kernel region (the fused node transform) on one core, at the buffer contents `V` the region is entered
  with.  At grid point t the body reads the t-th block of 3000 rows of the raw width-4 aggregate and of the
  degree column, and the three weight arrays whole; it writes one block of 3000 rows of the output:
    out[r, :] = (relu((agg[r, :] * d[r]) · W1 + b1) · W2) * d[r].
  Nothing is carried from one point to the next.  Stated here: what each staging buffer holds before and after the
  body at a point, the body's triple, and the obligation the pipeline rule asks of the body at every point.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the block index has not moved since): one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole staging buffer -/

abbrev rA : Rect S3000x4 := Rect.unit (s := S3000x4) ![0, 0] S3000x4.size inb_S3000x4_S3000x4_0_0
abbrev rD : Rect S3000x1 := Rect.unit (s := S3000x1) ![0, 0] S3000x1.size inb_S3000x1_S3000x1_0_0
abbrev rW1 : Rect S4x16 := Rect.unit (s := S4x16) ![0, 0] S4x16.size inb_S4x16_S4x16_0_0
abbrev rB : Rect S16 := Rect.unit (s := S16) ![0] S16.size inb_S16_S16_0
abbrev rW2 : Rect S16x16 := Rect.unit (s := S16x16) ![0, 0] S16x16.size inb_S16x16_S16x16_0_0
abbrev rO : Rect S3000x16 := Rect.unit (s := S3000x16) ![0, 0] S3000x16.size inb_S3000x16_S3000x16_0_0

/-- The output block after the body, from the five input blocks: the body's one store, over the whole buffer. -/
def out0_5 (x0 : Vec F S3000x4 .f32) (x1 : Vec F S3000x1 .f32) (x2 : Vec F S4x16 .f32) (x3 : Vec F S16 .f32) (x4 : Vec F S16x16 .f32) :
    Vec F S3000x16 .f32 :=
  View.canon [⟨rO, k0_pay1 (View.ld x1 rD) (View.ld x0 rA) (View.ld x2 rW1) (View.ld x3 rB) (View.ld x4 rW2) (View.ld x1 rD)⟩]

/-- The one store covers the output buffer. -/
theorem cover0_5 (p0 : Vec F S3000x16 .f32) (y : S3000x16.Idx) :
    ∃ pc ∈ ([⟨rO, p0⟩] : List (View.Piece (Elt F) S3000x16 .f32)), y ∈ pc.1.set :=
  View.cover_of_tiled [⟨rO, p0⟩] S3000x16.size (by rfl) y

set_option maxHeartbeats 4000000 in
/-- The body on whole staging memrefs: with the inputs' buffers at `x0 … x4` and the output's at anything, it runs to
    the continuation holding the inputs as they were and the output at `out0_5` of them. -/
theorem sound_kernel0 (c : Dev nD) (E : Set ℕ) (i : grid0.Coords)
    (arg1 : Memref sig .tc .vmem S3000x4 .f32) (harg1 : arg1.IsWhole) (arg2 : Memref sig .tc .vmem S3000x1 .f32) (harg2 : arg2.IsWhole)
    (arg3 : Memref sig .tc .vmem S4x16 .f32) (harg3 : arg3.IsWhole) (arg4 : Memref sig .tc .vmem S16 .f32) (harg4 : arg4.IsWhole)
    (arg5 : Memref sig .tc .vmem S16x16 .f32) (harg5 : arg5.IsWhole) (arg6 : Memref sig .tc .vmem S3000x16 .f32) (harg6 : arg6.IsWhole)
    (x0 : Vec F S3000x4 .f32) (x1 : Vec F S3000x1 .f32) (x2 : Vec F S4x16 .f32) (x3 : Vec F S16 .f32) (x4 : Vec F S16x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_transform_kernel i arg1 harg1 arg2 harg2 arg3 harg3 arg4 harg4 arg5 harg5 arg6 harg6) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region on one core -/

/-- Arrays as the region finds them; after the body at point `t` every input buffer still holds its block and the
    output buffer holds `out0_5` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIVals.lean ====
/-
  The buffers' contents between the program's items, up to the entry of the pooling region: the launch memory, each
  host stretch applied in turn, and the node-transform region's output array replaced by what its write-backs leave.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import proofs.«400391_j66829691126192_3_alg».proof.Proof.Gen.KernelIdeal.Regions
import proofs.«400391_j66829691126192_3_alg».proof.Proof.KIBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The valuations between the items -/

/-- The TensorCore's buffers when the first region is entered. -/
abbrev E3 (c : Dev nD) (b : Ref sig .tc) : Buf (Elt F) ((c : Thread nD τ).loc b) := Gen.V3 m c b

/-- What the first region leaves in its output array. -/
def o4 (c : Dev nD) : Buf (Elt F) ((c : Thread nD τ).loc main_v30) := (dat0 (E3 m) c).arrAt 5 cfg0.N

/-- The contents the regions leave, as far as the first region: its output array at `o4`. -/
def outsA : Gen.Outs (F := F) := fun _ r c => Function.update (Gen.V3 m c) main_v30 (o4 m c) r

/-- The TensorCore's buffers when the second region is entered. -/
abbrev E5 (c : Dev nD) (b : Ref sig .tc) : Buf (Elt F) ((c : Thread nD τ).loc b) := Gen.V5 m (outsA m) c b

end Cert.KernelIdeal.Hand

end
-- ==== Proof.KIBody1.lean ====
/-
  The second kernel region (pooling the node features by graph, then the two-layer head) on one core, at the buffer
  contents `V` the region is entered with.  The grid has 50 points; the region carries an accumulator of 512 rows by
  16 columns from one point to the next.  At point t the body reads the t-th block of 3000 rows of the width-16
  aggregate, of the degree column and of the graph-index column, and the first bias whole:
    h = relu(agg * d + b),   acc := acc + onehot(graph)ᵀ · h,
  the accumulator having been set to zero first at point 0.  At point 49 it then reads the head's two weight arrays and
  two biases and writes the one output block
    out = relu(acc · Wf1 + bf1) · Wf2 + bf2;
  at every other point the output's staging buffer is left as found, and it is written back after point 49 only.
  So there are three control cases: the first point (reset, no head), the points strictly between (neither), the
  last point (head).  Stated here: what each staging buffer and the accumulator hold before and after the body at a
  point, the body's triple per case, and the obligation the pipeline rule asks of the body at every point.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the block index has not moved since): one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid coordinate, in closed form -/

/-- The body's first branch (zero the accumulator) is taken where the coordinate is 0: the scalar chain the body computes. -/
abbrev isFirst (i : grid1.Coords) : Prop :=
  (Scalar.cmpi .ne (Scalar.extui (Scalar.cmpi .eq (BitVec.ofNat 32 (i 0).val) 0#32)) 0#32) = 1#1
/-- It holds at point 0 only — decided over the grid. -/
theorem isFirst_iff : ∀ t : Fin cfg1.N, isFirst (grid1.coords t) ↔ t.val = 0 :=
  (by decide +kernel : ∀ t : Fin grid1.N, isFirst (grid1.coords t) ↔ t.val = 0)

/-- The body's second branch (the head) is taken where the coordinate is 49. -/
abbrev isLast (i : grid1.Coords) : Prop := k1_cond2 i = 1#1
/-- It holds at point 49 only — decided over the grid. -/
theorem isLast_iff : ∀ t : Fin cfg1.N, isLast (grid1.coords t) ↔ t.val = 49 :=
  (by decide +kernel : ∀ t : Fin grid1.N, isLast (grid1.coords t) ↔ t.val = 49)

/-! ## Where the output window is idle -/

/-- Off the last point the output window is idle (the body stores nothing into it) -/
theorem idle8_of_not_last : ∀ t : Fin cfg1.N, ¬isLast (grid1.coords t) → cfg1.idle 8 (grid1.coords t) = true := by decide +kernel
/-- and its block is not written back; -/
theorem noFlush8_of_not_last : ∀ t : Fin cfg1.N, ¬isLast (grid1.coords t) → (cfg1.win 8).flush t = false := by decide +kernel
/-- at the last point it is live. -/
theorem live8_of_last : ∀ t : Fin cfg1.N, isLast (grid1.coords t) → cfg1.idle 8 (grid1.coords t) = false := by decide +kernel

/-! ## The accumulator -/

/-- The accumulator the body carries from point to point, as the memref the pipeline passes. -/
abbrev accM : Memref sig .tc .vmem S512x16 .f32 := Memref.whole cc1_scratch0

/-- THE ACCUMULATION.  What the accumulator holds after the body at point `n`: the point's update of what the point
    before left, the first point's of the zero block. -/
def accAt (c : Dev nD) : (n : ℕ) → n < cfg1.N → Vec F S512x16 .f32
  | 0, h => k1_pay2 (iblk1 V c 1 ⟨0, h⟩) (iblk1 V c 0 ⟨0, h⟩) (iblk1 V c 3 ⟨0, h⟩) (iblk1 V c 2 ⟨0, h⟩) (k1_pay1 (F := F))
  | n + 1, h => k1_pay2 (iblk1 V c 1 ⟨n + 1, h⟩) (iblk1 V c 0 ⟨n + 1, h⟩) (iblk1 V c 3 ⟨n + 1, h⟩) (iblk1 V c 2 ⟨n + 1, h⟩)
      (accAt c n (Nat.lt_of_succ_lt h))

/-- The core's scoped buffers the region never touches: the first region's nine staging buffers, each at anything. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region invariant before point `n`: before the first point what the launch hands over (every scoped buffer
    that is no staging buffer of this region at anything, and the generator register); afterwards the same with the
    accumulator at what the point before left in it. -/
def PhiS1 (c : Dev nD) : (n : ℕ) → n ≤ cfg1.N → sProp 𝕄
  | 0, _ => Pipeline.ΦA spec1 c
  | n + 1, hn => iprop((others1 (F := F) c ∗ owns (c : Thread nD τ) accM fullShare (accAt V c n hn)) ∗ (∃ r, prngReg c r))

/-! ## The proof data of the region on one core -/

/-- Arrays as the region finds them; after the body at point `t` every input buffer still holds its block, and the
    output buffer holds the head of the accumulator after `t` (stored, and so meant, at the last point only); the
    invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay3 (accAt V c t.val t.isLt) (iblk1 V c 4 t) (iblk1 V c 5 t) (iblk1 V c 6 t) (iblk1 V c 7 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

/-! ## The body on any whole staging memrefs, case by case: the pieces each run leaves are found by the run itself -/

set_option maxHeartbeats 4000000 in
/-- THE FIRST POINT (reset taken, head not).  With the three row blocks and the first bias at `x0 … x3` and the
    accumulator at anything, the body runs to the continuation holding those as they were and the accumulator with
    the pieces `LS` written; it stores nothing into the output (`L8` is empty) and touches no other operand. -/
noncomputable def kernelRun1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨[], ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 4000000 in
/-- A POINT STRICTLY BETWEEN (neither branch taken).  As the first point's, the accumulator now at `xs`. -/
noncomputable def kernelRun1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨[], ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg10.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 4000000 in
/-- THE LAST POINT (head taken, reset not).  With all eight inputs at `x0 … x7`, the output at anything and the
    accumulator at `xs`, the body runs to the continuation holding the inputs as they were, the output with the
    pieces `L8` written and the accumulator with `LS` written. -/
noncomputable def kernelRun1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    Σ' (L8 : List (View.Piece (Elt F) S512x1 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc1__pool_mlp_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__pool_mlp_kernel_eq_skeleton]; unfold cc1__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

/-! ## The staging memrefs at a point, as the pipeline passes them -/

abbrev ms1_0 (t : Fin cfg1.N) : Memref sig .tc .vmem S3000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)

/-! ## What each case leaves: the pieces the runs found, read back -/

theorem zeros2 : (![0, 0] : Fin 2 → Nat) = fun _ => 0 := funext fun a => by fin_cases a <;> rfl
theorem zeros1 : (![0] : Fin 1 → Nat) = fun _ => 0 := funext fun a => by fin_cases a <;> rfl

/-- The first point's pieces for the accumulator (the zero block, then the update over it) cover it. -/
theorem scover1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) (y : S512x16.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.1 S512x16.size (by sl_kernel_rfl) y

/-- A middle point's one piece for the accumulator covers it. -/
theorem scover1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) (y : S512x16.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xs).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xs).2.1 S512x16.size (by sl_kernel_rfl) y

/-- The last point's one piece for the accumulator covers it, -/
theorem scover1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) (y : S512x16.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1 S512x16.size (by sl_kernel_rfl) y

/-- and its one piece for the output covers the output block. -/
theorem ocover1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) (y : S512x1.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1 S512x1.size (by sl_kernel_rfl) y

/-- THE FIRST POINT leaves in the accumulator the update of the zero block: the second store covers, and its payload
    read the zero block back. -/
theorem sread1_A (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : isFirst i) (hc1 : ¬isLast i)
    (x0 : Vec F S3000x16 .f32) (x1 : Vec F S3000x1 .f32) (x2 : Vec F S3000x1 .i32) (x3 : Vec F S16 .f32) :
    View.canon (kernelRun1_A c i arg1 harg1 arg2 harg2 arg3 harg3 arg4 harg4 arg5 harg5 arg6 harg6 arg7 harg7 arg8 harg8 arg9 harg9 arg10 harg10 hc0 hc1 x0 x1 x2 x3).2.1 = k1_pay2 x1 x0 x3 x2 (k1_pay1 (F := F)) := by
  unfold kernelRun1_A
  dsimp only
  sl_unfold_words
  rw [View.canon_cons_unit_zero (S := S512x16) zeros2, View.readCov_unit_zero (S := S512x16) _ zeros2]
  simp only [View.readAt_eq_ld, harg1.read_unread, harg2.read_unread, harg3.read_unread, harg4.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- A MIDDLE POINT leaves in the accumulator the update of what it found there. -/
theorem sread1_B (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : ¬isLast i)
    (x0 : Vec F S3000x16 .f32) (x1 : Vec F S3000x1 .f32) (x2 : Vec F S3000x1 .i32) (x3 : Vec F S16 .f32) (xs : Vec F S512x16 .f32) :
    View.canon (kernelRun1_B c i arg1 harg1 arg2 harg2 arg3 harg3 arg4 harg4 arg5 harg5 arg6 harg6 arg7 harg7 arg8 harg8 arg9 harg9 arg10 harg10 hc0 hc1 x0 x1 x2 x3 xs).2.1 = k1_pay2 x1 x0 x3 x2 xs := by
  unfold kernelRun1_B
  dsimp only
  sl_unfold_words
  rw [View.canon_unit_zero (S := S512x16) zeros2]
  simp only [View.readAt_eq_ld, harg1.read_unread, harg2.read_unread, harg3.read_unread, harg4.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- THE LAST POINT leaves in the accumulator the update of what it found there, -/
theorem sread1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    View.canon (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).2.1 = k1_pay2 x1 x0 x3 x2 xs := by
  unfold kernelRun1_C
  dsimp only
  sl_unfold_words
  rw [View.canon_unit_zero (S := S512x16) zeros2]
  simp only [View.readAt_eq_ld, harg1.read_unread, harg2.read_unread, harg3.read_unread, harg4.read_unread, harg5.read_unread, harg6.read_unread, harg7.read_unread, harg8.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-- and in the output the head of that updated accumulator (the head's load of the accumulator reads the store just
    made). -/
theorem oread1_C (c : Dev nD) (i : grid1.Coords) (arg1 : Memref sig .tc .vmem S3000x16 .f32) (harg1 : arg1.IsWhole) (arg2 : Memref sig .tc .vmem S3000x1 .f32) (harg2 : arg2.IsWhole) (arg3 : Memref sig .tc .vmem S3000x1 .i32) (harg3 : arg3.IsWhole) (arg4 : Memref sig .tc .vmem S16 .f32) (harg4 : arg4.IsWhole) (arg5 : Memref sig .tc .vmem S16x16 .f32) (harg5 : arg5.IsWhole) (arg6 : Memref sig .tc .vmem S16 .f32) (harg6 : arg6.IsWhole) (arg7 : Memref sig .tc .vmem S16x1 .f32) (harg7 : arg7.IsWhole) (arg8 : Memref sig .tc .vmem S1 .f32) (harg8 : arg8.IsWhole) (arg9 : Memref sig .tc .vmem S512x1 .f32) (harg9 : arg9.IsWhole) (arg10 : Memref sig .tc .vmem S512x16 .f32) (harg10 : arg10.IsWhole) (hc0 : ¬isFirst i) (hc1 : isLast i)
    (x0 : Vec F S3000x16 .f32) (x1 : Vec F S3000x1 .f32) (x2 : Vec F S3000x1 .i32) (x3 : Vec F S16 .f32) (x4 : Vec F S16x16 .f32) (x5 : Vec F S16 .f32) (x6 : Vec F S16x1 .f32) (x7 : Vec F S1 .f32) (xs : Vec F S512x16 .f32) :
    View.canon (kernelRun1_C c i arg1 harg1 arg2 harg2 arg3 harg3 arg4 harg4 arg5 harg5 arg6 harg6 arg7 harg7 arg8 harg8 arg9 harg9 arg10 harg10 hc0 hc1 x0 x1 x2 x3 x4 x5 x6 x7 xs).1 = k1_pay3 (k1_pay2 x1 x0 x3 x2 xs) x4 x5 x6 x7 := by
  unfold kernelRun1_C
  dsimp only
  sl_unfold_words
  rw [View.canon_unit_zero (S := S512x1) zeros2]
  simp only [View.readCov_unit_zero (S := S512x16) _ zeros2, View.readAt_eq_ld, harg1.read_unread, harg2.read_unread, harg3.read_unread, harg4.read_unread, harg5.read_unread, harg6.read_unread, harg7.read_unread, harg8.read_unread, harg10.read_unread, View.ld_unit_zero (S := S3000x16) zeros2, View.ld_unit_zero (S := S3000x1) zeros2, View.ld_unit_zero (S := S16) zeros1, View.ld_unit_zero (S := S512x16) zeros2, View.ld_unit_zero (S := S16x16) zeros2, View.ld_unit_zero (S := S16x1) zeros2, View.ld_unit_zero (S := S1) zeros1]

/-! ## The accumulation, at a point given by its place in the grid -/

theorem accAt_first (c : Dev nD) (t : Fin cfg1.N) (hz : t.val = 0) :
    accAt V c t.val t.isLt = k1_pay2 (iblk1 V c 1 t) (iblk1 V c 0 t) (iblk1 V c 3 t) (iblk1 V c 2 t) (k1_pay1 (F := F)) := by
  obtain ⟨n, hn⟩ := t
  cases n with
  | zero => rfl
  | succ n => exact absurd hz (Nat.succ_ne_zero n)

theorem accAt_later (c : Dev nD) (t : Fin cfg1.N) (hz : t.val ≠ 0) :
    accAt V c t.val t.isLt = k1_pay2 (iblk1 V c 1 t) (iblk1 V c 0 t) (iblk1 V c 3 t) (iblk1 V c 2 t) (accAt V c (t.val - 1) (Nat.lt_of_le_of_lt (Nat.sub_le _ _) t.isLt)) := by
  obtain ⟨n, hn⟩ := t
  cases n with
  | zero => exact absurd rfl hz
  | succ n => rfl

/-! ## The invariant, opened -/

/-- What the launch hands the region, opened: the nine buffers the region never touches, the accumulator at anything,
    and the generator register; -/
theorem PhiA1_open (c : Dev nD) : (Pipeline.ΦA spec1 c : sProp 𝕄) ⊢ iprop((others1 (F := F) c ∗ (∃ d, owns (c : Thread nD τ) accM fullShare d)) ∗ (∃ r, prngReg c r)) := by
  unfold Pipeline.ΦA; rw [scopedRest1_eq]; unfold others1; simp only [accM, owns_whole]
  iintro ⟨⟨G0, G1, G2, G3, G4, G5, G6, G7, G8, HS⟩, Hg⟩
  isplitl [G0 G1 G2 G3 G4 G5 G6 G7 G8 HS]
  · isplitl [G0 G1 G2 G3 G4 G5 G6 G7 G8]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      iexact G8
    iexact HS
  iexact Hg

/-- and closed again. -/
theorem PhiA1_close (c : Dev nD) : iprop((others1 (F := F) c ∗ (∃ d, owns (c : Thread nD τ) accM fullShare d)) ∗ (∃ r, prngReg c r)) ⊢ (Pipeline.ΦA spec1 c : sProp 𝕄) := by
  unfold Pipeline.ΦA; rw [scopedRest1_eq]; unfold others1; simp only [accM, owns_whole]
  iintro ⟨⟨⟨G0, G1, G2, G3, G4, G5, G6, G7, G8⟩, HS⟩, Hg⟩
  isplitl [G0 G1 G2 G3 G4 G5 G6 G7 G8 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact HS
  iexact Hg

theorem PhiA1_split (c : Dev nD) : (Pipeline.ΦA spec1 c : sProp 𝕄) = iprop((others1 (F := F) c ∗ (∃ d, owns (c : Thread nD τ) accM fullShare d)) ∗ (∃ r, prngReg c r)) :=
  BI.equiv_iff.mp ⟨PhiA1_open c, PhiA1_close c⟩

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop((others1 (F := F) c ∗ owns (c : Thread nD τ) accM fullShare (accAt V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop((others1 (F := F) c ∗ owns (c : Thread nD τ) accM fullShare (accAt V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = k1_pay3 (accAt V c t.val t.isLt) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ (dat1 V c).leavesExact 8 t)

set_option maxHeartbeats 8000000 in
/-- The body at any point.  The inputs' memrefs hold their blocks; the closed forms say which case the point is in;
    the invariant hands the body the accumulator at what the point before left (at anything before the first point)
    and takes it back at this point's contents; off the last point the output's buffer goes back as it came, at the
    last point it comes back holding the head. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7]
  have hN : t.val < 50 := lt_of_lt_of_eq t.isLt (show cfg1.N = 50 from N_1)
  by_cases h0 : t.val = 0
  · have hL : ¬t.val = 49 := by omega
    rw [Dat.leavesExact_idle (dat1 V c) 8 t (idle8_of_not_last t (fun h => hL ((isLast_iff t).mp h))) (noFlush8_of_not_last t (fun h => hL ((isLast_iff t).mp h)))]
    rw [accAt_first V c t h0]
    rw [PhiS1_castSucc V c t, PhiS1_zero V c _ _ h0, PhiA1_split]
    iintro ⟨⟨⟨Hoth, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [HS]; · iexists _; iexact HS
    iintro ⟨H0, H1, H2, H3, ⟨%es, HS⟩⟩
    isplitl [Hoth HS Hg]
    · isplitl [Hoth HS]
      · isplitl [Hoth]; · iexact Hoth
        unfold owns; iexists _; isplitr
        swap; · iexact HS
        ipureintro
        exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t))).trans (sread1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) ((isFirst_iff t).mpr h0) (fun h => hL ((isLast_iff t).mp h)) (iblk1 V c 0 t) (iblk1 V c 1 t) (iblk1 V c 2 t) (iblk1 V c 3 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hL : t.val = 49
    · rw [show (dat1 V c).leavesExact 8 t = owns (c : Thread nD τ) (ms1_8 t) fullShare ((dat1 V c).after 8 t) from by
        unfold Dat.leavesExact; rw [live8_of_last t ((isLast_iff t).mpr hL)], after1_8]
      rw [accAt_later V c t h0]
      rw [PhiS1_castSucc V c t, PhiS1_pos V c _ _ h0]
      iintro ⟨⟨⟨Hoth, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [Hoth HS Hg]
      · isplitl [Hoth HS]
        · isplitl [Hoth]; · iexact Hoth
          unfold owns; iexists _; isplitr
          swap; · iexact HS
          ipureintro
          exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))).trans (sread1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro
      exact (View.read_writes_eq_canon _ _ _ (ocover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))).trans (oread1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) ((isLast_iff t).mpr hL) (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))
    · rw [Dat.leavesExact_idle (dat1 V c) 8 t (idle8_of_not_last t (fun h => hL ((isLast_iff t).mp h))) (noFlush8_of_not_last t (fun h => hL ((isLast_iff t).mp h)))]
      rw [accAt_later V c t h0]
      rw [PhiS1_castSucc V c t, PhiS1_pos V c _ _ h0]
      iintro ⟨⟨⟨Hoth, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth HS]
        · isplitl [Hoth]; · iexact Hoth
          unfold owns; iexists _; isplitr
          swap; · iexact HS
          ipureintro
          exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt)))).trans (sread1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (fun h => h0 ((isFirst_iff t).mp h)) (fun h => hL ((isLast_iff t).mp h)) (iblk1 V c 0 t) (iblk1 V c 1 t) (iblk1 V c 2 t) (iblk1 V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_split]
  iintro ⟨⟨Hoth, HS⟩, Hg⟩
  isplitl [Hoth HS]
  · isplitl [Hoth]; · iexact Hoth
    iexists _; iexact HS
  iexact Hg

/-! ## The accumulation and the output, as equations -/

theorem accAt_zero (c : Dev nD) (h : 0 < cfg1.N) :
    accAt V c 0 h = k1_pay2 (iblk1 V c 1 ⟨0, h⟩) (iblk1 V c 0 ⟨0, h⟩) (iblk1 V c 3 ⟨0, h⟩) (iblk1 V c 2 ⟨0, h⟩) (k1_pay1 (F := F)) := rfl
theorem accAt_succ (c : Dev nD) (n : ℕ) (h : n + 1 < cfg1.N) :
    accAt V c (n + 1) h = k1_pay2 (iblk1 V c 1 ⟨n + 1, h⟩) (iblk1 V c 0 ⟨n + 1, h⟩) (iblk1 V c 3 ⟨n + 1, h⟩) (iblk1 V c 2 ⟨n + 1, h⟩)
      (accAt V c n (by omega)) := rfl
theorem after1_8_last (c : Dev nD) (h : 49 < cfg1.N) :
    (dat1 V c).after 8 ⟨49, h⟩ = k1_pay3 (accAt V c 49 h) (iblk1 V c 4 ⟨49, h⟩) (iblk1 V c 5 ⟨49, h⟩) (iblk1 V c 6 ⟨49, h⟩) (iblk1 V c 7 ⟨49, h⟩) := by
  dsimp only [dat1]

end Cert.KernelIdeal.Hand

end
-- ==== Proof.KIRun.lean ====
/-
  The whole program on the TensorCore: host operations, the node-transform region, host operations, the pooling region.
  The buffers' contents between the items are followed as a chain of valuations: the launch memory, then each host
  stretch applied, then — after a region — the region's output array replaced by what its write-backs leave and every
  other buffer as it was.  Each region is entered from "every unscoped buffer at the current valuation, the generator
  register at some state, nothing owed" and left in the same shape at the next valuation.  The run's conclusion reads
  every unscoped buffer of the final memory at the last valuation: the argument arrays come out as launched (no item
  writes one), the result array at what the pooling region's last write-back leaves.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import proofs.«400391_j66829691126192_3_alg».proof.Proof.Gen.KernelIdeal.Regions
import proofs.«400391_j66829691126192_3_alg».proof.Proof.KIVals
import proofs.«400391_j66829691126192_3_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region leaves in its output array (written back once, at the last point). -/
def o6 (c : Dev nD) : Buf (Elt F) ((c : Thread nD τ).loc main_v42) := (dat1 (E5 m) c).arrAt 8 cfg1.N

/-- The contents the regions leave: after the first region `o4` in its output, after the second `o6` in its. -/
def outs : Gen.Outs (F := F) := fun j r c =>
  match j with
  | 4 => outsA m 4 r c
  | _ => Function.update (Gen.V5 m (outsA m) c) main_v42 (o6 m c) r

theorem V4_outs (c : Dev nD) : Gen.V4 m (outs m) c = Gen.V4 m (outsA m) c := rfl
theorem V5_outs (c : Dev nD) : Gen.V5 m (outs m) c = Gen.V5 m (outsA m) c := rfl

/-- After the first region its output array holds `o4`. -/
theorem V4_v30 (c : Dev nD) : Gen.V4 m (outs m) c main_v30 = o4 m c := by
  show Function.update (Gen.V3 m c) main_v30 (Function.update (Gen.V3 m c) main_v30 (o4 m c) main_v30) main_v30 = _
  rw [Function.update_self, Function.update_self]

/-- After the second region its output array holds `o6`. -/
theorem V6_v42 (c : Dev nD) : Gen.V6 m (outs m) c main_v42 = o6 m c := by
  show Function.update (Gen.V5 m (outs m) c) main_v42 (Function.update (Gen.V5 m (outsA m) c) main_v42 (o6 m c) main_v42) main_v42 = _
  rw [Function.update_self, Function.update_self]

/-! ## The proof data family and the thread state -/

/-- Each region's proof data at its entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev Est : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option maxHeartbeats 4000000 in
theorem hF0 (c : Dev nD) (w : Fin cfg0.W) :
    (pdats m 0 c).arrAt w cfg0.N = (fun b : Ref sig .tc => Gen.V4 m (outs m) c b) (Pipeline.arrRef spec0 w) := by
  fin_cases w
  · exact ((pdats m 0 c).arrAt_in 0 rfl _).trans ((A_eq0 (E3 m) c 0).trans (Gen.V4_of m (outs m) c main_v29 (by decide)).symm)
  · exact ((pdats m 0 c).arrAt_in 1 rfl _).trans ((A_eq0 (E3 m) c 1).trans (Gen.V4_of m (outs m) c main_v17 (by decide)).symm)
  · exact ((pdats m 0 c).arrAt_in 2 rfl _).trans ((A_eq0 (E3 m) c 2).trans (Gen.V4_of m (outs m) c main_arg1 (by decide)).symm)
  · exact ((pdats m 0 c).arrAt_in 3 rfl _).trans ((A_eq0 (E3 m) c 3).trans (Gen.V4_of m (outs m) c main_arg2 (by decide)).symm)
  · exact ((pdats m 0 c).arrAt_in 4 rfl _).trans ((A_eq0 (E3 m) c 4).trans (Gen.V4_of m (outs m) c main_arg3 (by decide)).symm)
  · exact (V4_v30 m c).symm

theorem hrest0 (c : Dev nD) : ∀ b : Ref sig .tc, b ∉ Finset.univ.image (Pipeline.arrRef spec0) →
    (fun b : Ref sig .tc => Gen.V4 m (outs m) c b) b = E3 m c b := fun b hb =>
  Gen.V4_of m (outs m) c b (fun h => hb (Finset.mem_image.mpr ⟨5, Finset.mem_univ _, (List.mem_singleton.mp h).symm⟩))

set_option backward.isDefEq.respectTransparency.types false in
/-- The node-transform region: entered from every unscoped buffer at the valuation after the third host stretch, left
    at that valuation with the region's output array replaced. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (fun b : Ref sig .tc => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

set_option maxHeartbeats 4000000 in
theorem hF1 (c : Dev nD) (w : Fin cfg1.W) :
    (pdats m 1 c).arrAt w cfg1.N = (fun b : Ref sig .tc => Gen.V6 m (outs m) c b) (Pipeline.arrRef spec1 w) := by
  fin_cases w
  · exact ((pdats m 1 c).arrAt_in 0 rfl _).trans ((A_eq1 (E5 m) c 0).trans (Gen.V6_of m (outs m) c main_v40 (by decide)).symm)
  · exact ((pdats m 1 c).arrAt_in 1 rfl _).trans ((A_eq1 (E5 m) c 1).trans (Gen.V6_of m (outs m) c main_v17 (by decide)).symm)
  · exact ((pdats m 1 c).arrAt_in 2 rfl _).trans ((A_eq1 (E5 m) c 2).trans (Gen.V6_of m (outs m) c main_v41 (by decide)).symm)
  · exact ((pdats m 1 c).arrAt_in 3 rfl _).trans ((A_eq1 (E5 m) c 3).trans (Gen.V6_of m (outs m) c main_arg4 (by decide)).symm)
  · exact ((pdats m 1 c).arrAt_in 4 rfl _).trans ((A_eq1 (E5 m) c 4).trans (Gen.V6_of m (outs m) c main_arg5 (by decide)).symm)
  · exact ((pdats m 1 c).arrAt_in 5 rfl _).trans ((A_eq1 (E5 m) c 5).trans (Gen.V6_of m (outs m) c main_arg6 (by decide)).symm)
  · exact ((pdats m 1 c).arrAt_in 6 rfl _).trans ((A_eq1 (E5 m) c 6).trans (Gen.V6_of m (outs m) c main_arg7 (by decide)).symm)
  · exact ((pdats m 1 c).arrAt_in 7 rfl _).trans ((A_eq1 (E5 m) c 7).trans (Gen.V6_of m (outs m) c main_arg8 (by decide)).symm)
  · exact (V6_v42 m c).symm

theorem hrest1 (c : Dev nD) : ∀ b : Ref sig .tc, b ∉ Finset.univ.image (Pipeline.arrRef spec1) →
    (fun b : Ref sig .tc => Gen.V6 m (outs m) c b) b = E5 m c b := fun b hb =>
  Gen.V6_of m (outs m) c b (fun h => hb (Finset.mem_image.mpr ⟨8, Finset.mem_univ _, (List.mem_singleton.mp h).symm⟩))

set_option backward.isDefEq.respectTransparency.types false in
/-- The pooling region: entered from every unscoped buffer at the valuation after the fourth host stretch, left at that
    valuation with the result array replaced.  Its invariant is its own (the accumulator's contents are named from
    point to point); it is entered from, and gives back, the scoped rest at anything and the generator register. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (E5 m c) fun w => A_eq1 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E5 m) c)
    unfold Pipeline.ΦA
    iintro ⟨Hp, -, Hr⟩
    isplitl [Hr]; · iexact Hr
    iexact Hp
  hout c := by
    rw [Pipeline.ownSems0_none]
    refine (hout1 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (fun b : Ref sig .tc => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and the
    final memory holds every unscoped buffer at the last valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv Est () (pdats m) (reg0 m) (reg1 m))
    (fun c Q => by
      rewrite [main_chain c, Pipeline.Seg.run_eq_chain,
        show (Gen.segs m (outs m) 𝒱₀ L lv Est () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V6 m (outs m) c) ∗ ∃ r, prngReg c r))
    (hch := fun c => ⟨.rfl, .rfl, .rfl, .rfl, .rfl, .rfl,
      (show iprop(StableHlo.held (c : Thread nD τ) (Pipeline.ucRefs τ sig) (Gen.V6 m (outs m) c) ∗ R c)
          ⊢ iprop((StableHlo.held (c : Thread nD τ) (Pipeline.ucRefs τ sig) (Gen.V6 m (outs m) c) ∗ ∃ r, prngReg c r)
            ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

/-- The run with the result named: the result array ends at what the pooling region's write-back leaves, the
    argument arrays as launched. -/
theorem run_value : θ_run defs (onTc (τ := τ) (main (F := F))) ⟨m, fun _ => 0, ρ⟩ (fun r => ∀ c : Dev nD,
      r.2.mem ((c.tc : Thread nD τ).loc main_v42) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v42 (by decide))).trans (V6_v42 m c),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

end Cert.KernelIdeal.Hand

end
-- ==== Proof.Model.lean ====
/-
  The two programs as functions of real data.

  A graph of 150000 nodes and 4950000 edges (self loops included).  `s e` is the node edge `e` reads, `D n` the set of
  edges that land on node `n`, `dis n` the inverse square root of n's degree, `B g` the nodes of graph `g`.
  One convolution layer of the reference is   out[n, j] = Σ_{e ∈ D n} (Σ_k x[s e, k]·W[k, j]) · (dis (s e) · dis n) + b[j];
  the kernel computes layer 1 as                        Σ_k ((Σ_{e ∈ D n} x[s e, k]·dis (s e)) · dis n) · W1[k, j] + b1[j]
  and layer 2 as                                        (Σ_{e ∈ D n} ((Σ_k h[s e, k]·W2[k, j]) · dis (s e))) · dis n + b2[j].
  Over the reals these agree: sums commute and the factor `dis n` moves across a finite sum.  After the two layers
  both programs sum the rows of each graph and apply the same two dense layers.
-/
import Mathlib.Algebra.BigOperators.Ring.Finset
import Mathlib.Algebra.Order.BigOperators.Group.Finset
import Mathlib.Data.Real.Basic
import Mathlib.Tactic.Ring

noncomputable section

namespace Cert.Model

/-- The real data both programs are functions of. -/
structure Data where
  x : Fin 150000 → Fin 4 → ℝ
  W1 : Fin 4 → Fin 16 → ℝ
  b1 : Fin 16 → ℝ
  W2 : Fin 16 → Fin 16 → ℝ
  b2 : Fin 16 → ℝ
  Wf1 : Fin 16 → Fin 16 → ℝ
  bf1 : Fin 16 → ℝ
  Wf2 : Fin 16 → Fin 1 → ℝ
  bf2 : Fin 1 → ℝ
  dis : Fin 150000 → ℝ
  s : Fin 4950000 → Fin 150000
  D : Fin 150000 → Finset (Fin 4950000)
  B : Fin 512 → Finset (Fin 150000)

variable (d : Data)

/-! ## The kernel's arrangement -/

/-- The raw width-4 aggregate: the scaled inputs of the edges landing on `n`. -/
def kA1 (n : Fin 150000) (k : Fin 4) : ℝ := ∑ e ∈ d.D n, d.x (d.s e) k * d.dis (d.s e)
/-- Layer 1 after its activation. -/
def kH1 (n : Fin 150000) (j : Fin 16) : ℝ := max ((∑ k, (kA1 d n k * d.dis n) * d.W1 k j) + d.b1 j) 0
/-- Layer 2's transform, already scaled for the gather. -/
def kP2 (n : Fin 150000) (j : Fin 16) : ℝ := (∑ k, kH1 d n k * d.W2 k j) * d.dis n
/-- The raw width-16 aggregate. -/
def kA2 (n : Fin 150000) (j : Fin 16) : ℝ := ∑ e ∈ d.D n, kP2 d (d.s e) j
/-- Layer 2 after its activation. -/
def kH2 (n : Fin 150000) (j : Fin 16) : ℝ := max (kA2 d n j * d.dis n + d.b2 j) 0
/-- The rows of each graph summed. -/
def kPool (g : Fin 512) (j : Fin 16) : ℝ := ∑ n ∈ d.B g, kH2 d n j
/-- The two dense layers of the head. -/
def kOut (g : Fin 512) : ℝ := (∑ j, max ((∑ k, kPool d g k * d.Wf1 k j) + d.bf1 j) 0 * d.Wf2 j 0) + d.bf2 0

/-! ## The reference's arrangement -/

def rXW1 (n : Fin 150000) (j : Fin 16) : ℝ := ∑ k, d.x n k * d.W1 k j
def rH1 (n : Fin 150000) (j : Fin 16) : ℝ := max ((∑ e ∈ d.D n, rXW1 d (d.s e) j * (d.dis (d.s e) * d.dis n)) + d.b1 j) 0
def rXW2 (n : Fin 150000) (j : Fin 16) : ℝ := ∑ k, rH1 d n k * d.W2 k j
def rH2 (n : Fin 150000) (j : Fin 16) : ℝ := max ((∑ e ∈ d.D n, rXW2 d (d.s e) j * (d.dis (d.s e) * d.dis n)) + d.b2 j) 0
def rPool (g : Fin 512) (j : Fin 16) : ℝ := ∑ n ∈ d.B g, rH2 d n j
def rOut (g : Fin 512) : ℝ := (∑ j, max ((∑ k, rPool d g k * d.Wf1 k j) + d.bf1 j) 0 * d.Wf2 j 0) + d.bf2 0

/-! ## They agree -/

theorem kH1_eq (n : Fin 150000) (j : Fin 16) : kH1 d n j = rH1 d n j := by
  unfold kH1 rH1 kA1 rXW1
  congr 1
  congr 1
  simp only [Finset.sum_mul]
  rw [Finset.sum_comm]
  refine Finset.sum_congr rfl fun e _ => ?_
  refine Finset.sum_congr rfl fun k _ => ?_
  ring

theorem kH2_eq (n : Fin 150000) (j : Fin 16) : kH2 d n j = rH2 d n j := by
  unfold kH2 rH2 kA2 kP2 rXW2
  congr 1
  congr 1
  rw [Finset.sum_mul]
  refine Finset.sum_congr rfl fun e _ => ?_
  simp only [kH1_eq]
  ring

theorem kOut_eq (g : Fin 512) : kOut d g = rOut d g := by
  unfold kOut rOut kPool rPool
  simp only [kH2_eq]

end Cert.Model

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.KIData.lean ====
/-
  The real data the two programs are compared over, read off a launch memory of the kernel's program: the float
  arguments entry by entry (as real numbers: the precondition makes every entry finite), the inverse square roots of
  the degrees, the node each edge reads, the edges landing on each node, the nodes of each graph.
-/
import proofs.«400391_j66829691126192_3_alg».proof.Proof.KIVals
import proofs.«400391_j66829691126192_3_alg».proof.Proof.Model
import proofs.«400391_j66829691126192_3_alg».proof.Proof.LibGatherRows
import proofs.«400391_j66829691126192_3_alg».proof.Proof.LibScatterRows
import Idealize.ShloMosaic.Lib.ValueIdx
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The argument arrays as the launch memory holds them. -/
abbrev aX : S150000x4.Idx → EReal := m ((c.tc : Thread nD τ).loc main_arg0)
abbrev aW1 : S4x16.Idx → EReal := m ((c.tc : Thread nD τ).loc main_arg1)
abbrev aB1 : S16.Idx → EReal := m ((c.tc : Thread nD τ).loc main_arg2)
abbrev aW2 : S16x16.Idx → EReal := m ((c.tc : Thread nD τ).loc main_arg3)
abbrev aB2 : S16.Idx → EReal := m ((c.tc : Thread nD τ).loc main_arg4)
abbrev aWf1 : S16x16.Idx → EReal := m ((c.tc : Thread nD τ).loc main_arg5)
abbrev aBf1 : S16.Idx → EReal := m ((c.tc : Thread nD τ).loc main_arg6)
abbrev aWf2 : S16x1.Idx → EReal := m ((c.tc : Thread nD τ).loc main_arg7)
abbrev aBf2 : S1.Idx → EReal := m ((c.tc : Thread nD τ).loc main_arg8)
abbrev aBatch : IVec S150000 32 := m ((c.tc : Thread nD τ).loc main_arg10)

/-- The column of destination words, one per edge (self loops included), as the scatters read it. -/
def dstCol : IVec S4950000x1 32 := Gen.V3 m c main_v28
/-- The column of source words, negative ones wrapped, as the gathers read it. -/
def srcCol : IVec S4950000x1 32 := Gen.V3 m c main_v25
/-- The inverse square roots of the degrees. -/
def disArr : S150000.Idx → EReal := Gen.V3 m c main_v16

/-- The real data of a launch memory. -/
def dataOf : Cert.Model.Data where
  x n k := (aX m c (ix2 n k)).toReal
  W1 i k := (aW1 m c (ix2 i k)).toReal
  b1 k := (aB1 m c (ix1 k)).toReal
  W2 k j := (aW2 m c (ix2 k j)).toReal
  b2 j := (aB2 m c (ix1 j)).toReal
  Wf1 k j := (aWf1 m c (ix2 k j)).toReal
  bf1 j := (aBf1 m c (ix1 j)).toReal
  Wf2 j u := (aWf2 m c (ix2 j u)).toReal
  bf2 u := (aBf2 m c (ix1 u)).toReal
  dis n := (disArr m c (ix1 n)).toReal
  s e := RowGather.clampRow 150000 (by decide) (srcCol m c (ix2 e (0 : Fin 1)))
  D n := SegSum.rowsOf (dstCol m c) n
  B g := Finset.univ.filter fun n : Fin 150000 => (aBatch m c (ix1 n)).toInt = (g.val : Int)

/-- Every float argument entry and every inverse square root of a degree is a real number. -/
structure RealArgs : Prop where
  hx : ∀ n k, aX m c (ix2 n k) = (((dataOf m c).x n k : ℝ) : EReal)
  hW1 : ∀ i k, aW1 m c (ix2 i k) = (((dataOf m c).W1 i k : ℝ) : EReal)
  hb1 : ∀ k, aB1 m c (ix1 k) = (((dataOf m c).b1 k : ℝ) : EReal)
  hW2 : ∀ k j, aW2 m c (ix2 k j) = (((dataOf m c).W2 k j : ℝ) : EReal)
  hb2 : ∀ j, aB2 m c (ix1 j) = (((dataOf m c).b2 j : ℝ) : EReal)
  hWf1 : ∀ k j, aWf1 m c (ix2 k j) = (((dataOf m c).Wf1 k j : ℝ) : EReal)
  hbf1 : ∀ j, aBf1 m c (ix1 j) = (((dataOf m c).bf1 j : ℝ) : EReal)
  hWf2 : ∀ j u, aWf2 m c (ix2 j u) = (((dataOf m c).Wf2 j u : ℝ) : EReal)
  hbf2 : ∀ u, aBf2 m c (ix1 u) = (((dataOf m c).bf2 u : ℝ) : EReal)
  hdis : ∀ n, disArr m c (ix1 n) = (((dataOf m c).dis n : ℝ) : EReal)

end Cert.KernelIdeal.Hand

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.Lift.lean ====
/-
  Moving the embedding of the reals into the extended reals outward.

  Every value the two programs compute from finite data is a finite real.  The facts below turn an expression over
  embedded reals into ONE embedded real: the embedding commutes with finite sums and with the maximum, the three
  constants the degree normalisation uses denote the reals 0, 1 and a small positive number, the reciprocal square root
  of a positive real is the real reciprocal square root, and a comparison of two embedded reals is the comparison of
  the reals.
-/
import Mathlib.Data.EReal.Operations
import Mathlib.Algebra.BigOperators.Group.Finset.Basic
import Mathlib.Tactic.NormNum
import Mathlib.Tactic.Positivity
import Idealize.ShloMosaic.PureOps.Ideal
import Idealize.ShloMosaic.PureOps.Ideal.Laws

open Idealize.ShloMosaic

namespace Cert.Lift

/-- The embedding commutes with a finite sum. -/
theorem coe_sum {ι : Type*} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The same over a whole finite type. -/
theorem coe_sum_univ {ι : Type*} [Fintype ι] (f : ι → ℝ) :
    ∑ i, ((f i : ℝ) : EReal) = ((∑ i, f i : ℝ) : EReal) :=
  coe_sum Finset.univ f

/-- The embedding commutes with the maximum. -/
theorem coe_max' (a b : ℝ) : max (a : EReal) (b : EReal) = ((max a b : ℝ) : EReal) :=
  (EReal.coe_strictMono.monotone.map_max).symm

/-- The embedding commutes with the minimum. -/
theorem coe_min' (a b : ℝ) : min (a : EReal) (b : EReal) = ((min a b : ℝ) : EReal) :=
  (EReal.coe_strictMono.monotone.map_min).symm

/-- The maximum with the extended zero. -/
theorem coe_max_zero (a : ℝ) : max (a : EReal) 0 = ((max a 0 : ℝ) : EReal) := by
  rw [← EReal.coe_zero, coe_max']

theorem coe_add' (a b : ℝ) : (a : EReal) + (b : EReal) = ((a + b : ℝ) : EReal) := (EReal.coe_add a b).symm
theorem coe_mul' (a b : ℝ) : (a : EReal) * (b : EReal) = ((a * b : ℝ) : EReal) := (EReal.coe_mul a b).symm
theorem coe_zero' : (0 : EReal) = ((0 : ℝ) : EReal) := EReal.coe_zero.symm
theorem coe_one' : (1 : EReal) = ((1 : ℝ) : EReal) := EReal.coe_one.symm

theorem zero_add_coe (a : ℝ) : (0 : EReal) + (a : EReal) = ((a : ℝ) : EReal) := zero_add _
theorem add_zero_coe (a : ℝ) : (a : EReal) + (0 : EReal) = ((a : ℝ) : EReal) := add_zero _

/-- The all-zero word denotes the real 0. -/
theorem ofBits_zero : Ideal.ofBits .f32 0x00000000#32 = ((0 : ℝ) : EReal) := by
  rw [Ideal.ofBits_zero_f32, EReal.coe_zero]

/-- The word of 1.0 denotes the real 1. -/
theorem ofBits_one : Ideal.ofBits .f32 0x3F800000#32 = ((1 : ℝ) : EReal) := by
  simp [Ideal.ofBits, Ideal.ieee, -EReal.coe_mul]
  norm_num

/-- The word nearest 1e-12 denotes a real strictly between 0 and 1. -/
theorem eps_spec : ∃ eps : ℝ, Ideal.ofBits .f32 0x2B8CBCCC#32 = (eps : EReal) ∧ 0 < eps ∧ eps < 1 := by
  refine ⟨(9223372 : ℝ) * (2 : ℝ) ^ (-63 : ℤ), ?_, by positivity, ?_⟩
  · simp [Ideal.ofBits, Ideal.ieee, -EReal.coe_mul]
  · norm_num

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- "Greater than" on two embedded reals. -/
theorem cmp_ogt_coe (a b : ℝ) : Ideal.cmp .ogt (a : EReal) (b : EReal) = if b < a then 1#1 else 0#1 := by
  unfold Ideal.cmp
  by_cases h : b < a <;> simp [h]

/-- A choice between two embedded reals is the embedded choice. -/
theorem ite_coe (p : Prop) [Decidable p] (a b : ℝ) :
    (if p then (a : EReal) else (b : EReal)) = ((if p then a else b : ℝ) : EReal) := by
  split <;> rfl

/-- Selecting on "greater than" of two embedded reals is the choice by the comparison of the reals. -/
theorem select_cmp_ogt_coe {α : Type} (a b : ℝ) (x y : α) :
    Scalar.select (Ideal.cmp .ogt (a : EReal) (b : EReal)) x y = if b < a then x else y := by
  rw [cmp_ogt_coe]
  by_cases h : b < a <;> simp [Scalar.select, h]

/-- The reciprocal square root of a real clamped from below by a positive one. -/
theorem rsqrt_coe_max_pos (r e : ℝ) (he : 0 < e) :
    Ideal.rsqrt ((max r e : ℝ) : EReal) = (((Real.sqrt (max r e))⁻¹ : ℝ) : EReal) :=
  rsqrt_coe_pos (lt_max_of_lt_right he)

end Cert.Lift
-- ==== Proof.KIHost.lean ====
/-
  The kernel program's host operations read at an index, over extended reals.

  Between its two regions the program computes, on the host, the inverse square roots of the degrees as a column, the
  width-4 aggregate  A1[n, k] = Σ_{e lands on n} x[s e, k] · dis (s e)  (the inputs scaled, gathered by the edges' source
  column and segment-summed by their destination column), the width-16 aggregate  A2[n, j] = Σ_{e lands on n} P2[s e, j]
  of the first region's output, and the graph numbers as a column.  Each is read here entry by entry as the model's
  real expression; the argument arrays reach both regions as launched.
-/
import proofs.«400391_j66829691126192_3_alg».proof.Proof.KIData
import proofs.«400391_j66829691126192_3_alg».proof.Proof.LibGatherRows
import proofs.«400391_j66829691126192_3_alg».proof.Proof.LibScatterRows
import proofs.«400391_j66829691126192_3_alg».proof.Proof.LibKeepdimsColumn
import proofs.«400391_j66829691126192_3_alg».proof.Proof.Lift
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (c : Dev nD)

/-! ## The inverse square roots as a column -/

/-- Over any earlier contents, the third host stretch leaves in main_v17 the column view of main_v16. -/
theorem v17_of (W : Valuation τ sig (Elt Ideal)) (n : Fin 150000) :
    (StableHlo.after hostOps0_2 W (Proc.devRef .tc main_v17) : S150000x1.Idx → EReal) (ix2 n (0 : Fin 1))
      = (W (Proc.devRef .tc main_v16) : S150000.Idx → EReal) (ix1 n) := by
  after_results
  show shapeCast S150000x1 (W (Proc.devRef .tc main_v16) : S150000.Idx → EReal) shapeCasts_S150000_S150000x1 (ix2 n (0 : Fin 1)) = _
  exact Cert.Lib.KeepdimsColumn.shapeCast_a_a1_apply _ _ n 0

/-- The column the node-transform region reads holds, at row n, the inverse square root of n's degree. -/
theorem v17_apply (n : Fin 150000) : E3 m c main_v17 (ix2 n (0 : Fin 1)) = disArr m c (ix1 n) := by
  have h := v17_of (Gen.V2 m c) n
  have e : disArr m c = Gen.V2 m c main_v16 := Gen.V3_of m c main_v16 (by decide)
  rw [e]
  exact h

/-- The pooling region reads the same column: nothing in between writes it. -/
theorem v17_E5 : E5 m c main_v17 = E3 m c main_v17 :=
  (Gen.V5_of m (outsA m) c main_v17 (by decide)).trans (Gen.V4_of m (outsA m) c main_v17 (by decide))

/-! ## The arguments reach both regions as launched -/

theorem E3_arg1 : E3 m c main_arg1 = aW1 m c :=
  (Gen.V3_of m c main_arg1 (by decide)).trans <| (Gen.V2_of m c main_arg1 (by decide)).trans <| (Gen.V1_of m c main_arg1 (by decide)).trans rfl
theorem E3_arg2 : E3 m c main_arg2 = aB1 m c :=
  (Gen.V3_of m c main_arg2 (by decide)).trans <| (Gen.V2_of m c main_arg2 (by decide)).trans <| (Gen.V1_of m c main_arg2 (by decide)).trans rfl
theorem E3_arg3 : E3 m c main_arg3 = aW2 m c :=
  (Gen.V3_of m c main_arg3 (by decide)).trans <| (Gen.V2_of m c main_arg3 (by decide)).trans <| (Gen.V1_of m c main_arg3 (by decide)).trans rfl
theorem E5_arg4 : E5 m c main_arg4 = aB2 m c :=
  (Gen.V5_of m (outsA m) c main_arg4 (by decide)).trans <| (Gen.V4_of m (outsA m) c main_arg4 (by decide)).trans <| (Gen.V3_of m c main_arg4 (by decide)).trans <| (Gen.V2_of m c main_arg4 (by decide)).trans <| (Gen.V1_of m c main_arg4 (by decide)).trans rfl
theorem E5_arg5 : E5 m c main_arg5 = aWf1 m c :=
  (Gen.V5_of m (outsA m) c main_arg5 (by decide)).trans <| (Gen.V4_of m (outsA m) c main_arg5 (by decide)).trans <| (Gen.V3_of m c main_arg5 (by decide)).trans <| (Gen.V2_of m c main_arg5 (by decide)).trans <| (Gen.V1_of m c main_arg5 (by decide)).trans rfl
theorem E5_arg6 : E5 m c main_arg6 = aBf1 m c :=
  (Gen.V5_of m (outsA m) c main_arg6 (by decide)).trans <| (Gen.V4_of m (outsA m) c main_arg6 (by decide)).trans <| (Gen.V3_of m c main_arg6 (by decide)).trans <| (Gen.V2_of m c main_arg6 (by decide)).trans <| (Gen.V1_of m c main_arg6 (by decide)).trans rfl
theorem E5_arg7 : E5 m c main_arg7 = aWf2 m c :=
  (Gen.V5_of m (outsA m) c main_arg7 (by decide)).trans <| (Gen.V4_of m (outsA m) c main_arg7 (by decide)).trans <| (Gen.V3_of m c main_arg7 (by decide)).trans <| (Gen.V2_of m c main_arg7 (by decide)).trans <| (Gen.V1_of m c main_arg7 (by decide)).trans rfl
theorem E5_arg8 : E5 m c main_arg8 = aBf2 m c :=
  (Gen.V5_of m (outsA m) c main_arg8 (by decide)).trans <| (Gen.V4_of m (outsA m) c main_arg8 (by decide)).trans <| (Gen.V3_of m c main_arg8 (by decide)).trans <| (Gen.V2_of m c main_arg8 (by decide)).trans <| (Gen.V1_of m c main_arg8 (by decide)).trans rfl

/-- The graph numbers reach the pooling stretch as launched. -/
theorem V4_arg10 : Gen.V4 m (outsA m) c main_arg10 = aBatch m c :=
  (Gen.V4_of m (outsA m) c main_arg10 (by decide)).trans <| (Gen.V3_of m c main_arg10 (by decide)).trans <| (Gen.V2_of m c main_arg10 (by decide)).trans <| (Gen.V1_of m c main_arg10 (by decide)).trans rfl

/-! ## The graph numbers as a column -/

/-- Over any earlier contents, the last host stretch leaves in main_v41 the column view of the graph numbers. -/
theorem v41_of (W : Valuation τ sig (Elt Ideal)) (n : Fin 150000) :
    (StableHlo.after hostOps1 W (Proc.devRef .tc main_v41) : IVec S150000x1 32) (ix2 n (0 : Fin 1))
      = (W (Proc.devRef .tc main_arg10) : IVec S150000 32) (ix1 n) := by
  after_results
  show shapeCast S150000x1 (W (Proc.devRef .tc main_arg10) : IVec S150000 32) shapeCasts_S150000_S150000x1 (ix2 n (0 : Fin 1)) = _
  exact Cert.Lib.KeepdimsColumn.shapeCast_a_a1_apply _ _ n 0

/-- The column the pooling region reads holds, at row n, the graph number of node n. -/
theorem v41_apply (n : Fin 150000) : E5 m c main_v41 (ix2 n (0 : Fin 1)) = aBatch m c (ix1 n) := by
  have h := v41_of (Gen.V4 m (outsA m) c) n
  rw [← V4_arg10 m c]
  exact h

/-- The program's dimension numbers — of its two row scatters, its two row gathers and its flat scatter — are the
    general row and flat ones. -/
theorem scatter4_eq : scatter_S150000x4_S4950000x1_S4950000x4_1_0_0_1
    = SegSum.rowsDims 150000 4950000 4 scatter_S150000x4_S4950000x1_S4950000x4_1_0_0_1_wf := rfl
theorem gather4_eq : gather_S150000x4_S4950000x1_S4950000x4_1_0_n_n_0_1_14
    = RowGather.rowDims 150000 4 4950000 gather_S150000x4_S4950000x1_S4950000x4_1_0_n_n_0_1_14_wf := rfl
theorem scatter16_eq : scatter_S150000x16_S4950000x1_S4950000x16_1_0_0_1
    = SegSum.rowsDims 150000 4950000 16 scatter_S150000x16_S4950000x1_S4950000x16_1_0_0_1_wf := rfl
theorem gather16_eq : gather_S150000x16_S4950000x1_S4950000x16_1_0_n_n_0_1_116
    = RowGather.rowDims 150000 16 4950000 gather_S150000x16_S4950000x1_S4950000x16_1_0_n_n_0_1_116_wf := rfl
theorem scatter1_eq : scatter_S150000_S4950000x1_S4950000_n_0_0_1
    = SegSum.flatDims 150000 4950000 scatter_S150000_S4950000x1_S4950000_n_0_0_1_wf := rfl

/-! ## The width-4 aggregate -/

/-- An [a, 1] column spread over b lanes, both axes kept in place, reads at (p, c) the column's entry p. -/
theorem bcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The segment sum of gathered, scaled rows read at (n, k): zero plus, over the edges landing on n, the entry of the
    source row times the source row's scale. -/
theorem segsum4_apply (X : S150000x4.Idx → EReal) (col : S150000x1.Idx → EReal) (src dst : IVec S4950000x1 32)
    (n : Fin 150000) (k : Fin 4) :
    Host.scatterAdd (F := Ideal) scatter_S150000x4_S4950000x1_S4950000x4_1_0_0_1
        (broadcastInDim S150000x4 ![] bcast_S_S150000x4 (constant (F := Ideal) S_ .f32 0x00000000#32)) dst
        (Host.gather gather_S150000x4_S4950000x1_S4950000x4_1_0_n_n_0_1_14
          (mulf (F := Ideal) (φ := .f32) X (broadcastInDim S150000x4 ![0, 1] bcast_S150000x1_S150000x4_0_1 col)) src) (ix2 n k)
      = Ideal.ofBits .f32 0x00000000#32 + ∑ e ∈ SegSum.rowsOf dst n,
          X (ix2 (RowGather.clampRow 150000 (by decide) (src (ix2 e (0 : Fin 1)))) k)
            * col (ix2 (RowGather.clampRow 150000 (by decide) (src (ix2 e (0 : Fin 1)))) (0 : Fin 1)) := by
  rw [scatter4_eq, gather4_eq, Host.scatterAdd, Ideal.hostScatterAdd_def, SegSum.hostScatterAdd_rows_apply]
  refine congrArg₂ (fun a b : EReal => a + b) rfl (Finset.sum_congr rfl fun e _ => ?_)
  rw [RowGather.gather_rows_apply (by decide), mulf_apply, bcastInDim_a1_ab_apply]

set_option maxHeartbeats 1000000 in
/-- Over any earlier contents, main_v29 is the segment sum, by the column main_v28, of the rows of x scaled by the
    column main_v17 and gathered by the column main_v25. -/
theorem v29_term (W : Valuation τ sig (Elt Ideal)) :
    (StableHlo.after hostOps0_2 W (Proc.devRef .tc main_v29) : S150000x4.Idx → EReal)
      = Host.scatterAdd (F := Ideal) scatter_S150000x4_S4950000x1_S4950000x4_1_0_0_1
          (broadcastInDim S150000x4 ![] bcast_S_S150000x4 (constant (F := Ideal) S_ .f32 0x00000000#32))
          (StableHlo.after hostOps0_2 W (Proc.devRef .tc main_v28) : IVec S4950000x1 32)
          (Host.gather gather_S150000x4_S4950000x1_S4950000x4_1_0_n_n_0_1_14
            (mulf (F := Ideal) (φ := .f32) (W (Proc.devRef .tc main_arg0) : S150000x4.Idx → EReal)
              (broadcastInDim S150000x4 ![0, 1] bcast_S150000x1_S150000x4_0_1
                (StableHlo.after hostOps0_2 W (Proc.devRef .tc main_v17) : S150000x1.Idx → EReal)))
            (StableHlo.after hostOps0_2 W (Proc.devRef .tc main_v25) : IVec S4950000x1 32)) := by
  after_results <;> rfl

/-- The same read at (n, k), the four arrays it is made of named. -/
theorem v29_of (W : Valuation τ sig (Elt Ideal)) (X : S150000x4.Idx → EReal) (D : S150000.Idx → EReal)
    (src dst : IVec S4950000x1 32)
    (hX : (W (Proc.devRef .tc main_arg0) : S150000x4.Idx → EReal) = X)
    (hD : (W (Proc.devRef .tc main_v16) : S150000.Idx → EReal) = D)
    (hs : (StableHlo.after hostOps0_2 W (Proc.devRef .tc main_v25) : IVec S4950000x1 32) = src)
    (hd : (StableHlo.after hostOps0_2 W (Proc.devRef .tc main_v28) : IVec S4950000x1 32) = dst)
    (n : Fin 150000) (k : Fin 4) :
    (StableHlo.after hostOps0_2 W (Proc.devRef .tc main_v29) : S150000x4.Idx → EReal) (ix2 n k)
      = Ideal.ofBits .f32 0x00000000#32 + ∑ e ∈ SegSum.rowsOf dst n,
          X (ix2 (RowGather.clampRow 150000 (by decide) (src (ix2 e (0 : Fin 1)))) k)
            * D (ix1 (RowGather.clampRow 150000 (by decide) (src (ix2 e (0 : Fin 1))))) := by
  rw [v29_term W, hX, hs, hd, segsum4_apply]
  refine congrArg₂ (fun a b : EReal => a + b) rfl (Finset.sum_congr rfl fun e _ => ?_)
  rw [v17_of W, hD]

/-- The width-4 aggregate the node-transform region reads is the model's. -/
theorem v29_apply (h : RealArgs m c) (n : Fin 150000) (k : Fin 4) :
    E3 m c main_v29 (ix2 n k) = ((Cert.Model.kA1 (dataOf m c) n k : ℝ) : EReal) := by
  have hX : (Gen.V2 m c main_arg0 : S150000x4.Idx → EReal) = aX m c :=
    (Gen.V2_of m c main_arg0 (by decide)).trans ((Gen.V1_of m c main_arg0 (by decide)).trans rfl)
  have hD : (Gen.V2 m c main_v16 : S150000.Idx → EReal) = disArr m c := (Gen.V3_of m c main_v16 (by decide)).symm
  have key : @Eq EReal ((StableHlo.after hostOps0_2 (Gen.V2 m c) (Proc.devRef .tc main_v29) : S150000x4.Idx → EReal) (ix2 n k))
      ((Cert.Model.kA1 (dataOf m c) n k : ℝ) : EReal) := by
    refine Eq.trans (α := EReal) (v29_of (Gen.V2 m c) (aX m c) (disArr m c) (srcCol m c) (dstCol m c) hX hD rfl rfl n k) ?_
    unfold Cert.Model.kA1
    rw [← Cert.Lift.coe_sum, Cert.Lift.ofBits_zero, EReal.coe_zero, zero_add]
    refine Finset.sum_congr rfl fun e _ => ?_
    rw [EReal.coe_mul, ← h.hx, ← h.hdis]
    rfl
  exact key

/-! ## The width-16 aggregate -/

/-- The segment sum of gathered rows read at (n, j): zero plus, over the edges landing on n, the source row's entry. -/
theorem segsum16_apply (P : S150000x16.Idx → EReal) (src dst : IVec S4950000x1 32) (n : Fin 150000) (j : Fin 16) :
    Host.scatterAdd (F := Ideal) scatter_S150000x16_S4950000x1_S4950000x16_1_0_0_1
        (broadcastInDim S150000x16 ![] bcast_S_S150000x16 (constant (F := Ideal) S_ .f32 0x00000000#32)) dst
        (Host.gather gather_S150000x16_S4950000x1_S4950000x16_1_0_n_n_0_1_116 P src) (ix2 n j)
      = Ideal.ofBits .f32 0x00000000#32 + ∑ e ∈ SegSum.rowsOf dst n,
          P (ix2 (RowGather.clampRow 150000 (by decide) (src (ix2 e (0 : Fin 1)))) j) := by
  rw [scatter16_eq, gather16_eq, Host.scatterAdd, Ideal.hostScatterAdd_def, SegSum.hostScatterAdd_rows_apply]
  refine congrArg₂ (fun a b : EReal => a + b) rfl (Finset.sum_congr rfl fun e _ => ?_)
  rw [RowGather.gather_rows_apply (by decide)]

set_option maxHeartbeats 1000000 in
/-- Over any earlier contents, main_v40 is the segment sum, by the column main_v39, of the rows of main_v30 gathered by
    the column main_v36. -/
theorem v40_term (W : Valuation τ sig (Elt Ideal)) :
    (StableHlo.after hostOps1 W (Proc.devRef .tc main_v40) : S150000x16.Idx → EReal)
      = Host.scatterAdd (F := Ideal) scatter_S150000x16_S4950000x1_S4950000x16_1_0_0_1
          (broadcastInDim S150000x16 ![] bcast_S_S150000x16 (constant (F := Ideal) S_ .f32 0x00000000#32))
          (StableHlo.after hostOps1 W (Proc.devRef .tc main_v39) : IVec S4950000x1 32)
          (Host.gather gather_S150000x16_S4950000x1_S4950000x16_1_0_n_n_0_1_116
            (W (Proc.devRef .tc main_v30) : S150000x16.Idx → EReal)
            (StableHlo.after hostOps1 W (Proc.devRef .tc main_v36) : IVec S4950000x1 32)) := by
  after_results <;> rfl

/-- The same read at (n, j), the three arrays it is made of named. -/
theorem v40_of (W : Valuation τ sig (Elt Ideal)) (P : S150000x16.Idx → EReal) (src dst : IVec S4950000x1 32)
    (hP : (W (Proc.devRef .tc main_v30) : S150000x16.Idx → EReal) = P)
    (hs : (StableHlo.after hostOps1 W (Proc.devRef .tc main_v36) : IVec S4950000x1 32) = src)
    (hd : (StableHlo.after hostOps1 W (Proc.devRef .tc main_v39) : IVec S4950000x1 32) = dst)
    (n : Fin 150000) (j : Fin 16) :
    (StableHlo.after hostOps1 W (Proc.devRef .tc main_v40) : S150000x16.Idx → EReal) (ix2 n j)
      = Ideal.ofBits .f32 0x00000000#32 + ∑ e ∈ SegSum.rowsOf dst n,
          P (ix2 (RowGather.clampRow 150000 (by decide) (src (ix2 e (0 : Fin 1)))) j) := by
  rw [v40_term W, hP, hs, hd, segsum16_apply]

set_option maxHeartbeats 1000000 in
/-- The wrapped source column is computed the same way before each gather: from equal source words, equal columns. -/
theorem src_cols (W W' : Valuation τ sig (Elt Ideal))
    (h3 : (W' (Proc.devRef .tc main_v3) : IVec S4950000 32) = W (Proc.devRef .tc main_v3)) :
    (StableHlo.after hostOps1 W' (Proc.devRef .tc main_v36) : IVec S4950000x1 32)
      = StableHlo.after hostOps0_2 W (Proc.devRef .tc main_v25) := by
  after_results
  rw [h3]

set_option maxHeartbeats 1000000 in
/-- Likewise the destination column before each segment sum. -/
theorem dst_cols (W W' : Valuation τ sig (Elt Ideal))
    (h6 : (W' (Proc.devRef .tc main_v6) : IVec S4950000 32) = W (Proc.devRef .tc main_v6)) :
    (StableHlo.after hostOps1 W' (Proc.devRef .tc main_v39) : IVec S4950000x1 32)
      = StableHlo.after hostOps0_2 W (Proc.devRef .tc main_v28) := by
  after_results
  rw [h6]

/-- The second gather reads the first's source column, the second segment sum the first's destination column. -/
theorem E5_v36 : (E5 m c main_v36 : IVec S4950000x1 32) = srcCol m c :=
  src_cols (Gen.V2 m c) (Gen.V4 m (outsA m) c)
    ((Gen.V4_of m (outsA m) c main_v3 (by decide)).trans (Gen.V3_of m c main_v3 (by decide)))
theorem E5_v39 : (E5 m c main_v39 : IVec S4950000x1 32) = dstCol m c :=
  dst_cols (Gen.V2 m c) (Gen.V4 m (outsA m) c)
    ((Gen.V4_of m (outsA m) c main_v6 (by decide)).trans (Gen.V3_of m c main_v6 (by decide)))

/-- The second gather's table is what the node-transform region left. -/
theorem V4_v30_read : Gen.V4 m (outsA m) c main_v30 = o4 m c :=
  (Function.update_self _ _ _).trans (Function.update_self _ _ _)
theorem E5_v30 : E5 m c main_v30 = o4 m c :=
  (Gen.V5_of m (outsA m) c main_v30 (by decide)).trans (V4_v30_read m c)

/-- The width-16 aggregate the pooling region reads is the model's, given the node-transform region's output. -/
theorem v40_apply (hv30 : ∀ n j, o4 m c (ix2 n j) = ((Cert.Model.kP2 (dataOf m c) n j : ℝ) : EReal))
    (n : Fin 150000) (j : Fin 16) :
    E5 m c main_v40 (ix2 n j) = ((Cert.Model.kA2 (dataOf m c) n j : ℝ) : EReal) := by
  have key : @Eq EReal ((StableHlo.after hostOps1 (Gen.V4 m (outsA m) c) (Proc.devRef .tc main_v40) : S150000x16.Idx → EReal) (ix2 n j))
      ((Cert.Model.kA2 (dataOf m c) n j : ℝ) : EReal) := by
    refine Eq.trans (α := EReal) (v40_of (Gen.V4 m (outsA m) c) (o4 m c) (srcCol m c) (dstCol m c) (V4_v30_read m c) (E5_v36 m c) (E5_v39 m c) n j) ?_
    unfold Cert.Model.kA2
    rw [← Cert.Lift.coe_sum, Cert.Lift.ofBits_zero, EReal.coe_zero, zero_add]
    refine Finset.sum_congr rfl fun e _ => ?_
    rw [← hv30]
    rfl
  exact key

end Cert.KernelIdeal.Hand

end
-- ==== Proof.KIValue0.lean ====
/-
  The value of the first kernel region (the fused node transform) as ONE function of the arrays it reads, at the ideal
  instance: floats are extended reals, the operations are exact, a change of float format is the identity.

  With agg the raw width-4 aggregate [150000, 4], d the degree column [150000, 1], W1 [4, 16], b1 [16], W2 [16, 16],
  the region's result array [150000, 16] holds at row n, column j
      (Σ_k max(Σ_i (agg[n, i] · d[n]) · W1[i, k] + b1[k], 0) · W2[k, j]) · d[n].
  The proof goes from the inside out: the two products of the body read at an index as finite sums over their one
  contracted axis; the body's arithmetic at an entry (p, q) of a block of 3000 rows; each staged block as the rows
  3000 t … 3000 t + 2999 of its array (the weights and the bias staged whole); so point t writes back block t of the
  formula's array; and the fifty blocks tile the 150000 rows (row r lies in block r / 3000), so the array ends
  holding the formula everywhere. No law of arithmetic is used: both sides are the same expression.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import proofs.«400391_j66829691126192_3_alg».proof.Proof.KIBody0
import proofs.«400391_j66829691126192_3_alg».proof.Proof.LibKeepdimsColumn
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Lib.KeepdimsColumn

variable (V : (c : Dev nD) → (b : Ref sig .tc) → Buf (Elt Ideal) ((c : Thread nD τ).loc b))

/-! ## The region's result as one function of the arrays it reads -/

/-- Row n, column j of the region's result from the arrays it reads. -/
def P2E (a : S150000x4.Idx → EReal) (dcol : S150000x1.Idx → EReal) (w1 : S4x16.Idx → EReal) (b1 : S16.Idx → EReal)
    (w2 : S16x16.Idx → EReal) (n : Fin 150000) (j : Fin 16) : EReal :=
  (∑ k : Fin 16, max ((∑ i : Fin 4, (a (ix2 n i) * dcol (ix2 n (0 : Fin 1))) * w1 (ix2 i k)) + b1 (ix1 k)) 0 * w2 (ix2 k j))
    * dcol (ix2 n (0 : Fin 1))

namespace NodeTransform

/-! ## The two products of the body, read at an index -/

/-- In the first product the left operand is read at (row of the output, contraction position) and the right operand at
    (contraction position, column of the output): the four coordinates, one statement each. -/
theorem lhs1_0 (i : S3000x16.Idx) (q : dot_S3000x4_S4x16_S3000x16_1_0_0_1_n_n.contr.Idx) :
    (dot_S3000x4_S4x16_S3000x16_1_0_0_1_n_n.lhsIdx i q 0).val = (i 0).val := by
  unfold DotDims.lhsIdx
  rw [dif_neg (show ¬(0 : Fin S3000x4.rank) ∈ dot_S3000x4_S4x16_S3000x16_1_0_0_1_n_n.lhsBatch by decide), dif_pos (show (0 : Fin S3000x4.rank) ∈ dot_S3000x4_S4x16_S3000x16_1_0_0_1_n_n.lhsNonContracting by decide)]
  rfl
theorem lhs1_1 (i : S3000x16.Idx) (q : dot_S3000x4_S4x16_S3000x16_1_0_0_1_n_n.contr.Idx) :
    (dot_S3000x4_S4x16_S3000x16_1_0_0_1_n_n.lhsIdx i q 1).val = (q ⟨0, by decide⟩).val :=
  dot_S3000x4_S4x16_S3000x16_1_0_0_1_n_n.lhsIdx_val_of_single rfl i q
theorem rhs1_0 (i : S3000x16.Idx) (q : dot_S3000x4_S4x16_S3000x16_1_0_0_1_n_n.contr.Idx) :
    (dot_S3000x4_S4x16_S3000x16_1_0_0_1_n_n.rhsIdx i q 0).val = (q ⟨0, by decide⟩).val :=
  dot_S3000x4_S4x16_S3000x16_1_0_0_1_n_n.rhsIdx_val_of_single rfl i q
theorem rhs1_1 (i : S3000x16.Idx) (q : dot_S3000x4_S4x16_S3000x16_1_0_0_1_n_n.contr.Idx) :
    (dot_S3000x4_S4x16_S3000x16_1_0_0_1_n_n.rhsIdx i q 1).val = (i 1).val := by
  unfold DotDims.rhsIdx
  rw [dif_neg (show ¬(1 : Fin S4x16.rank) ∈ dot_S3000x4_S4x16_S3000x16_1_0_0_1_n_n.rhsBatch by decide), dif_pos (show (1 : Fin S4x16.rank) ∈ dot_S3000x4_S4x16_S3000x16_1_0_0_1_n_n.rhsNonContracting by decide)]
  rfl

/-- The first product (a block of 3000 rows of width 4 against the 4 × 16 weights, into zero) at row `p`, column `k`. -/
theorem prod1_apply (l : FVec Ideal S3000x4 .bf16) (r : FVec Ideal S4x16 .bf16) (p : Fin 3000) (k : Fin 16) :
    matmul dot_S3000x4_S4x16_S3000x16_1_0_0_1_n_n none l r (constant (F := Ideal) S3000x16 .f32 0x00000000#32) (ix2 p k)
      = ∑ i : Fin 4, l (ix2 p i) * r (ix2 i k) := by
  simp only [matmul]
  rw [Ideal.matmul_constant_zero_apply, ← Equiv.sum_comp (contrEquiv1 dot_S3000x4_S4x16_S3000x16_1_0_0_1_n_n 4 rfl rfl).symm]
  refine Finset.sum_congr rfl fun i _ => ?_
  have hk := contrEquiv1_symm_val dot_S3000x4_S4x16_S3000x16_1_0_0_1_n_n 4 rfl rfl i
  have el : dot_S3000x4_S4x16_S3000x16_1_0_0_1_n_n.lhsIdx (ix2 p k) ((contrEquiv1 dot_S3000x4_S4x16_S3000x16_1_0_0_1_n_n 4 rfl rfl).symm i) = ix2 p i := funext fun a => Fin.ext (by
    match a with
    | ⟨0, _⟩ => exact lhs1_0 _ _
    | ⟨1, _⟩ => exact (lhs1_1 _ _).trans hk)
  have er : dot_S3000x4_S4x16_S3000x16_1_0_0_1_n_n.rhsIdx (ix2 p k) ((contrEquiv1 dot_S3000x4_S4x16_S3000x16_1_0_0_1_n_n 4 rfl rfl).symm i) = ix2 i k := funext fun a => Fin.ext (by
    match a with
    | ⟨0, _⟩ => exact (rhs1_0 _ _).trans hk
    | ⟨1, _⟩ => exact rhs1_1 _ _)
  rw [el, er]

/-- The same four coordinates for the second product. -/
theorem lhs2_0 (i : S3000x16.Idx) (q : dot_S3000x16_S16x16_S3000x16_1_0_0_1_n_n.contr.Idx) :
    (dot_S3000x16_S16x16_S3000x16_1_0_0_1_n_n.lhsIdx i q 0).val = (i 0).val := by
  unfold DotDims.lhsIdx
  rw [dif_neg (show ¬(0 : Fin S3000x16.rank) ∈ dot_S3000x16_S16x16_S3000x16_1_0_0_1_n_n.lhsBatch by decide), dif_pos (show (0 : Fin S3000x16.rank) ∈ dot_S3000x16_S16x16_S3000x16_1_0_0_1_n_n.lhsNonContracting by decide)]
  rfl
theorem lhs2_1 (i : S3000x16.Idx) (q : dot_S3000x16_S16x16_S3000x16_1_0_0_1_n_n.contr.Idx) :
    (dot_S3000x16_S16x16_S3000x16_1_0_0_1_n_n.lhsIdx i q 1).val = (q ⟨0, by decide⟩).val :=
  dot_S3000x16_S16x16_S3000x16_1_0_0_1_n_n.lhsIdx_val_of_single rfl i q
theorem rhs2_0 (i : S3000x16.Idx) (q : dot_S3000x16_S16x16_S3000x16_1_0_0_1_n_n.contr.Idx) :
    (dot_S3000x16_S16x16_S3000x16_1_0_0_1_n_n.rhsIdx i q 0).val = (q ⟨0, by decide⟩).val :=
  dot_S3000x16_S16x16_S3000x16_1_0_0_1_n_n.rhsIdx_val_of_single rfl i q
theorem rhs2_1 (i : S3000x16.Idx) (q : dot_S3000x16_S16x16_S3000x16_1_0_0_1_n_n.contr.Idx) :
    (dot_S3000x16_S16x16_S3000x16_1_0_0_1_n_n.rhsIdx i q 1).val = (i 1).val := by
  unfold DotDims.rhsIdx
  rw [dif_neg (show ¬(1 : Fin S16x16.rank) ∈ dot_S3000x16_S16x16_S3000x16_1_0_0_1_n_n.rhsBatch by decide), dif_pos (show (1 : Fin S16x16.rank) ∈ dot_S3000x16_S16x16_S3000x16_1_0_0_1_n_n.rhsNonContracting by decide)]
  rfl

/-- The second product (the 3000 × 16 hidden block against the 16 × 16 weights, into zero) at row `p`, column `q`. -/
theorem prod2_apply (l : FVec Ideal S3000x16 .bf16) (r : FVec Ideal S16x16 .bf16) (p : Fin 3000) (q : Fin 16) :
    matmul dot_S3000x16_S16x16_S3000x16_1_0_0_1_n_n none l r (constant (F := Ideal) S3000x16 .f32 0x00000000#32) (ix2 p q)
      = ∑ k : Fin 16, l (ix2 p k) * r (ix2 k q) := by
  simp only [matmul]
  rw [Ideal.matmul_constant_zero_apply, ← Equiv.sum_comp (contrEquiv1 dot_S3000x16_S16x16_S3000x16_1_0_0_1_n_n 16 rfl rfl).symm]
  refine Finset.sum_congr rfl fun k _ => ?_
  have hk := contrEquiv1_symm_val dot_S3000x16_S16x16_S3000x16_1_0_0_1_n_n 16 rfl rfl k
  have el : dot_S3000x16_S16x16_S3000x16_1_0_0_1_n_n.lhsIdx (ix2 p q) ((contrEquiv1 dot_S3000x16_S16x16_S3000x16_1_0_0_1_n_n 16 rfl rfl).symm k) = ix2 p k := funext fun a => Fin.ext (by
    match a with
    | ⟨0, _⟩ => exact lhs2_0 _ _
    | ⟨1, _⟩ => exact (lhs2_1 _ _).trans hk)
  have er : dot_S3000x16_S16x16_S3000x16_1_0_0_1_n_n.rhsIdx (ix2 p q) ((contrEquiv1 dot_S3000x16_S16x16_S3000x16_1_0_0_1_n_n 16 rfl rfl).symm k) = ix2 k q := funext fun a => Fin.ext (by
    match a with
    | ⟨0, _⟩ => exact (rhs2_0 _ _).trans hk
    | ⟨1, _⟩ => exact rhs2_1 _ _)
  rw [el, er]

/-! ## The body's arithmetic at an entry of the block -/

/-- The body's arithmetic at row `p`, column `q` of the block. -/
theorem pay_apply (x0 : Vec Ideal S3000x4 .f32) (x1 : Vec Ideal S3000x1 .f32) (x2 : Vec Ideal S4x16 .f32) (x3 : Vec Ideal S16 .f32)
    (x4 : Vec Ideal S16x16 .f32) (p : Fin 3000) (q : Fin 16) :
    k0_pay1 (F := Ideal) x1 x0 x2 x3 x4 x1 (ix2 p q)
      = (∑ k : Fin 16, max ((∑ i : Fin 4, (x0 (ix2 p i) * x1 (ix2 p (0 : Fin 1))) * x2 (ix2 i k)) + x3 (ix1 k)) 0 * x4 (ix2 k q))
          * x1 (ix2 p (0 : Fin 1)) := by
  unfold k0_pay1
  simp only [mulf_apply, prod2_apply, truncf_apply, maximumf_apply, addf_apply, prod1_apply, shapeCast_self, broadcast_apply,
    broadcastTo_a1_ab_apply, broadcastTo_1b_ab_apply, shapeCast_a_1a_apply, Ideal.ofBits_zero_f32]
  rw [show (FloatOps.ofBits FTy.f32 0x00000000#32 : Ideal .f32) = (0 : EReal) from Ideal.ofBits_zero_f32]

/-! ## The block the body leaves, entry by entry -/

theorem zero2 : (![0, 0] : Fin 2 → Nat) = fun _ => 0 := funext fun a => by fin_cases a <;> rfl
theorem zero1 : (![0] : Fin 1 → Nat) = fun _ => 0 := funext fun a => by fin_cases a <;> rfl

/-- Row `p`, column `q` of the output block from the five input blocks. -/
theorem out0_5_apply (x0 : Vec Ideal S3000x4 .f32) (x1 : Vec Ideal S3000x1 .f32) (x2 : Vec Ideal S4x16 .f32) (x3 : Vec Ideal S16 .f32)
    (x4 : Vec Ideal S16x16 .f32) (p : Fin 3000) (q : Fin 16) :
    out0_5 (F := Ideal) x0 x1 x2 x3 x4 (ix2 p q)
      = (∑ k : Fin 16, max ((∑ i : Fin 4, (x0 (ix2 p i) * x1 (ix2 p (0 : Fin 1))) * x2 (ix2 i k)) + x3 (ix1 k)) 0 * x4 (ix2 k q))
          * x1 (ix2 p (0 : Fin 1)) := by
  unfold out0_5
  rw [View.canon_unit_zero zero2]
  simp only [View.ld_unit_zero (S := S3000x4) zero2, View.ld_unit_zero (S := S3000x1) zero2, View.ld_unit_zero (S := S4x16) zero2,
    View.ld_unit_zero (S := S16) zero1, View.ld_unit_zero (S := S16x16) zero2]
  exact pay_apply x0 x1 x2 x3 x4 p q

/-! ## A block entry against the array formula -/

/-- A block's entry is the array formula's, once every block entry the body reads is the array entry the formula reads. -/
theorem value_congr (x0 : Vec Ideal S3000x4 .f32) (x1 : Vec Ideal S3000x1 .f32) (x2 : Vec Ideal S4x16 .f32) (x3 : Vec Ideal S16 .f32)
    (x4 : Vec Ideal S16x16 .f32) (a : S150000x4.Idx → EReal) (dcol : S150000x1.Idx → EReal) (w1 : S4x16.Idx → EReal)
    (b1 : S16.Idx → EReal) (w2 : S16x16.Idx → EReal) (p : Fin 3000) (q : Fin 16) (n : Fin 150000) (j : Fin 16)
    (h0 : ∀ i : Fin 4, x0 (ix2 p i) = a (ix2 n i)) (h1 : x1 (ix2 p (0 : Fin 1)) = dcol (ix2 n (0 : Fin 1)))
    (h2 : ∀ (i : Fin 4) (k : Fin 16), x2 (ix2 i k) = w1 (ix2 i k)) (h3 : ∀ k : Fin 16, x3 (ix1 k) = b1 (ix1 k))
    (h4 : ∀ k : Fin 16, x4 (ix2 k q) = w2 (ix2 k j)) :
    out0_5 (F := Ideal) x0 x1 x2 x3 x4 (ix2 p q) = P2E a dcol w1 b1 w2 n j := by
  rw [out0_5_apply]
  unfold P2E
  simp only [h0, h1, h2, h3, h4]

/-! ## Where each window's block sits in its array -/

/-- The printed index maps over the grid: the three row-blocked windows are at block (t, 0), the weight windows at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at point `t` is rows `3000 t … 3000 t + 2999` of the aggregate. -/
theorem blk0_apply (c : Dev nD) (t : Fin cfg0.N) (p : Fin 3000) (i : Fin 4) (n : Fin 150000) (hn : n.val = t.val * 3000 + p.val) :
    (iblk0 V c 0 t : Vec Ideal S3000x4 .f32) (ix2 p i) = (V c main_v29 : S150000x4.Idx → EReal) (ix2 n i) := by
  obtain ⟨e0, e1, -⟩ := index_facts t
  unfold iblk0
  rw [View.read_apply]
  show V c main_v29 _ = V c main_v29 _
  refine congrArg (V c main_v29) ?_
  funext a
  apply Fin.ext
  match a with
  | ⟨0, _⟩ => show win0_0.index t (0 : Fin 2) * 3000 + 1 * p.val = n.val; omega
  | ⟨1, _⟩ => show win0_0.index t (1 : Fin 2) * 4 + 1 * i.val = i.val; omega

/-- The degree column's block at point `t` is the same rows of the column. -/
theorem blk1_apply (c : Dev nD) (t : Fin cfg0.N) (p : Fin 3000) (n : Fin 150000) (hn : n.val = t.val * 3000 + p.val) :
    (iblk0 V c 1 t : Vec Ideal S3000x1 .f32) (ix2 p (0 : Fin 1)) = (V c main_v17 : S150000x1.Idx → EReal) (ix2 n (0 : Fin 1)) := by
  obtain ⟨-, -, e0, e1, -⟩ := index_facts t
  unfold iblk0
  rw [View.read_apply]
  show V c main_v17 _ = V c main_v17 _
  refine congrArg (V c main_v17) ?_
  funext a
  apply Fin.ext
  match a with
  | ⟨0, _⟩ => show win0_1.index t (0 : Fin 2) * 3000 + 1 * p.val = n.val; omega
  | ⟨1, _⟩ => show win0_1.index t (1 : Fin 2) * 1 + 1 * 0 = 0; omega

/-- The first weight matrix is staged whole. -/
theorem blk2_apply (c : Dev nD) (t : Fin cfg0.N) (i : Fin 4) (k : Fin 16) :
    (iblk0 V c 2 t : Vec Ideal S4x16 .f32) (ix2 i k) = (V c main_arg1 : S4x16.Idx → EReal) (ix2 i k) := by
  obtain ⟨-, -, -, -, e0, e1, -⟩ := index_facts t
  unfold iblk0
  rw [View.read_apply]
  show V c main_arg1 _ = V c main_arg1 _
  refine congrArg (V c main_arg1) ?_
  funext a
  apply Fin.ext
  match a with
  | ⟨0, _⟩ => show win0_2.index t (0 : Fin 2) * 4 + 1 * i.val = i.val; omega
  | ⟨1, _⟩ => show win0_2.index t (1 : Fin 2) * 16 + 1 * k.val = k.val; omega

/-- The bias is staged whole. -/
theorem blk3_apply (c : Dev nD) (t : Fin cfg0.N) (k : Fin 16) :
    (iblk0 V c 3 t : Vec Ideal S16 .f32) (ix1 k) = (V c main_arg2 : S16.Idx → EReal) (ix1 k) := by
  obtain ⟨-, -, -, -, -, -, e0, -⟩ := index_facts t
  unfold iblk0
  rw [View.read_apply]
  show V c main_arg2 _ = V c main_arg2 _
  refine congrArg (V c main_arg2) ?_
  funext a
  apply Fin.ext
  match a with
  | ⟨0, _⟩ => show win0_3.index t (0 : Fin 1) * 16 + 1 * k.val = k.val; omega

/-- The second weight matrix is staged whole. -/
theorem blk4_apply (c : Dev nD) (t : Fin cfg0.N) (k : Fin 16) (q : Fin 16) :
    (iblk0 V c 4 t : Vec Ideal S16x16 .f32) (ix2 k q) = (V c main_arg3 : S16x16.Idx → EReal) (ix2 k q) := by
  obtain ⟨-, -, -, -, -, -, -, e0, e1, -⟩ := index_facts t
  unfold iblk0
  rw [View.read_apply]
  show V c main_arg3 _ = V c main_arg3 _
  refine congrArg (V c main_arg3) ?_
  funext a
  apply Fin.ext
  match a with
  | ⟨0, _⟩ => show win0_4.index t (0 : Fin 2) * 16 + 1 * k.val = k.val; omega
  | ⟨1, _⟩ => show win0_4.index t (1 : Fin 2) * 16 + 1 * q.val = q.val; omega

/-- What the body leaves at point `t`, entry `(p, q)` of the block, is the formula at row `3000 t + p`, column `q`. -/
theorem block_value (c : Dev nD) (t : Fin cfg0.N) (p : Fin 3000) (q : Fin 16) (n : Fin 150000) (hn : n.val = t.val * 3000 + p.val) :
    out0_5 (F := Ideal) (iblk0 V c 0 t) (iblk0 V c 1 t) (iblk0 V c 2 t) (iblk0 V c 3 t) (iblk0 V c 4 t) (ix2 p q)
      = P2E (V c main_v29) (V c main_v17) (V c main_arg1) (V c main_arg2) (V c main_arg3) n q :=
  value_congr (iblk0 V c 0 t) (iblk0 V c 1 t) (iblk0 V c 2 t) (iblk0 V c 3 t) (iblk0 V c 4 t)
    (V c main_v29) (V c main_v17) (V c main_arg1) (V c main_arg2) (V c main_arg3) p q n q
    (fun i => blk0_apply V c t p i n hn) (blk1_apply V c t p n hn) (fun i k => blk2_apply V c t i k) (fun k => blk3_apply V c t k)
    (fun k => blk4_apply V c t k q)

/-! ## From the blocks to the array -/

/-- The whole result array: the formula at every row and column. -/
def resultArr (c : Dev nD) : S150000x16.Idx → EReal := fun i =>
  P2E (V c main_v29) (V c main_v17) (V c main_arg1) (V c main_arg2) (V c main_arg3) ⟨(i 0).val, idx2_lt0 i⟩ ⟨(i 1).val, idx2_lt1 i⟩

/-- What point `t` writes back is block `t` of the result array. -/
theorem flushed0_eq (c : Dev nD) (t : Fin cfg0.N) :
    (dat0 (F := Ideal) V c).flushed 5 t = ((cfg0.win 5).blk t).view.read (Elt Ideal) (resultArr V c) := by
  show (cfg0.win 5).cut (grid0.coords t) ((dat0 V c).after 5 t) = _
  rw [after0_5]
  funext y
  have hy0 : (y 0).val < 3000 := (y 0).isLt
  have hy1 : (y 1).val < 16 := (y 1).isLt
  obtain ⟨-, -, -, -, -, -, -, -, -, e0, e1⟩ := index_facts t
  have ht : t.val < 50 := lt_of_lt_of_eq t.isLt N_0
  have hn : t.val * 3000 + (y 0).val < 150000 := by omega
  have hx : (cfg0.win 5).xinj (grid0.coords t) y = ix2 (⟨(y 0).val, hy0⟩ : Fin 3000) (⟨(y 1).val, hy1⟩ : Fin 16) :=
    funext fun a => by match a with | ⟨0, _⟩ => rfl | ⟨1, _⟩ => rfl
  have he : ((cfg0.win 5).blk t).view.emb y = ix2 (⟨t.val * 3000 + (y 0).val, hn⟩ : Fin 150000) (⟨(y 1).val, hy1⟩ : Fin 16) :=
    funext fun a => Fin.ext (by
      match a with
      | ⟨0, _⟩ => show win0_5.index t (0 : Fin 2) * 3000 + 1 * (y 0).val = t.val * 3000 + (y 0).val; omega
      | ⟨1, _⟩ => show win0_5.index t (1 : Fin 2) * 16 + 1 * (y 1).val = (y 1).val; omega)
  show out0_5 (F := Ideal) (iblk0 V c 0 t) (iblk0 V c 1 t) (iblk0 V c 2 t) (iblk0 V c 3 t) (iblk0 V c 4 t)
      ((cfg0.win 5).xinj (grid0.coords t) y) = resultArr V c (((cfg0.win 5).blk t).view.emb y)
  rw [hx, he]
  exact block_value V c t ⟨(y 0).val, hy0⟩ ⟨(y 1).val, hy1⟩ ⟨t.val * 3000 + (y 0).val, hn⟩ rfl

/-- An entry of the array is in point `t`'s block iff each coordinate is in the block's range on its axis. -/
theorem mem_blk5 (t : Fin cfg0.N) (i : S150000x16.Idx) :
    i ∈ ((cfg0.win 5).blk t).view.set ↔ ∀ a : Fin 2, win0_5.index t a * S3000x16.size a ≤ (i a).val
      ∧ (i a).val < win0_5.index t a * S3000x16.size a + S3000x16.size a := by
  show i ∈ ((View.whole main_v30).slice (win0_5.rect t)).set ↔ _
  rw [View.set_slice_whole, Rect.mem_set_unit]
  exact Iff.rfl

/-- Row `r` is written back by point `r / 3000`: the fifty blocks of 3000 rows tile the 150000 rows. -/
theorem cover5 (i : S150000x16.Idx) : ∃ t : Fin cfg0.N, (cfg0.win 5).flush t = true ∧ i ∈ ((cfg0.win 5).blk t).view.set := by
  have hi0 : (i 0).val < 150000 := (i 0).isLt
  have hi1 : (i 1).val < 16 := (i 1).isLt
  have ht : (i 0).val / 3000 < cfg0.N := lt_of_lt_of_eq (by omega : (i 0).val / 3000 < 50) N_0.symm
  obtain ⟨-, -, -, -, -, -, -, -, -, e0, e1⟩ := index_facts ⟨(i 0).val / 3000, ht⟩
  refine ⟨⟨(i 0).val / 3000, ht⟩, flush0_5 _, ?_⟩
  rw [mem_blk5]
  intro a
  match a with
  | ⟨0, _⟩ =>
    show win0_5.index ⟨(i 0).val / 3000, ht⟩ (0 : Fin 2) * 3000 ≤ (i 0).val
      ∧ (i 0).val < win0_5.index ⟨(i 0).val / 3000, ht⟩ (0 : Fin 2) * 3000 + 3000
    rw [e0]
    show (i 0).val / 3000 * 3000 ≤ (i 0).val ∧ (i 0).val < (i 0).val / 3000 * 3000 + 3000
    omega
  | ⟨1, _⟩ =>
    show win0_5.index ⟨(i 0).val / 3000, ht⟩ (1 : Fin 2) * 16 ≤ (i 1).val
      ∧ (i 1).val < win0_5.index ⟨(i 0).val / 3000, ht⟩ (1 : Fin 2) * 16 + 16
    rw [e1]
    omega

/-- After the region the output array holds the formula everywhere. -/
theorem region0_array (c : Dev nD) : (dat0 (F := Ideal) V c).arrAt 5 cfg0.N = resultArr V c :=
  (dat0 (F := Ideal) V c).arrAt_eq_of_cover 5 (resultArr V c) (fun t _ => flushed0_eq V c t) cover5

end NodeTransform

/-- THE REGION'S VALUE: after the region, row `n`, column `j` of its output array is the formula of the five arrays
    the region reads, as it found them. -/
theorem region0_value (c : Dev nD) (n : Fin 150000) (j : Fin 16) :
    (dat0 (F := Ideal) V c).arrAt 5 cfg0.N (ix2 n j)
      = P2E (V c main_v29) (V c main_v17) (V c main_arg1) (V c main_arg2) (V c main_arg3) n j := by
  rw [NodeTransform.region0_array]
  rfl

end Cert.KernelIdeal.Hand

end
-- ==== Proof.KIValue1.lean ====
/-
  The value of the second kernel region (pooling the node features by graph, then the two-layer head) on one core, at
  the ideal instance: floats are extended reals, every operation exact, format changes the identity.

  The region carries an accumulator of 512 rows by 16 columns over its 50 points.  At point t it reads rows
  3000 t … 3000 t + 2999 of the width-16 aggregate A, of the degree column s and of the graph-index column b, and adds
      acc[g, j] += Σ_r [b(r) = g] · max (A[r, j] · s(r) + b2[j]) 0,
  the indicator being the word test "graph index = lane number" widened and converted, hence 1 or 0.  After point n the
  accumulator therefore holds, in row g, the sum of the activated features of the nodes below 3000 (n + 1) that belong
  to graph g (induction on n: the node axis is cut into consecutive blocks), and after point 49 the pooled rows.  The
  head  relu(acc · Wf1 + bf1) · Wf2 + bf2  of that is written once, after the last point, into the output's one block,
  which covers the whole [512, 1] array.  So where the arrays the region reads hold the model's data, embedded from the
  reals, the output array ends holding the model's output, as ONE embedded real per graph.

  Order: the three payloads read at an index (the matrix products re-indexed over their one contracted axis); the
  blocks read where the index maps say; the model's pooled sum laid out along the node axis; the invariant; the final
  array.
-/
import proofs.«400391_j66829691126192_3_alg».proof.Proof.Gen.KernelIdeal.Launch
import proofs.«400391_j66829691126192_3_alg».proof.Proof.Gen.KernelIdeal.Skeleton
import proofs.«400391_j66829691126192_3_alg».proof.Proof.Gen.KernelIdeal.Points
import proofs.«400391_j66829691126192_3_alg».proof.Proof.KIBody1
import proofs.«400391_j66829691126192_3_alg».proof.Proof.Model
import proofs.«400391_j66829691126192_3_alg».proof.Proof.Lift
import proofs.«400391_j66829691126192_3_alg».proof.Proof.LibKeepdimsColumn
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The three payloads of the region, read at an index

All three are compositions of elementwise operations, layout changes and matrix products; at the ideal instance each
reads, at an index, as the corresponding expression over the extended reals. -/

/-- The reset block is zero everywhere. -/
theorem pay1_apply (g : Fin 512) (j : Fin 16) : k1_pay1 (F := Ideal) (ix2 g j) = 0 := by
  unfold k1_pay1
  rw [shapeCast_self]
  show Ideal.ofBits .f32 0x00000000#32 = 0
  exact Ideal.ofBits_zero_f32

/-! ### The pooling product contracts the ROW axis of both operands: its operand indices, axis by axis -/

theorem poolL_0 (i : S512x16.Idx) (q : dot_S3000x512_S3000x16_S512x16_0_0_1_1_n_n.contr.Idx) :
    (dot_S3000x512_S3000x16_S512x16_0_0_1_1_n_n.lhsIdx i q 0).val = (q ⟨0, by decide⟩).val :=
  dot_S3000x512_S3000x16_S512x16_0_0_1_1_n_n.lhsIdx_val_of_single rfl i q
theorem poolL_1 (i : S512x16.Idx) (q : dot_S3000x512_S3000x16_S512x16_0_0_1_1_n_n.contr.Idx) :
    (dot_S3000x512_S3000x16_S512x16_0_0_1_1_n_n.lhsIdx i q 1).val = (i 0).val := by
  unfold DotDims.lhsIdx
  rw [dif_neg (show ¬(1 : Fin S3000x512.rank) ∈ dot_S3000x512_S3000x16_S512x16_0_0_1_1_n_n.lhsBatch by decide), dif_pos (show (1 : Fin S3000x512.rank) ∈ dot_S3000x512_S3000x16_S512x16_0_0_1_1_n_n.lhsNonContracting by decide)]
  rfl
theorem poolR_0 (i : S512x16.Idx) (q : dot_S3000x512_S3000x16_S512x16_0_0_1_1_n_n.contr.Idx) :
    (dot_S3000x512_S3000x16_S512x16_0_0_1_1_n_n.rhsIdx i q 0).val = (q ⟨0, by decide⟩).val :=
  dot_S3000x512_S3000x16_S512x16_0_0_1_1_n_n.rhsIdx_val_of_single rfl i q
theorem poolR_1 (i : S512x16.Idx) (q : dot_S3000x512_S3000x16_S512x16_0_0_1_1_n_n.contr.Idx) :
    (dot_S3000x512_S3000x16_S512x16_0_0_1_1_n_n.rhsIdx i q 1).val = (i 1).val := by
  unfold DotDims.rhsIdx
  rw [dif_neg (show ¬(1 : Fin S3000x16.rank) ∈ dot_S3000x512_S3000x16_S512x16_0_0_1_1_n_n.rhsBatch by decide), dif_pos (show (1 : Fin S3000x16.rank) ∈ dot_S3000x512_S3000x16_S512x16_0_0_1_1_n_n.rhsNonContracting by decide)]
  rfl

/-- The pooling product into the zero block: entry (g, j) sums, over the 3000 rows r, left(r, g) · right(r, j). -/
theorem pool_matmul_apply (lhs : FVec Ideal S3000x512 .bf16) (rhs : FVec Ideal S3000x16 .bf16) (g : Fin 512) (j : Fin 16) :
    FloatOps.matmul dot_S3000x512_S3000x16_S512x16_0_0_1_1_n_n none lhs rhs (constant (F := Ideal) S512x16 .f32 0x00000000#32) (ix2 g j)
      = ∑ r : Fin 3000, lhs (ix2 r g) * rhs (ix2 r j) := by
  rw [Ideal.matmul_constant_zero_apply, ← Equiv.sum_comp (contrEquiv1 dot_S3000x512_S3000x16_S512x16_0_0_1_1_n_n 3000 rfl rfl).symm]
  refine Finset.sum_congr rfl fun k _ => ?_
  have hk := contrEquiv1_symm_val dot_S3000x512_S3000x16_S512x16_0_0_1_1_n_n 3000 rfl rfl k
  have el : dot_S3000x512_S3000x16_S512x16_0_0_1_1_n_n.lhsIdx (ix2 g j) ((contrEquiv1 dot_S3000x512_S3000x16_S512x16_0_0_1_1_n_n 3000 rfl rfl).symm k) = ix2 k g := funext fun a => Fin.ext (by
    match a with
    | ⟨0, _⟩ => exact (poolL_0 _ _).trans hk
    | ⟨1, _⟩ => exact poolL_1 _ _)
  have er : dot_S3000x512_S3000x16_S512x16_0_0_1_1_n_n.rhsIdx (ix2 g j) ((contrEquiv1 dot_S3000x512_S3000x16_S512x16_0_0_1_1_n_n 3000 rfl rfl).symm k) = ix2 k j := funext fun a => Fin.ext (by
    match a with
    | ⟨0, _⟩ => exact (poolR_0 _ _).trans hk
    | ⟨1, _⟩ => exact poolR_1 _ _)
  rw [el, er]

/-- A word test read as a number: the one-bit answer of "x = y", widened and converted, is 1 or 0. -/
theorem indicator_word (x y : BitVec 32) :
    ((((IntOp.cmpi .eq x y).setWidth 32).toInt : ℝ) : EReal) = if y = x then (1 : EReal) else 0 := by
  by_cases h : y = x
  · subst h
    rw [if_pos rfl]
    have e : IntOp.cmpi .eq y y = 1#1 := by simp [IntOp.cmpi]
    rw [e]
    have e2 : ((1#1 : BitVec 1).setWidth 32).toInt = 1 := by decide
    rw [e2]
    norm_num
  · rw [if_neg h]
    have e : IntOp.cmpi .eq x y = 0#1 := by
      have hb : (x == y) = false := beq_eq_false_iff_ne.mpr (fun e => h e.symm)
      show BitVec.ofBool (x == y) = 0#1
      rw [hb]; rfl
    rw [e]
    have e2 : ((0#1 : BitVec 1).setWidth 32).toInt = 0 := by decide
    rw [e2]
    norm_num

/-- THE ACCUMULATION STEP at an index: the block's rows whose graph index is g add their activated features to
    row g of the accumulator. -/
theorem pay2_apply (dcol : Vec Ideal S3000x1 .f32) (h : Vec Ideal S3000x16 .f32) (b2 : Vec Ideal S16 .f32)
    (bt : Vec Ideal S3000x1 .i32) (acc : Vec Ideal S512x16 .f32) (g : Fin 512) (j : Fin 16) :
    k1_pay2 dcol h b2 bt acc (ix2 g j) = acc (ix2 g j) + ∑ r : Fin 3000,
      (if bt (ix2 r (0 : Fin 1)) = BitVec.ofNat 32 g.val then (1 : EReal) else 0)
        * max (h (ix2 r j) * dcol (ix2 r (0 : Fin 1)) + b2 (ix1 j)) 0 := by
  unfold k1_pay2
  dsimp only
  simp only [shapeCast_self]
  refine congrArg (acc (ix2 g j) + ·) ?_
  refine (pool_matmul_apply _ _ g j).trans ?_
  refine Finset.sum_congr rfl fun r _ => ?_
  congr 1
  · show ((((IntOp.cmpi .eq (iota .tc S3000x512 32 [1] iota_S3000x512_d1_w32 (ix2 r g))
        (broadcastTo S3000x512 bt broadcasts_S3000x1_S3000x512 (ix2 r g))).setWidth 32).toInt : ℝ) : EReal) = _
    rw [iota_single_apply, Cert.Lib.KeepdimsColumn.broadcastTo_a1_ab_apply]
    exact indicator_word _ _
  · show max (h (ix2 r j) * broadcastTo S3000x16 dcol broadcasts_S3000x1_S3000x16 (ix2 r j)
        + broadcastTo S3000x16 (shapeCast S1x16 b2 shapeCasts_S16_S1x16) broadcasts_S1x16_S3000x16 (ix2 r j))
        (Ideal.ofBits .f32 0x00000000#32) = _
    rw [Cert.Lib.KeepdimsColumn.broadcastTo_a1_ab_apply, broadcastTo_1b_ab_apply, shapeCast_a_1a_apply, Ideal.ofBits_zero_f32]

/-! ### The head's two products contract the column axis of the left operand with the row axis of the right -/

theorem headAL_0 (i : S512x16.Idx) (q : dot_S512x16_S16x16_S512x16_1_0_0_1_n_n.contr.Idx) :
    (dot_S512x16_S16x16_S512x16_1_0_0_1_n_n.lhsIdx i q 0).val = (i 0).val := by
  unfold DotDims.lhsIdx
  rw [dif_neg (show ¬(0 : Fin S512x16.rank) ∈ dot_S512x16_S16x16_S512x16_1_0_0_1_n_n.lhsBatch by decide), dif_pos (show (0 : Fin S512x16.rank) ∈ dot_S512x16_S16x16_S512x16_1_0_0_1_n_n.lhsNonContracting by decide)]
  rfl
theorem headAL_1 (i : S512x16.Idx) (q : dot_S512x16_S16x16_S512x16_1_0_0_1_n_n.contr.Idx) :
    (dot_S512x16_S16x16_S512x16_1_0_0_1_n_n.lhsIdx i q 1).val = (q ⟨0, by decide⟩).val :=
  dot_S512x16_S16x16_S512x16_1_0_0_1_n_n.lhsIdx_val_of_single rfl i q
theorem headAR_0 (i : S512x16.Idx) (q : dot_S512x16_S16x16_S512x16_1_0_0_1_n_n.contr.Idx) :
    (dot_S512x16_S16x16_S512x16_1_0_0_1_n_n.rhsIdx i q 0).val = (q ⟨0, by decide⟩).val :=
  dot_S512x16_S16x16_S512x16_1_0_0_1_n_n.rhsIdx_val_of_single rfl i q
theorem headAR_1 (i : S512x16.Idx) (q : dot_S512x16_S16x16_S512x16_1_0_0_1_n_n.contr.Idx) :
    (dot_S512x16_S16x16_S512x16_1_0_0_1_n_n.rhsIdx i q 1).val = (i 1).val := by
  unfold DotDims.rhsIdx
  rw [dif_neg (show ¬(1 : Fin S16x16.rank) ∈ dot_S512x16_S16x16_S512x16_1_0_0_1_n_n.rhsBatch by decide), dif_pos (show (1 : Fin S16x16.rank) ∈ dot_S512x16_S16x16_S512x16_1_0_0_1_n_n.rhsNonContracting by decide)]
  rfl

/-- The head's first product into the zero block: entry (g, j) sums left(g, k) · right(k, j) over the 16 features k. -/
theorem headA_matmul_apply (prec : Option ContractPrecision) (lhs : FVec Ideal S512x16 .f32) (rhs : FVec Ideal S16x16 .f32) (g : Fin 512) (j : Fin 16) :
    FloatOps.matmul dot_S512x16_S16x16_S512x16_1_0_0_1_n_n prec lhs rhs (constant (F := Ideal) S512x16 .f32 0x00000000#32) (ix2 g j)
      = ∑ k : Fin 16, lhs (ix2 g k) * rhs (ix2 k j) := by
  rw [Ideal.matmul_constant_zero_apply, ← Equiv.sum_comp (contrEquiv1 dot_S512x16_S16x16_S512x16_1_0_0_1_n_n 16 rfl rfl).symm]
  refine Finset.sum_congr rfl fun k _ => ?_
  have hk := contrEquiv1_symm_val dot_S512x16_S16x16_S512x16_1_0_0_1_n_n 16 rfl rfl k
  have el : dot_S512x16_S16x16_S512x16_1_0_0_1_n_n.lhsIdx (ix2 g j) ((contrEquiv1 dot_S512x16_S16x16_S512x16_1_0_0_1_n_n 16 rfl rfl).symm k) = ix2 g k := funext fun a => Fin.ext (by
    match a with
    | ⟨0, _⟩ => exact headAL_0 _ _
    | ⟨1, _⟩ => exact (headAL_1 _ _).trans hk)
  have er : dot_S512x16_S16x16_S512x16_1_0_0_1_n_n.rhsIdx (ix2 g j) ((contrEquiv1 dot_S512x16_S16x16_S512x16_1_0_0_1_n_n 16 rfl rfl).symm k) = ix2 k j := funext fun a => Fin.ext (by
    match a with
    | ⟨0, _⟩ => exact (headAR_0 _ _).trans hk
    | ⟨1, _⟩ => exact headAR_1 _ _)
  rw [el, er]

theorem headBL_0 (i : S512x1.Idx) (q : dot_S512x16_S16x1_S512x1_1_0_0_1_n_n.contr.Idx) :
    (dot_S512x16_S16x1_S512x1_1_0_0_1_n_n.lhsIdx i q 0).val = (i 0).val := by
  unfold DotDims.lhsIdx
  rw [dif_neg (show ¬(0 : Fin S512x16.rank) ∈ dot_S512x16_S16x1_S512x1_1_0_0_1_n_n.lhsBatch by decide), dif_pos (show (0 : Fin S512x16.rank) ∈ dot_S512x16_S16x1_S512x1_1_0_0_1_n_n.lhsNonContracting by decide)]
  rfl
theorem headBL_1 (i : S512x1.Idx) (q : dot_S512x16_S16x1_S512x1_1_0_0_1_n_n.contr.Idx) :
    (dot_S512x16_S16x1_S512x1_1_0_0_1_n_n.lhsIdx i q 1).val = (q ⟨0, by decide⟩).val :=
  dot_S512x16_S16x1_S512x1_1_0_0_1_n_n.lhsIdx_val_of_single rfl i q
theorem headBR_0 (i : S512x1.Idx) (q : dot_S512x16_S16x1_S512x1_1_0_0_1_n_n.contr.Idx) :
    (dot_S512x16_S16x1_S512x1_1_0_0_1_n_n.rhsIdx i q 0).val = (q ⟨0, by decide⟩).val :=
  dot_S512x16_S16x1_S512x1_1_0_0_1_n_n.rhsIdx_val_of_single rfl i q
theorem headBR_1 (i : S512x1.Idx) (q : dot_S512x16_S16x1_S512x1_1_0_0_1_n_n.contr.Idx) :
    (dot_S512x16_S16x1_S512x1_1_0_0_1_n_n.rhsIdx i q 1).val = (i 1).val := by
  unfold DotDims.rhsIdx
  rw [dif_neg (show ¬(1 : Fin S16x1.rank) ∈ dot_S512x16_S16x1_S512x1_1_0_0_1_n_n.rhsBatch by decide), dif_pos (show (1 : Fin S16x1.rank) ∈ dot_S512x16_S16x1_S512x1_1_0_0_1_n_n.rhsNonContracting by decide)]
  rfl

/-- The head's second product into the zero block, the same with one output column. -/
theorem headB_matmul_apply (prec : Option ContractPrecision) (lhs : FVec Ideal S512x16 .f32) (rhs : FVec Ideal S16x1 .f32) (g : Fin 512) (j : Fin 1) :
    FloatOps.matmul dot_S512x16_S16x1_S512x1_1_0_0_1_n_n prec lhs rhs (constant (F := Ideal) S512x1 .f32 0x00000000#32) (ix2 g j)
      = ∑ k : Fin 16, lhs (ix2 g k) * rhs (ix2 k j) := by
  rw [Ideal.matmul_constant_zero_apply, ← Equiv.sum_comp (contrEquiv1 dot_S512x16_S16x1_S512x1_1_0_0_1_n_n 16 rfl rfl).symm]
  refine Finset.sum_congr rfl fun k _ => ?_
  have hk := contrEquiv1_symm_val dot_S512x16_S16x1_S512x1_1_0_0_1_n_n 16 rfl rfl k
  have el : dot_S512x16_S16x1_S512x1_1_0_0_1_n_n.lhsIdx (ix2 g j) ((contrEquiv1 dot_S512x16_S16x1_S512x1_1_0_0_1_n_n 16 rfl rfl).symm k) = ix2 g k := funext fun a => Fin.ext (by
    match a with
    | ⟨0, _⟩ => exact headBL_0 _ _
    | ⟨1, _⟩ => exact (headBL_1 _ _).trans hk)
  have er : dot_S512x16_S16x1_S512x1_1_0_0_1_n_n.rhsIdx (ix2 g j) ((contrEquiv1 dot_S512x16_S16x1_S512x1_1_0_0_1_n_n 16 rfl rfl).symm k) = ix2 k j := funext fun a => Fin.ext (by
    match a with
    | ⟨0, _⟩ => exact (headBR_0 _ _).trans hk
    | ⟨1, _⟩ => exact headBR_1 _ _)
  rw [el, er]

/-- THE HEAD at an index: graph g's pooled row through the two dense layers. -/
theorem pay3_apply (acc : Vec Ideal S512x16 .f32) (wf1 : Vec Ideal S16x16 .f32) (bf1 : Vec Ideal S16 .f32)
    (wf2 : Vec Ideal S16x1 .f32) (bf2 : Vec Ideal S1 .f32) (g : Fin 512) :
    k1_pay3 acc wf1 bf1 wf2 bf2 (ix2 g (0 : Fin 1))
      = (∑ j : Fin 16, max ((∑ k : Fin 16, acc (ix2 g k) * wf1 (ix2 k j)) + bf1 (ix1 j)) 0 * wf2 (ix2 j (0 : Fin 1)))
        + bf2 (ix1 (0 : Fin 1)) := by
  unfold k1_pay3
  show FloatOps.matmul dot_S512x16_S16x1_S512x1_1_0_0_1_n_n (some .fp32) _ wf2 (constant (F := Ideal) S512x1 .f32 0x00000000#32) (ix2 g (0 : Fin 1))
      + broadcastTo S512x1 (shapeCast S1x1 bf2 shapeCasts_S1_S1x1) broadcasts_S1x1_S512x1 (ix2 g (0 : Fin 1)) = _
  rw [broadcastTo_1b_ab_apply, shapeCast_a_1a_apply]
  refine congrArg (· + bf2 (ix1 (0 : Fin 1))) ?_
  refine (headB_matmul_apply _ _ _ g 0).trans ?_
  refine Finset.sum_congr rfl fun j _ => ?_
  congr 1
  show max (FloatOps.matmul dot_S512x16_S16x16_S512x16_1_0_0_1_n_n (some .fp32) acc wf1 (constant (F := Ideal) S512x16 .f32 0x00000000#32) (ix2 g j)
      + broadcastTo S512x16 (shapeCast S1x16 bf1 shapeCasts_S16_S1x16) broadcasts_S1x16_S512x16 (ix2 g j))
      (Ideal.ofBits .f32 0x00000000#32) = _
  rw [headA_matmul_apply, broadcastTo_1b_ab_apply, shapeCast_a_1a_apply, Ideal.ofBits_zero_f32]

/-! ## The blocks the region reads, as entries of the arrays it finds

The arrays and their blocks under names of literal type. -/

variable (V : (c : Dev nD) → (b : Ref sig .tc) → Buf (Elt Ideal) ((c : Thread nD τ).loc b))

/-- The width-16 aggregate, the degree column, the graph-index column, -/
abbrev aggArr (c : Dev nD) : Vec Ideal S150000x16 .f32 := V c main_v40
abbrev disColArr (c : Dev nD) : Vec Ideal S150000x1 .f32 := V c main_v17
abbrev batArr (c : Dev nD) : Vec Ideal S150000x1 .i32 := V c main_v41
/-- the second layer's bias and the head's two weight arrays and two biases. -/
abbrev b2Arr (c : Dev nD) : Vec Ideal S16 .f32 := V c main_arg4
abbrev wf1Arr (c : Dev nD) : Vec Ideal S16x16 .f32 := V c main_arg5
abbrev bf1Arr (c : Dev nD) : Vec Ideal S16 .f32 := V c main_arg6
abbrev wf2Arr (c : Dev nD) : Vec Ideal S16x1 .f32 := V c main_arg7
abbrev bf2Arr (c : Dev nD) : Vec Ideal S1 .f32 := V c main_arg8

/-- Their blocks at point t. -/
abbrev aggBlk (c : Dev nD) (t : Fin cfg1.N) : Vec Ideal S3000x16 .f32 := iblk1 V c 0 t
abbrev disBlk (c : Dev nD) (t : Fin cfg1.N) : Vec Ideal S3000x1 .f32 := iblk1 V c 1 t
abbrev batBlk (c : Dev nD) (t : Fin cfg1.N) : Vec Ideal S3000x1 .i32 := iblk1 V c 2 t
abbrev b2Blk (c : Dev nD) (t : Fin cfg1.N) : Vec Ideal S16 .f32 := iblk1 V c 3 t
abbrev wf1Blk (c : Dev nD) (t : Fin cfg1.N) : Vec Ideal S16x16 .f32 := iblk1 V c 4 t
abbrev bf1Blk (c : Dev nD) (t : Fin cfg1.N) : Vec Ideal S16 .f32 := iblk1 V c 5 t
abbrev wf2Blk (c : Dev nD) (t : Fin cfg1.N) : Vec Ideal S16x1 .f32 := iblk1 V c 6 t
abbrev bf2Blk (c : Dev nD) (t : Fin cfg1.N) : Vec Ideal S1 .f32 := iblk1 V c 7 t

theorem N1 : cfg1.N = 50 := by decide

/-- The three row-blocked windows are at block (t, 0) at point t; the five whole windows and the output at block 0. -/
theorem index_rows : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0) :=
  (by decide +kernel : ∀ t : Fin grid1.N,
    (win1_0.index t 0 = t.val ∧ win1_0.index t 1 = 0) ∧ (win1_1.index t 0 = t.val ∧ win1_1.index t 1 = 0)
      ∧ (win1_2.index t 0 = t.val ∧ win1_2.index t 1 = 0))
theorem index_whole : ∀ t : Fin cfg1.N,
    win1_3.index t 0 = 0 ∧ (win1_4.index t 0 = 0 ∧ win1_4.index t 1 = 0) ∧ win1_5.index t 0 = 0
      ∧ (win1_6.index t 0 = 0 ∧ win1_6.index t 1 = 0) ∧ win1_7.index t 0 = 0 ∧ (win1_8.index t 0 = 0 ∧ win1_8.index t 1 = 0) :=
  (by decide +kernel : ∀ t : Fin grid1.N,
    win1_3.index t 0 = 0 ∧ (win1_4.index t 0 = 0 ∧ win1_4.index t 1 = 0) ∧ win1_5.index t 0 = 0
      ∧ (win1_6.index t 0 = 0 ∧ win1_6.index t 1 = 0) ∧ win1_7.index t 0 = 0 ∧ (win1_8.index t 0 = 0 ∧ win1_8.index t 1 = 0))

/-- Row r of the block at point t is row 3000 t + r of the array. -/
abbrev rowAt (t : Fin cfg1.N) (r : Fin 3000) : Fin 150000 :=
  ⟨3000 * t.val + r.val, by have := t.isLt; have := N1; have := r.isLt; omega⟩

theorem aggBlk_apply (c : Dev nD) (t : Fin cfg1.N) (r : Fin 3000) (j : Fin 16) :
    aggBlk V c t (ix2 r j) = aggArr V c (ix2 (rowAt t r) j) := by
  have hi := (index_rows t).1
  show ((cfg1.win 0).blk t).view.read (Elt Ideal) (V c main_v40) (ix2 r j) = V c main_v40 (ix2 (rowAt t r) j)
  rw [View.read_apply]
  show V c main_v40 _ = V c main_v40 _
  congr 1
  funext a
  apply Fin.ext
  match a with
  | ⟨0, _⟩ => show win1_0.index t 0 * 3000 + 1 * r.val = 3000 * t.val + r.val; rw [hi.1]; omega
  | ⟨1, _⟩ => show win1_0.index t 1 * 16 + 1 * j.val = j.val; rw [hi.2]; omega

theorem disBlk_apply (c : Dev nD) (t : Fin cfg1.N) (r : Fin 3000) :
    disBlk V c t (ix2 r (0 : Fin 1)) = disColArr V c (ix2 (rowAt t r) (0 : Fin 1)) := by
  have hi := (index_rows t).2.1
  show ((cfg1.win 1).blk t).view.read (Elt Ideal) (V c main_v17) (ix2 r (0 : Fin 1)) = V c main_v17 (ix2 (rowAt t r) (0 : Fin 1))
  rw [View.read_apply]
  show V c main_v17 _ = V c main_v17 _
  congr 1
  funext a
  apply Fin.ext
  match a with
  | ⟨0, _⟩ => show win1_1.index t 0 * 3000 + 1 * r.val = 3000 * t.val + r.val; rw [hi.1]; omega
  | ⟨1, _⟩ => show win1_1.index t 1 * 1 + 1 * 0 = 0; rw [hi.2]

theorem batBlk_apply (c : Dev nD) (t : Fin cfg1.N) (r : Fin 3000) :
    batBlk V c t (ix2 r (0 : Fin 1)) = batArr V c (ix2 (rowAt t r) (0 : Fin 1)) := by
  have hi := (index_rows t).2.2
  show ((cfg1.win 2).blk t).view.read (Elt Ideal) (V c main_v41) (ix2 r (0 : Fin 1)) = V c main_v41 (ix2 (rowAt t r) (0 : Fin 1))
  rw [View.read_apply]
  show V c main_v41 _ = V c main_v41 _
  congr 1
  funext a
  apply Fin.ext
  match a with
  | ⟨0, _⟩ => show win1_2.index t 0 * 3000 + 1 * r.val = 3000 * t.val + r.val; rw [hi.1]; omega
  | ⟨1, _⟩ => show win1_2.index t 1 * 1 + 1 * 0 = 0; rw [hi.2]

/-- The five small arrays are read whole at every point. -/
theorem b2Blk_apply (c : Dev nD) (t : Fin cfg1.N) (j : Fin 16) : b2Blk V c t (ix1 j) = b2Arr V c (ix1 j) := by
  have hi := (index_whole t).1
  show ((cfg1.win 3).blk t).view.read (Elt Ideal) (V c main_arg4) (ix1 j) = V c main_arg4 (ix1 j)
  rw [View.read_apply]
  show V c main_arg4 _ = V c main_arg4 _
  congr 1
  funext a
  apply Fin.ext
  match a with
  | ⟨0, _⟩ => show win1_3.index t 0 * 16 + 1 * j.val = j.val; rw [hi]; omega

theorem wf1Blk_apply (c : Dev nD) (t : Fin cfg1.N) (k j : Fin 16) : wf1Blk V c t (ix2 k j) = wf1Arr V c (ix2 k j) := by
  have hi := (index_whole t).2.1
  show ((cfg1.win 4).blk t).view.read (Elt Ideal) (V c main_arg5) (ix2 k j) = V c main_arg5 (ix2 k j)
  rw [View.read_apply]
  show V c main_arg5 _ = V c main_arg5 _
  congr 1
  funext a
  apply Fin.ext
  match a with
  | ⟨0, _⟩ => show win1_4.index t 0 * 16 + 1 * k.val = k.val; rw [hi.1]; omega
  | ⟨1, _⟩ => show win1_4.index t 1 * 16 + 1 * j.val = j.val; rw [hi.2]; omega

theorem bf1Blk_apply (c : Dev nD) (t : Fin cfg1.N) (j : Fin 16) : bf1Blk V c t (ix1 j) = bf1Arr V c (ix1 j) := by
  have hi := (index_whole t).2.2.1
  show ((cfg1.win 5).blk t).view.read (Elt Ideal) (V c main_arg6) (ix1 j) = V c main_arg6 (ix1 j)
  rw [View.read_apply]
  show V c main_arg6 _ = V c main_arg6 _
  congr 1
  funext a
  apply Fin.ext
  match a with
  | ⟨0, _⟩ => show win1_5.index t 0 * 16 + 1 * j.val = j.val; rw [hi]; omega

theorem wf2Blk_apply (c : Dev nD) (t : Fin cfg1.N) (j : Fin 16) (u : Fin 1) : wf2Blk V c t (ix2 j u) = wf2Arr V c (ix2 j u) := by
  have hi := (index_whole t).2.2.2.1
  show ((cfg1.win 6).blk t).view.read (Elt Ideal) (V c main_arg7) (ix2 j u) = V c main_arg7 (ix2 j u)
  rw [View.read_apply]
  show V c main_arg7 _ = V c main_arg7 _
  congr 1
  funext a
  apply Fin.ext
  match a with
  | ⟨0, _⟩ => show win1_6.index t 0 * 16 + 1 * j.val = j.val; rw [hi.1]; omega
  | ⟨1, _⟩ => show win1_6.index t 1 * 1 + 1 * u.val = u.val; rw [hi.2]; omega

theorem bf2Blk_apply (c : Dev nD) (t : Fin cfg1.N) (u : Fin 1) : bf2Blk V c t (ix1 u) = bf2Arr V c (ix1 u) := by
  have hi := (index_whole t).2.2.2.2.1
  show ((cfg1.win 7).blk t).view.read (Elt Ideal) (V c main_arg8) (ix1 u) = V c main_arg8 (ix1 u)
  rw [View.read_apply]
  show V c main_arg8 _ = V c main_arg8 _
  congr 1
  funext a
  apply Fin.ext
  match a with
  | ⟨0, _⟩ => show win1_7.index t 0 * 1 + 1 * u.val = u.val; rw [hi]; omega

/-! ## The model's sums, laid out along the node axis

The pooled row of graph g is a sum over the nodes of the graph; the region adds the nodes up block by block. Along
the node axis 0, 1, 2, … the summand is the activated feature where the node is in the graph and zero elsewhere. -/

/-- Node m's contribution to column j of graph g's pooled row (zero off the graph, and past the last node). -/
def contrib (d : Cert.Model.Data) (g : Fin 512) (j : Fin 16) (m : ℕ) : ℝ :=
  if h : m < 150000 then (if (⟨m, h⟩ : Fin 150000) ∈ d.B g then Cert.Model.kH2 d ⟨m, h⟩ j else 0) else 0

theorem contrib_val (d : Cert.Model.Data) (g : Fin 512) (j : Fin 16) (m : Fin 150000) :
    contrib d g j m.val = if m ∈ d.B g then Cert.Model.kH2 d m j else 0 := by
  unfold contrib
  rw [dif_pos m.isLt]

/-- All 150000 contributions sum to the pooled entry. -/
theorem sum_contrib (d : Cert.Model.Data) (g : Fin 512) (j : Fin 16) :
    ∑ m ∈ Finset.range 150000, contrib d g j m = Cert.Model.kPool d g j := by
  rw [← Fin.sum_univ_eq_sum_range (contrib d g j) 150000]
  unfold Cert.Model.kPool
  simp only [contrib_val]
  rw [Finset.sum_ite_mem, Finset.univ_inter]

/-- A graph number below 512, as a 32-bit word, reads back signed as itself. -/
theorem toInt_graph : ∀ g : Fin 512, (BitVec.ofNat 32 g.val).toInt = (g.val : Int) := by decide +kernel

/-- So the word test "index word = g" is the signed reading "= g". -/
theorem word_eq_iff (x : BitVec 32) (g : Fin 512) : x = BitVec.ofNat 32 g.val ↔ x.toInt = (g.val : Int) := by
  constructor
  · intro h; rw [h]; exact toInt_graph g
  · intro h; exact BitVec.eq_of_toInt_eq (h.trans (toInt_graph g).symm)

/-- One row's term of the accumulation step, once its four reads are known: the node's contribution. -/
theorem term_eq (d : Cert.Model.Data) (g : Fin 512) (j : Fin 16) (m : Fin 150000) (bt : BitVec 32) (a dd b : EReal)
    (hbt : m ∈ d.B g ↔ bt.toInt = (g.val : Int)) (ha : a = ((Cert.Model.kA2 d m j : ℝ) : EReal))
    (hd : dd = ((d.dis m : ℝ) : EReal)) (hb : b = ((d.b2 j : ℝ) : EReal)) :
    (if bt = BitVec.ofNat 32 g.val then (1 : EReal) else 0) * max (a * dd + b) 0 = ((contrib d g j m.val : ℝ) : EReal) := by
  subst ha hd hb
  rw [contrib_val, Cert.Lift.coe_mul', Cert.Lift.coe_add', Cert.Lift.coe_max_zero]
  by_cases hm : m ∈ d.B g
  · rw [if_pos ((word_eq_iff bt g).mpr (hbt.mp hm)), if_pos hm, one_mul]
    rfl
  · rw [if_neg (fun e => hm (hbt.mpr ((word_eq_iff bt g).mp e))), if_neg hm, zero_mul, EReal.coe_zero]

/-! ## The accumulator after point n: the contributions of the nodes below 3000 (n + 1) -/

/-- One point's update: the 3000 rows of block t add the contributions of nodes 3000 t … 3000 t + 2999. -/
theorem block_sum (c : Dev nD) (d : Cert.Model.Data)
    (h40 : ∀ (n : Fin 150000) (j : Fin 16), aggArr V c (ix2 n j) = ((Cert.Model.kA2 d n j : ℝ) : EReal))
    (h17 : ∀ n : Fin 150000, disColArr V c (ix2 n (0 : Fin 1)) = ((d.dis n : ℝ) : EReal))
    (h41 : ∀ (g : Fin 512) (n : Fin 150000), n ∈ d.B g ↔ BitVec.toInt (batArr V c (ix2 n (0 : Fin 1))) = (g.val : Int))
    (hb2 : ∀ j : Fin 16, b2Arr V c (ix1 j) = ((d.b2 j : ℝ) : EReal))
    (t : Fin cfg1.N) (g : Fin 512) (j : Fin 16) :
    ∑ r : Fin 3000, (if batBlk V c t (ix2 r (0 : Fin 1)) = BitVec.ofNat 32 g.val then (1 : EReal) else 0)
        * max (aggBlk V c t (ix2 r j) * disBlk V c t (ix2 r (0 : Fin 1)) + b2Blk V c t (ix1 j)) 0
      = ((∑ r ∈ Finset.range 3000, contrib d g j (3000 * t.val + r) : ℝ) : EReal) := by
  rw [← Fin.sum_univ_eq_sum_range (fun r => contrib d g j (3000 * t.val + r)) 3000, ← Cert.Lift.coe_sum_univ]
  refine Finset.sum_congr rfl fun r _ => ?_
  exact term_eq d g j (rowAt t r) _ _ _ _ (by rw [batBlk_apply]; exact h41 g _) (by rw [aggBlk_apply]; exact h40 _ _)
    (by rw [disBlk_apply]; exact h17 _) (by rw [b2Blk_apply]; exact hb2 j)

/-- THE INVARIANT, by induction on the point. -/
theorem accAt_eq (c : Dev nD) (d : Cert.Model.Data)
    (h40 : ∀ (n : Fin 150000) (j : Fin 16), aggArr V c (ix2 n j) = ((Cert.Model.kA2 d n j : ℝ) : EReal))
    (h17 : ∀ n : Fin 150000, disColArr V c (ix2 n (0 : Fin 1)) = ((d.dis n : ℝ) : EReal))
    (h41 : ∀ (g : Fin 512) (n : Fin 150000), n ∈ d.B g ↔ BitVec.toInt (batArr V c (ix2 n (0 : Fin 1))) = (g.val : Int))
    (hb2 : ∀ j : Fin 16, b2Arr V c (ix1 j) = ((d.b2 j : ℝ) : EReal)) (g : Fin 512) (j : Fin 16) :
    ∀ (n : ℕ) (h : n < cfg1.N),
      accAt V c n h (ix2 g j) = ((∑ m ∈ Finset.range (3000 * (n + 1)), contrib d g j m : ℝ) : EReal)
  | 0, h => by
    show k1_pay2 (disBlk V c ⟨0, h⟩) (aggBlk V c ⟨0, h⟩) (b2Blk V c ⟨0, h⟩) (batBlk V c ⟨0, h⟩) (k1_pay1 (F := Ideal)) (ix2 g j) = _
    refine (pay2_apply (disBlk V c ⟨0, h⟩) (aggBlk V c ⟨0, h⟩) (b2Blk V c ⟨0, h⟩) (batBlk V c ⟨0, h⟩) (k1_pay1 (F := Ideal)) g j).trans ?_
    rw [pay1_apply, zero_add, block_sum V c d h40 h17 h41 hb2 ⟨0, h⟩ g j]
    simp only [Nat.mul_zero, Nat.zero_add, Nat.mul_one]
  | n + 1, h => by
    show k1_pay2 (disBlk V c ⟨n + 1, h⟩) (aggBlk V c ⟨n + 1, h⟩) (b2Blk V c ⟨n + 1, h⟩) (batBlk V c ⟨n + 1, h⟩)
      (accAt V c n (Nat.lt_of_succ_lt h)) (ix2 g j) = _
    refine (pay2_apply (disBlk V c ⟨n + 1, h⟩) (aggBlk V c ⟨n + 1, h⟩) (b2Blk V c ⟨n + 1, h⟩) (batBlk V c ⟨n + 1, h⟩)
      (accAt V c n (Nat.lt_of_succ_lt h)) g j).trans ?_
    rw [accAt_eq c d h40 h17 h41 hb2 g j n (Nat.lt_of_succ_lt h), block_sum V c d h40 h17 h41 hb2 ⟨n + 1, h⟩ g j,
      Cert.Lift.coe_add', show 3000 * (n + 1 + 1) = 3000 * (n + 1) + 3000 from by omega, Finset.sum_range_add]

/-- After the last point the accumulator holds the pooled rows. -/
theorem accAt_last (c : Dev nD) (d : Cert.Model.Data)
    (h40 : ∀ (n : Fin 150000) (j : Fin 16), aggArr V c (ix2 n j) = ((Cert.Model.kA2 d n j : ℝ) : EReal))
    (h17 : ∀ n : Fin 150000, disColArr V c (ix2 n (0 : Fin 1)) = ((d.dis n : ℝ) : EReal))
    (h41 : ∀ (g : Fin 512) (n : Fin 150000), n ∈ d.B g ↔ BitVec.toInt (batArr V c (ix2 n (0 : Fin 1))) = (g.val : Int))
    (hb2 : ∀ j : Fin 16, b2Arr V c (ix1 j) = ((d.b2 j : ℝ) : EReal)) (g : Fin 512) (j : Fin 16) (h : 49 < cfg1.N) :
    accAt V c 49 h (ix2 g j) = ((Cert.Model.kPool d g j : ℝ) : EReal) := by
  rw [accAt_eq V c d h40 h17 h41 hb2 g j 49 h]
  show ((∑ m ∈ Finset.range 150000, contrib d g j m : ℝ) : EReal) = _
  rw [sum_contrib]

/-! ## The output array after the region -/

/-- The last point. -/
abbrev tLast : Fin cfg1.N := ⟨49, by decide⟩

/-- The head of the full accumulation, as contents of the output array (its one block is the whole array). -/
abbrev result (c : Dev nD) : Buf (Elt Ideal) ((c : Thread nD τ).loc main_v42) :=
  k1_pay3 (accAt V c 49 (by decide)) (wf1Blk V c tLast) (bf1Blk V c tLast) (wf2Blk V c tLast) (bf2Blk V c tLast)

/-- The one write-back, after the last point, writes it: block (0, 0) of the [512, 1] array, read through zero
    offsets, is the array. -/
theorem flushed_eq (c : Dev nD) (t : Fin cfg1.N) (hf : (cfg1.win 8).flush t = true) :
    (dat1 V c).flushed 8 t = ((cfg1.win 8).blk t).view.read (Elt Ideal) (result V c) := by
  have hN := N1
  have h49 : t.val = 49 := by have := (flush1_8 t).mp hf; have := t.isLt; omega
  obtain rfl : t = tLast := Fin.ext h49
  show (cfg1.win 8).cut (grid1.coords tLast) ((dat1 V c).after 8 tLast) = _
  rw [after1_8_last]
  have hz' : (fun a => win1_8.index tLast a * main_v42.ty.shape.size a) = fun _ => 0 := funext fun a => by fin_cases a <;> decide
  exact (Memref.read_access_unit_zero (Elt Ideal) main_v42 hz' (fun a => by rw [congrFun hz' a]; simp) (result V c)).symm

/-- So the output array ends holding it: the last point's block covers the array. -/
theorem final_out (c : Dev nD) : (dat1 V c).arrAt 8 cfg1.N = result V c :=
  (dat1 V c).arrAt_eq_of_cover 8 (result V c) (flushed_eq V c) fun i =>
    ⟨tLast, (flush1_8 tLast).mpr rfl, by
      show i ∈ ((View.whole main_v42).slice (win1_8.rect tLast)).set
      rw [View.set_slice_whole, Rect.mem_set_unit]
      intro a
      have h0 : (i 0 : Nat) < 512 := (i 0).isLt
      have h1 : (i 1 : Nat) < 1 := (i 1).isLt
      match a with
      | ⟨0, _⟩ => show win1_8.index tLast 0 * win1_8.size 0 ≤ (i 0 : Nat) ∧ (i 0 : Nat) < win1_8.index tLast 0 * win1_8.size 0 + win1_8.xsize (grid1.coords tLast) 0
                  rw [show win1_8.index tLast 0 * win1_8.size 0 = 0 from by decide +kernel, show win1_8.xsize (grid1.coords tLast) 0 = 512 from by decide +kernel]; omega
      | ⟨1, _⟩ => show win1_8.index tLast 1 * win1_8.size 1 ≤ (i 1 : Nat) ∧ (i 1 : Nat) < win1_8.index tLast 1 * win1_8.size 1 + win1_8.xsize (grid1.coords tLast) 1
                  rw [show win1_8.index tLast 1 * win1_8.size 1 = 0 from by decide +kernel, show win1_8.xsize (grid1.coords tLast) 1 = 1 from by decide +kernel]; omega⟩

/-- THE VALUE OF THE REGION: where the arrays it reads hold the model's second aggregate, degree column, graph
    indices and parameters, the output array ends holding the model's output, graph by graph. -/
theorem region1_value_named (c : Dev nD) (d : Cert.Model.Data)
    (h40 : ∀ (n : Fin 150000) (j : Fin 16), aggArr V c (ix2 n j) = ((Cert.Model.kA2 d n j : ℝ) : EReal))
    (h17 : ∀ n : Fin 150000, disColArr V c (ix2 n (0 : Fin 1)) = ((d.dis n : ℝ) : EReal))
    (h41 : ∀ (g : Fin 512) (n : Fin 150000), n ∈ d.B g ↔ BitVec.toInt (batArr V c (ix2 n (0 : Fin 1))) = (g.val : Int))
    (hb2 : ∀ j : Fin 16, b2Arr V c (ix1 j) = ((d.b2 j : ℝ) : EReal))
    (hWf1 : ∀ k j : Fin 16, wf1Arr V c (ix2 k j) = ((d.Wf1 k j : ℝ) : EReal))
    (hbf1 : ∀ j : Fin 16, bf1Arr V c (ix1 j) = ((d.bf1 j : ℝ) : EReal))
    (hWf2 : ∀ (j : Fin 16) (u : Fin 1), wf2Arr V c (ix2 j u) = ((d.Wf2 j u : ℝ) : EReal))
    (hbf2 : ∀ u : Fin 1, bf2Arr V c (ix1 u) = ((d.bf2 u : ℝ) : EReal)) :
    ∀ g : Fin 512, (dat1 (F := Ideal) V c).arrAt 8 cfg1.N (ix2 g (0 : Fin 1)) = ((Cert.Model.kOut d g : ℝ) : EReal) := by
  intro g
  refine (congrFun (final_out V c) (ix2 g (0 : Fin 1))).trans ?_
  refine (pay3_apply (accAt V c 49 (by decide)) (wf1Blk V c tLast) (bf1Blk V c tLast) (wf2Blk V c tLast) (bf2Blk V c tLast) g).trans ?_
  simp only [accAt_last V c d h40 h17 h41 hb2 g, wf1Blk_apply, bf1Blk_apply, wf2Blk_apply, bf2Blk_apply, hWf1, hbf1, hWf2, hbf2,
    Cert.Lift.coe_mul', Cert.Lift.coe_sum_univ, Cert.Lift.coe_add', Cert.Lift.coe_max_zero]
  rfl

/-- The same, the arrays under the region's own names. -/
theorem region1_value (c : Dev nD) (d : Cert.Model.Data)
    (h40 : ∀ (n : Fin 150000) (j : Fin 16), V c main_v40 (ix2 n j) = ((Cert.Model.kA2 d n j : ℝ) : EReal))
    (h17 : ∀ n : Fin 150000, V c main_v17 (ix2 n (0 : Fin 1)) = ((d.dis n : ℝ) : EReal))
    (h41 : ∀ (g : Fin 512) (n : Fin 150000), n ∈ d.B g ↔ (V c main_v41 (ix2 n (0 : Fin 1)) : BitVec 32).toInt = (g.val : Int))
    (hb2 : ∀ j : Fin 16, V c main_arg4 (ix1 j) = ((d.b2 j : ℝ) : EReal))
    (hWf1 : ∀ k j : Fin 16, V c main_arg5 (ix2 k j) = ((d.Wf1 k j : ℝ) : EReal))
    (hbf1 : ∀ j : Fin 16, V c main_arg6 (ix1 j) = ((d.bf1 j : ℝ) : EReal))
    (hWf2 : ∀ (j : Fin 16) (u : Fin 1), V c main_arg7 (ix2 j u) = ((d.Wf2 j u : ℝ) : EReal))
    (hbf2 : ∀ u : Fin 1, V c main_arg8 (ix1 u) = ((d.bf2 u : ℝ) : EReal)) :
    ∀ g : Fin 512, (dat1 (F := Ideal) V c).arrAt 8 cfg1.N (ix2 g (0 : Fin 1)) = ((Cert.Model.kOut d g : ℝ) : EReal) :=
  region1_value_named V c d h40 h17 h41 hb2 hWf1 hbf1 hWf2 hbf2

end Cert.KernelIdeal.Hand

end
-- ==== Proof.KIChain.lean ====
/-
  The kernel program's result as the model's: stage by stage, each array between the launch and the result is the
  coercion of the model's real array — the raw width-4 aggregate, the node-transform region's output, the raw width-16
  aggregate, and the pooled and transformed result.
-/
import proofs.«400391_j66829691126192_3_alg».proof.Proof.KIRun
import proofs.«400391_j66829691126192_3_alg».proof.Proof.KIData
import proofs.«400391_j66829691126192_3_alg».proof.Proof.KIHost
import proofs.«400391_j66829691126192_3_alg».proof.Proof.KIValue0
import proofs.«400391_j66829691126192_3_alg».proof.Proof.KIValue1
import proofs.«400391_j66829691126192_3_alg».proof.Proof.Lift

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The node-transform region's output, entry by entry, is the model's scaled second-layer transform. -/
theorem o4_real (h : RealArgs m c) (n : Fin 150000) (j : Fin 16) :
    o4 m c (ix2 n j) = ((Cert.Model.kP2 (dataOf m c) n j : ℝ) : EReal) := by
  show (dat0 (F := Ideal) (E3 m) c).arrAt 5 cfg0.N (ix2 n j) = _
  rw [region0_value]
  unfold P2E
  simp only [v29_apply m c h, v17_apply m c, h.hdis, E3_arg1 m c, E3_arg2 m c, E3_arg3 m c, h.hW1, h.hb1, h.hW2,
    Cert.Lift.coe_mul', Cert.Lift.coe_sum_univ, Cert.Lift.coe_add', Cert.Lift.coe_max_zero]
  rfl

/-- The pooling region's result, entry by entry, is the model's. -/
theorem o6_real (h : RealArgs m c) (g : Fin 512) :
    o6 m c (ix2 g (0 : Fin 1)) = ((Cert.Model.kOut (dataOf m c) g : ℝ) : EReal) := by
  show (dat1 (F := Ideal) (E5 m) c).arrAt 8 cfg1.N (ix2 g (0 : Fin 1)) = _
  refine region1_value (E5 m) c (dataOf m c) (fun n j => v40_apply m c (o4_real m c h) n j) (fun n => ?_) (fun g n => ?_)
    (fun j => ?_) (fun k j => ?_) (fun j => ?_) (fun j u => ?_) (fun u => ?_) g
  · rw [v17_E5 m c, v17_apply m c, h.hdis]
  · rw [v41_apply m c]
    show n ∈ Finset.univ.filter _ ↔ _
    rw [Finset.mem_filter]; exact ⟨fun hh => hh.2, fun hh => ⟨Finset.mem_univ _, hh⟩⟩
  · rw [E5_arg4 m c]; exact h.hb2 j
  · rw [E5_arg5 m c]; exact h.hWf1 k j
  · rw [E5_arg6 m c]; exact h.hbf1 j
  · rw [E5_arg7 m c]; exact h.hWf2 j u
  · rw [E5_arg8 m c]; exact h.hbf2 u

end Cert.KernelIdeal.Hand

end
-- ==== Proof.RefImports.lean ====
/-
  The reference's run and its stages read one at a time are brought in here, so that the modules reading the
  reference's result build on one import.
-/
import proofs.«400391_j66829691126192_3_alg».proof.Proof.RefRun
import proofs.«400391_j66829691126192_3_alg».proof.Proof.RefRead
-- ==== Proof.Bridge.lean ====
/-
  The two programs compute their index columns and the inverse square roots of the degrees by the same host operations
  on the edge list: the columns the kernel's program holds when its first region is entered are the reference's.
-/
import proofs.«400391_j66829691126192_3_alg».proof.Proof.KIData
import proofs.«400391_j66829691126192_3_alg».proof.Proof.RefImports
import Idealize.ShloMosaic.Lib.StableHlo.Run

noncomputable section

namespace Cert.KernelIdeal.Hand

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Read (val_main_v3 val_main_v6 val_main_v12 val_main_v15 val_main_cst_3 val_main_v16 val_main_v38 val_main_v44)

/-! ## Each host stretch over any contents it is run from -/

section Stretch
variable (W : Valuation τ sig (Elt Ideal))

/-- The source words, self loops appended. -/
theorem v3_of : StableHlo.after (hostOps0 (F := Ideal)) W (Proc.devRef .tc main_v3) = val_main_v3 (F := Ideal) (W (Proc.devRef .tc main_arg9)) := by
  after_results; rfl

/-- The destination words, self loops appended. -/
theorem v6_of : StableHlo.after (hostOps0 (F := Ideal)) W (Proc.devRef .tc main_v6) = val_main_v6 (F := Ideal) (W (Proc.devRef .tc main_arg9)) := by
  after_results; rfl

/-- Which degrees are positive. -/
theorem v12_of : StableHlo.after (hostOps0 (F := Ideal)) W (Proc.devRef .tc main_v12) = val_main_v12 (F := Ideal) (W (Proc.devRef .tc main_arg9)) := by
  after_results; rfl

/-- The reciprocal square roots of the degrees kept away from zero. -/
theorem v15_of : StableHlo.after (hostOps0 (F := Ideal)) W (Proc.devRef .tc main_v15) = val_main_v15 (F := Ideal) (W (Proc.devRef .tc main_arg9)) := by
  after_results; rfl

theorem cst3_of : StableHlo.after (hostOps0 (F := Ideal)) W (Proc.devRef .tc main_cst_3) = val_main_cst_3 (F := Ideal) := by
  after_results; rfl

set_option maxRecDepth 65536 in
/-- The inverse square roots: the reciprocal square root where the degree is positive, zero elsewhere. -/
theorem v16_of (x9 : (⟨S2x4800000, .i32⟩ : BufTy).Contents (Elt Ideal))
    (h12 : W (Proc.devRef .tc main_v12) = val_main_v12 (F := Ideal) x9) (h15 : W (Proc.devRef .tc main_v15) = val_main_v15 (F := Ideal) x9)
    (hc : W (Proc.devRef .tc main_cst_3) = val_main_cst_3 (F := Ideal)) :
    StableHlo.after (hostOps0_1 (F := Ideal)) W (Proc.devRef .tc main_v16) = val_main_v16 (F := Ideal) x9 := by
  after_results
  unfold Cert.ReferenceIdeal.Read.val_main_v16 Cert.ReferenceIdeal.Read.val_main_call0_v1 Cert.ReferenceIdeal.Read.val_main_call0_v0
  rw [← h12, ← h15, ← hc]
  rfl

/-- The source column, negative words wrapped. -/
theorem v25_of (x9 : (⟨S2x4800000, .i32⟩ : BufTy).Contents (Elt Ideal)) (h3 : W (Proc.devRef .tc main_v3) = val_main_v3 (F := Ideal) x9) :
    StableHlo.after (hostOps0_2 (F := Ideal)) W (Proc.devRef .tc main_v25) = val_main_v38 (F := Ideal) x9 := by
  after_results
  rw [h3]
  rfl

/-- The destination column. -/
theorem v28_of (x9 : (⟨S2x4800000, .i32⟩ : BufTy).Contents (Elt Ideal)) (h6 : W (Proc.devRef .tc main_v6) = val_main_v6 (F := Ideal) x9) :
    StableHlo.after (hostOps0_2 (F := Ideal)) W (Proc.devRef .tc main_v28) = val_main_v44 (F := Ideal) x9 := by
  after_results
  rw [h6]
  rfl

end Stretch

/-! ## At the launch memory -/

variable (m : (ℓ : Loc nD τ sig) → Buf (Elt Ideal) ℓ) (c : Dev nD)

theorem dstCol_ref : dstCol m c = val_main_v44 (F := Ideal) (m ((c.tc : Thread nD τ).loc main_arg9)) :=
  v28_of (Gen.V2 m c) _ ((Gen.V2_of m c main_v6 (by decide)).trans (v6_of (Gen.V0 m c)))

theorem srcCol_ref : srcCol m c = val_main_v38 (F := Ideal) (m ((c.tc : Thread nD τ).loc main_arg9)) :=
  v25_of (Gen.V2 m c) _ ((Gen.V2_of m c main_v3 (by decide)).trans (v3_of (Gen.V0 m c)))

theorem disArr_ref : disArr m c = val_main_v16 (F := Ideal) (m ((c.tc : Thread nD τ).loc main_arg9)) :=
  (Gen.V3_of m c main_v16 (by decide)).trans
    (v16_of (Gen.V1 m c) _ (v12_of (Gen.V0 m c)) (v15_of (Gen.V0 m c)) (cst3_of (Gen.V0 m c)))

end Cert.KernelIdeal.Hand

end
-- ==== Proof.RefLayer1.lean ====
/-
  The reference's first convolution layer, read at an index.

  The reference forms `x @ W1`, gathers its rows at the source of every edge, scales edge `e` by
  `dis[src e] * dis[dst e]` (two gathers of the flat table of inverse square roots of the degrees), adds the scaled rows
  of the edges landing on node `n` onto row `n` of a zero table, adds the bias and applies the activation:

      out[n, j] = max ((Σ_{e : dst e = n} (Σ_k x[src e, k] · W1[k, j]) · (dis[src e] · dis[dst e])) + b1[j]) 0.

  The columns the gathers read are WRAPPED (`i < 0 ? i + 150000 : i`) and then clamped by the gather; the column the
  accumulation reads is the raw one.  On an edge that lands on node `n` the raw destination word is `n` itself, so
  its wrap is the same word and the clamp gives `n`: the destination factor is `dis[n]` on the whole range of the sum.

  First come three general facts (a flat gather read at an index; the wrap of a row number; the clamp of a row
  number), then the stages one at a time, then the layer.
-/
import proofs.«400391_j66829691126192_3_alg».proof.Proof.RefImports
import proofs.«400391_j66829691126192_3_alg».proof.Proof.Model
import proofs.«400391_j66829691126192_3_alg».proof.Proof.LibGatherRows
import proofs.«400391_j66829691126192_3_alg».proof.Proof.LibScatterRows
import proofs.«400391_j66829691126192_3_alg».proof.Proof.Lift
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Read Idealize.ShloMosaic Idealize.ShloMosaic.ValueIdx

/-! ## A flat gather read at an index -/

/-- Gather of single elements of a flat table: table `[N]`, indices `[E, 1]`, result `[E]`. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the index word `idx[e, 0]`, read signed and clamped into
    `[0, N - 1]`. -/
theorem gather_flat_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 (RowGather.clampRow N hN (idx (ix2 e (0 : Fin 1))))) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather of the table of 150000 inverse square roots by a column of 4950000 index words, as the reference
    spells it, read at edge `e`. -/
theorem gather_dis_apply {α : Type} (x : S150000.Idx → α) (idx : IVec S4950000x1 32) (e : Fin 4950000) :
    Host.gather gather_S150000_S4950000x1_S4950000_n_0_n_n_0_1_1 x idx (ix1 e)
      = x (ix1 (RowGather.clampRow 150000 (by decide) (idx (ix2 e (0 : Fin 1))))) :=
  gather_flat_apply (by decide) Gen.gather_S150000_S4950000x1_S4950000_n_0_n_n_0_1_1_wf x idx e

/-! ## The wrap and the clamp of a row number -/

/-- The index wrap `i < 0 ? i + 150000 : i` leaves a non-negative word as it is. -/
theorem wrap_of_nonneg (i : BitVec 32) (h : 0 ≤ i.toInt) :
    Scalar.select (IntOp.cmpi .slt i 0#32) (IntOp.addi i 150000#32) i = i := by
  have h0 : (0#32 : BitVec 32).toInt = 0 := by decide
  have hs : i.slt 0#32 = false := by
    rw [BitVec.slt_eq_decide, h0]; exact decide_eq_false (by omega)
  show (if BitVec.ofBool (i.slt 0#32) = 1 then i + 150000#32 else i) = _
  rw [hs]; rfl

/-- A word that reads, signed, as the row number `n` is clamped to `n`. -/
theorem clampRow_of_toInt {N : Nat} (hN : 0 < N) {w : Nat} (i : BitVec w) (n : Fin N)
    (h : i.toInt = (n.val : Int)) : RowGather.clampRow N hN i = n := by
  refine Fin.ext ?_
  show min i.toInt.toNat (N - 1) = n.val
  rw [h]
  have := n.isLt
  simp only [Int.toNat_natCast]
  omega

/-- On an edge whose RAW destination word reads as the node `n`, the WRAPPED destination word is clamped to `n`. -/
theorem wrapped_dst_row (x9 : (⟨S2x4800000, .i32⟩ : BufTy).Contents (Elt Ideal)) (e : Fin 4950000) (n : Fin 150000)
    (h : (val_main_v44 (F := Ideal) x9 (ix2 e (0 : Fin 1))).toInt = (n.val : Int)) :
    RowGather.clampRow 150000 (by decide) (val_main_v30 (F := Ideal) x9 (ix2 e (0 : Fin 1))) = n := by
  rw [val_main_v44_apply] at h
  rw [val_main_v30_apply, val_main_v29_apply, val_main_v26_apply, val_main_v28_apply, val_main_v25_apply,
    val_main_c_5_apply, val_main_v27_apply, val_main_c_6_apply]
  have hi : idx_main_v30 (ix2 e (0 : Fin 1)) = idx_main_v44 (ix2 e (0 : Fin 1)) := rfl
  rw [hi]
  generalize val_main_v6 (F := Ideal) x9 (idx_main_v44 (ix2 e (0 : Fin 1))) = wd at h ⊢
  rw [wrap_of_nonneg wd (by omega)]
  exact clampRow_of_toInt _ wd n h

/-! ## The index columns of the later stages are the same columns -/

/-- The wrapped source column is formed four times and the wrapped destination column and the raw destination column
    twice each, every time by the same operations on the same edge list. -/
theorem cols_eq (x9 : (⟨S2x4800000, .i32⟩ : BufTy).Contents (Elt Ideal)) :
    val_main_v56 (F := Ideal) x9 = val_main_v23 (F := Ideal) x9 ∧
    val_main_v71 (F := Ideal) x9 = val_main_v38 (F := Ideal) x9 ∧
    val_main_v23 (F := Ideal) x9 = val_main_v38 (F := Ideal) x9 ∧
    val_main_v63 (F := Ideal) x9 = val_main_v30 (F := Ideal) x9 ∧
    val_main_v77 (F := Ideal) x9 = val_main_v44 (F := Ideal) x9 :=
  ⟨rfl, rfl, rfl, rfl, rfl⟩

/-! ## The stages of the first layer, one at a time -/

section Stages

variable (x0 : (⟨S150000x4, .f32⟩ : BufTy).Contents (Elt Ideal)) (x1 : (⟨S4x16, .f32⟩ : BufTy).Contents (Elt Ideal))
  (x2 : (⟨S16, .f32⟩ : BufTy).Contents (Elt Ideal)) (x9 : (⟨S2x4800000, .i32⟩ : BufTy).Contents (Elt Ideal))
  (d : Cert.Model.Data)

/-- The inverse square root gathered at the source of edge `e`. -/
theorem dis_src_read (e : Fin 4950000) :
    val_main_v24 (F := Ideal) x9 (ix1 e)
      = val_main_v16 (F := Ideal) x9
          (ix1 (RowGather.clampRow 150000 (by decide) (val_main_v23 (F := Ideal) x9 (ix2 e (0 : Fin 1))))) := by
  unfold val_main_v24
  generalize val_main_v16 (F := Ideal) x9 = t
  generalize val_main_v23 (F := Ideal) x9 = c
  exact gather_dis_apply t c e

/-- The inverse square root gathered at the destination of edge `e`. -/
theorem dis_dst_read (e : Fin 4950000) :
    val_main_v31 (F := Ideal) x9 (ix1 e)
      = val_main_v16 (F := Ideal) x9
          (ix1 (RowGather.clampRow 150000 (by decide) (val_main_v30 (F := Ideal) x9 (ix2 e (0 : Fin 1))))) := by
  unfold val_main_v31
  generalize val_main_v16 (F := Ideal) x9 = t
  generalize val_main_v30 (F := Ideal) x9 = c
  exact gather_dis_apply t c e

/-- The edge's scale, broadcast along the row: the product of the two gathered inverse square roots. -/
theorem edge_scale_read (e : Fin 4950000) (j : Fin 16) :
    val_main_v41 (F := Ideal) x9 (ix2 e j)
      = val_main_v24 (F := Ideal) x9 (ix1 e) * val_main_v31 (F := Ideal) x9 (ix1 e) := by
  rw [val_main_v41_apply, val_main_v40_apply]
  have hi : idx_main_v40 (idx_main_v41 (ix2 e j)) = ix1 e := by
    funext a; match a with | ⟨0, _⟩ => rfl
  rw [hi, val_main_v32_apply]
  generalize val_main_v24 (F := Ideal) x9 (ix1 e) = a
  generalize val_main_v31 (F := Ideal) x9 (ix1 e) = b
  rfl

/-- The rows of `x @ W1` gathered at the source of edge `e`. -/
theorem xw_src_read (e : Fin 4950000) (j : Fin 16) :
    val_main_v39 (F := Ideal) x0 x1 x9 (ix2 e j)
      = val_main_v17 (F := Ideal) x0 x1
          (ix2 (RowGather.clampRow 150000 (by decide) (val_main_v38 (F := Ideal) x9 (ix2 e (0 : Fin 1)))) j) := by
  unfold val_main_v39
  generalize val_main_v17 (F := Ideal) x0 x1 = t
  generalize val_main_v38 (F := Ideal) x9 = c
  exact RowGather.gather_rows_apply (by decide) Gen.gather_S150000x16_S4950000x1_S4950000x16_1_0_n_n_0_1_116_wf t c e j

/-- The accumulation of the `[4950000, 16]` updates by a column of row numbers onto a `[150000, 16]` table, as the reference
    spells it, read at `(n, j)`: the table's element plus the updates of the rows whose number is `n`. -/
theorem scatter_rows_read (z : FVec Ideal S150000x16 .f32) (c : IVec S4950000x1 32) (u : FVec Ideal S4950000x16 .f32)
    (n : Fin 150000) (j : Fin 16) :
    Host.scatterAdd scatter_S150000x16_S4950000x1_S4950000x16_1_0_0_1 z c u (ix2 n j)
      = z (ix2 n j) + ∑ e ∈ SegSum.rowsOf c n, u (ix2 e j) := by
  have hd : scatter_S150000x16_S4950000x1_S4950000x16_1_0_0_1
      = SegSum.rowsDims 150000 4950000 16 Gen.scatter_S150000x16_S4950000x1_S4950000x16_1_0_0_1_wf := rfl
  unfold Host.scatterAdd
  rw [Ideal.hostScatterAdd_def, hd]
  exact SegSum.hostScatterAdd_rows_apply Gen.scatter_S150000x16_S4950000x1_S4950000x16_1_0_0_1_wf z c u n j

/-- The accumulation over the edges landing on node `n`, onto a zero table. -/
theorem seg_sum_read (n : Fin 150000) (j : Fin 16) :
    val_main_v45 (F := Ideal) x0 x1 x9 (ix2 n j)
      = ∑ e ∈ SegSum.rowsOf (val_main_v44 (F := Ideal) x9) n, val_main_v42 (F := Ideal) x0 x1 x9 (ix2 e j) := by
  have hz : val_main_v43 (F := Ideal) (ix2 n j) = 0 := by
    rw [val_main_v43_apply, val_main_cst_9_apply, Ideal.ofBits_def]
    exact Ideal.ofBits_zero_f32
  unfold val_main_v45
  rw [scatter_rows_read, hz, zero_add]

/-- The bias, broadcast over the rows. -/
theorem bias_read (n : Fin 150000) (j : Fin 16) : val_main_v47 (F := Ideal) x2 (ix2 n j) = x2 (ix1 j) := by
  rw [val_main_v47_apply, val_main_v46_apply]
  congr 1
  funext a; match a with | ⟨0, _⟩ => rfl

/-- The activation's zero. -/
theorem relu_zero_read (i : S150000x16.Idx) : val_main_call1_v0 (F := Ideal) i = 0 := by
  rw [val_main_call1_v0_apply, val_main_call1_cst_apply, Ideal.ofBits_def]
  exact Ideal.ofBits_zero_f32

/-- The layer's result at `(n, j)` from the accumulated rows and the bias. -/
theorem layer_read (n : Fin 150000) (j : Fin 16) :
    val_main_v49 (F := Ideal) x0 x1 x2 x9 (ix2 n j)
      = max ((∑ e ∈ SegSum.rowsOf (val_main_v44 (F := Ideal) x9) n, val_main_v42 (F := Ideal) x0 x1 x9 (ix2 e j))
          + x2 (ix1 j)) 0 := by
  rw [val_main_v49_apply, val_main_v48_apply, relu_zero_read, seg_sum_read, bias_read, Ideal.maximumf_def, Ideal.addf_def]

/-- `x @ W1` at `(m, j)` is the real product's entry. -/
theorem xw_real (hx : ∀ n k, x0 (ix2 n k) = ((d.x n k : ℝ) : EReal))
    (hW1 : ∀ i k, x1 (ix2 i k) = ((d.W1 i k : ℝ) : EReal)) (m : Fin 150000) (j : Fin 16) :
    val_main_v17 (F := Ideal) x0 x1 (ix2 m j) = ((Cert.Model.rXW1 d m j : ℝ) : EReal) := by
  rw [val_main_v17_apply]
  unfold Cert.Model.rXW1
  rw [← Cert.Lift.coe_sum_univ]
  refine Finset.sum_congr rfl fun k _ => ?_
  have hl : lidx_main_v17 (ix2 m j) k = ix2 m k := by
    funext a; match a with | ⟨0, _⟩ => rfl | ⟨1, _⟩ => rfl
  have hr : ridx_main_v17 (ix2 m j) k = ix2 k j := by
    funext a; match a with | ⟨0, _⟩ => rfl | ⟨1, _⟩ => rfl
  rw [hl, hr, hx, hW1]
  exact (EReal.coe_mul _ _).symm

/-- The scaled row of an edge landing on node `n`: the source and the destination factor are the real inverse square
    roots at `s e` and at `n`. -/
theorem edge_row_real (hx : ∀ n k, x0 (ix2 n k) = ((d.x n k : ℝ) : EReal))
    (hW1 : ∀ i k, x1 (ix2 i k) = ((d.W1 i k : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (n : Fin 150000) (e : Fin 4950000) (he : e ∈ SegSum.rowsOf (val_main_v44 (F := Ideal) x9) n) (j : Fin 16) :
    val_main_v42 (F := Ideal) x0 x1 x9 (ix2 e j)
      = ((Cert.Model.rXW1 d (d.s e) j * (d.dis (d.s e) * d.dis n) : ℝ) : EReal) := by
  have hraw : (val_main_v44 (F := Ideal) x9 (ix2 e (0 : Fin 1))).toInt = (n.val : Int) := by
    simpa only [SegSum.rowsOf, Finset.mem_filter, Finset.mem_univ, true_and] using he
  rw [val_main_v42_apply, xw_src_read, edge_scale_read, dis_src_read, dis_dst_read, (cols_eq x9).2.2.1, ← hs e,
    wrapped_dst_row x9 e n hraw, xw_real x0 x1 d hx hW1, hdis, hdis, Ideal.mulf_def,
    ← EReal.coe_mul, ← EReal.coe_mul]

end Stages

/-! ## The layer over real data -/

/-- THE FIRST LAYER: the reference's activated first convolution at `(n, j)` is the real layer's entry. -/
theorem ref_layer1 (x0 : (⟨S150000x4, .f32⟩ : BufTy).Contents (Elt Ideal)) (x1 : (⟨S4x16, .f32⟩ : BufTy).Contents (Elt Ideal))
    (x2 : (⟨S16, .f32⟩ : BufTy).Contents (Elt Ideal)) (x9 : (⟨S2x4800000, .i32⟩ : BufTy).Contents (Elt Ideal))
    (d : Cert.Model.Data)
    (hx : ∀ n k, x0 (ix2 n k) = ((d.x n k : ℝ) : EReal)) (hW1 : ∀ i k, x1 (ix2 i k) = ((d.W1 i k : ℝ) : EReal))
    (hb1 : ∀ k, x2 (ix1 k) = ((d.b1 k : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n) :
    ∀ (n : Fin 150000) (j : Fin 16),
      val_main_v49 (F := Ideal) x0 x1 x2 x9 (ix2 n j) = ((Cert.Model.rH1 d n j : ℝ) : EReal) := by
  intro n j
  rw [layer_read, hb1,
    Finset.sum_congr rfl (fun e he => edge_row_real x0 x1 x9 d hx hW1 hdis hs n e he j),
    Cert.Lift.coe_sum, ← EReal.coe_add, Cert.Lift.coe_max_zero]
  unfold Cert.Model.rH1
  rw [hD n]

end Cert.RefSide

end
-- ==== Proof.RefLayer2.lean ====
/-
  The reference from its first layer's activations to its result.

  With the first layer's activations `h` given as reals, the second convolution forms `t = h · W2`, scales the row
  `t[s e]` of every edge `e` by `dis (s e) · dis (dst e)`, sums the scaled rows over the edges landing on each node,
  adds `b2` and clamps at zero.  The rows of each graph are then summed, and two dense layers give one number per
  graph.  Read element by element this is the arrangement `rXW2, rH2, rPool, rOut` of the model: every value met is a
  finite real, so a sum, product or maximum of embedded reals is the embedded sum, product or maximum.

  The index columns the second layer gathers and scatters with are those of the first layer, computed again.  On an
  edge landing on node `n` (its destination word, read signed, is `n`) the wrapped destination word is the word itself,
  so the destination's inverse square root of the degree is that of `n`.
-/
import proofs.«400391_j66829691126192_3_alg».proof.Proof.RefImports
import proofs.«400391_j66829691126192_3_alg».proof.Proof.Model
import proofs.«400391_j66829691126192_3_alg».proof.Proof.LibGatherRows
import proofs.«400391_j66829691126192_3_alg».proof.Proof.LibScatterRows
import proofs.«400391_j66829691126192_3_alg».proof.Proof.Lift
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Read Idealize.ShloMosaic Idealize.ShloMosaic.ValueIdx

/-! ## General facts: a flat table read through an index column, the index wrap, the accumulating row scatter -/

namespace Rest

/-! ## Reading one element of a flat table through an index column -/

/-- The dimension numbers of an element gather: table `[N]`, index column `[E, 1]`, result `[E]`. -/
abbrev elemDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered array is the table at the row that index word `e` names. -/
theorem gather_elem_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemDims N E wf) x idx (ix1 e)
      = x (ix1 (RowGather.clampRow N hN (idx (ix2 e (0 : Fin 1))))) := by
  unfold Host.gather
  congr 1
  funext a
  obtain rfl : a = 0 := Subsingleton.elim _ _
  refine Fin.ext ?_
  show (elemDims N E wf).start (ix1 e) idx 0 + (elemDims N E wf).batchCoord (ix1 e) 0
    + (elemDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N E wf).startIndexMap from List.mem_singleton.mpr rfl)]
  have hsi : (elemDims N E wf).siIdx (ix1 e) ⟨List.idxOf (0 : Fin 1) (elemDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The wrapped index of a row number -/

private theorem toInt_zero32 : (0#32 : BitVec 32).toInt = 0 := by decide

/-- A word that is non-negative as a signed integer is its own wrap `i < 0 ? i + 150000 : i`. -/
theorem wrap_of_nonneg (i : BitVec 32) (h : 0 ≤ i.toInt) :
    Scalar.select (IntOp.cmpi .slt i 0#32) (IntOp.addi i 150000#32) i = i := by
  have hs : i.slt 0#32 = false := by
    rw [BitVec.slt_eq_decide, toInt_zero32]; exact decide_eq_false (by omega)
  show (if BitVec.ofBool (i.slt 0#32) = 1 then i + 150000#32 else i) = _
  rw [hs]; rfl

/-- A word whose signed reading is the row number `n` names row `n`. -/
theorem clampRow_of_toInt {N : Nat} (hN : 0 < N) {w : Nat} (i : BitVec w) (n : Fin N)
    (h : i.toInt = (n.val : Int)) : RowGather.clampRow N hN i = n := by
  apply Fin.ext
  show min i.toInt.toNat (N - 1) = n.val
  have := n.isLt
  rw [h]
  simp only [Int.toNat_natCast]
  omega

/-! ## The accumulating row scatter at the exact values -/

/-- Element `(n, j)` of a segment sum of rows: the operand's element plus the updates' column `j` summed over the
    update rows whose index is `n`. -/
theorem scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (j : Fin C) :
    Host.scatterAdd (SegSum.rowsDims N E C wf) x idx upd (ix2 n j)
      = x (ix2 n j) + ∑ e ∈ SegSum.rowsOf idx n, upd (ix2 e j) :=
  SegSum.hostScatterAdd_rows_apply wf x idx upd n j

end Rest

open Rest

/-! ## The index columns of the second layer are those of the first -/

/-- The wrapped source column is computed a second time under a new name. -/
theorem src_col_gather2 (x9 : (⟨S2x4800000, .i32⟩ : BufTy).Contents (Elt Ideal)) :
    val_main_v56 (F := Ideal) x9 = val_main_v38 (F := Ideal) x9 := rfl

/-- … and a third time, for the row gather. -/
theorem src_col_rows2 (x9 : (⟨S2x4800000, .i32⟩ : BufTy).Contents (Elt Ideal)) :
    val_main_v71 (F := Ideal) x9 = val_main_v38 (F := Ideal) x9 := rfl

/-- The raw destination column of the second segment sum is that of the first. -/
theorem dst_col_raw2 (x9 : (⟨S2x4800000, .i32⟩ : BufTy).Contents (Elt Ideal)) :
    val_main_v77 (F := Ideal) x9 = val_main_v44 (F := Ideal) x9 := rfl

/-- On an edge whose raw destination word is non-negative the wrapped destination word is the raw one. -/
theorem wrapped_dst_word2 (x9 : (⟨S2x4800000, .i32⟩ : BufTy).Contents (Elt Ideal)) (e : Fin 4950000)
    (h : 0 ≤ (val_main_v44 (F := Ideal) x9 (ix2 e (0 : Fin 1))).toInt) :
    val_main_v63 (F := Ideal) x9 (ix2 e (0 : Fin 1)) = val_main_v44 (F := Ideal) x9 (ix2 e (0 : Fin 1)) := by
  have hi : idx_main_v63 (ix2 e (0 : Fin 1)) = ix1 e := by
    funext a; match a with | ⟨0, _⟩ => rfl
  have hi' : idx_main_v44 (ix2 e (0 : Fin 1)) = ix1 e := by
    funext a; match a with | ⟨0, _⟩ => rfl
  rw [val_main_v44_apply, hi'] at h ⊢
  rw [val_main_v63_apply, hi, val_main_v62_apply, val_main_v59_apply, val_main_v61_apply, val_main_v58_apply,
    val_main_v60_apply, val_main_c_12_apply, val_main_c_13_apply]
  exact wrap_of_nonneg _ h

/-- On an edge landing on node `n` the wrapped destination word names row `n`. -/
theorem wrapped_dst_row2 (x9 : (⟨S2x4800000, .i32⟩ : BufTy).Contents (Elt Ideal)) (n : Fin 150000) (e : Fin 4950000)
    (he : e ∈ SegSum.rowsOf (val_main_v44 (F := Ideal) x9) n) :
    RowGather.clampRow 150000 (by decide) (val_main_v63 (F := Ideal) x9 (ix2 e (0 : Fin 1))) = n := by
  have h : (val_main_v44 (F := Ideal) x9 (ix2 e (0 : Fin 1))).toInt = (n.val : Int) := (Finset.mem_filter.mp he).2
  rw [wrapped_dst_word2 x9 e (by rw [h]; exact Int.natCast_nonneg _)]
  exact clampRow_of_toInt _ _ n h

/-! ## The second layer, stage by stage -/

section Stages
variable (x0 : (⟨S150000x4, .f32⟩ : BufTy).Contents (Elt Ideal)) (x1 : (⟨S4x16, .f32⟩ : BufTy).Contents (Elt Ideal))
  (x2 : (⟨S16, .f32⟩ : BufTy).Contents (Elt Ideal)) (x3 : (⟨S16x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x1, .f32⟩ : BufTy).Contents (Elt Ideal))
  (x8 : (⟨S1, .f32⟩ : BufTy).Contents (Elt Ideal)) (x9 : (⟨S2x4800000, .i32⟩ : BufTy).Contents (Elt Ideal))
  (x10 : (⟨S150000, .i32⟩ : BufTy).Contents (Elt Ideal)) (d : Cert.Model.Data)

/-- The first layer's activations times the second weight matrix. -/
theorem transform2
    (h49 : ∀ n j, val_main_v49 (F := Ideal) x0 x1 x2 x9 (ix2 n j) = ((Cert.Model.rH1 d n j : ℝ) : EReal))
    (hW2 : ∀ k j, x3 (ix2 k j) = ((d.W2 k j : ℝ) : EReal)) (n : Fin 150000) (j : Fin 16) :
    val_main_v50 (F := Ideal) x0 x1 x2 x3 x9 (ix2 n j) = ((Cert.Model.rXW2 d n j : ℝ) : EReal) := by
  rw [val_main_v50_apply]
  unfold Cert.Model.rXW2
  rw [← Cert.Lift.coe_sum_univ]
  refine Finset.sum_congr rfl fun k _ => ?_
  have hl : lidx_main_v50 (ix2 n j) k = ix2 n k := by
    funext a; match a with | ⟨0, _⟩ => rfl | ⟨1, _⟩ => rfl
  have hr : ridx_main_v50 (ix2 n j) k = ix2 k j := by
    funext a; match a with | ⟨0, _⟩ => rfl | ⟨1, _⟩ => rfl
  rw [hl, hr, h49, hW2, EReal.coe_mul]

/-- The inverse square root of the degree at an edge's source. -/
theorem dis_src2
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (e : Fin 4950000) :
    val_main_v57 (F := Ideal) x9 (ix1 e) = ((d.dis (d.s e) : ℝ) : EReal) := by
  unfold val_main_v57
  rw [src_col_gather2]
  have hG : gather_S150000_S4950000x1_S4950000_n_0_n_n_0_1_1
      = elemDims 150000 4950000 Gen.gather_S150000_S4950000x1_S4950000_n_0_n_n_0_1_1_wf := rfl
  rw [hG, gather_elem_apply (by decide), ← hs, hdis]

/-- The inverse square root of the degree at an edge's destination, for an edge landing on `n`. -/
theorem dis_dst2
    (hdis : ∀ n, val_main_v16 (F := Ideal) x9 (ix1 n) = ((d.dis n : ℝ) : EReal))
    (n : Fin 150000) (e : Fin 4950000) (he : e ∈ SegSum.rowsOf (val_main_v44 (F := Ideal) x9) n) :
    val_main_v64 (F := Ideal) x9 (ix1 e) = ((d.dis n : ℝ) : EReal) := by
  unfold val_main_v64
  have hG : gather_S150000_S4950000x1_S4950000_n_0_n_n_0_1_1
      = elemDims 150000 4950000 Gen.gather_S150000_S4950000x1_S4950000_n_0_n_n_0_1_1_wf := rfl
  rw [hG, gather_elem_apply (by decide), wrapped_dst_row2 x9 n e he, hdis]

/-- The symmetric normalisation of an edge landing on `n`. -/
theorem norm2
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (n : Fin 150000) (e : Fin 4950000) (he : e ∈ SegSum.rowsOf (val_main_v44 (F := Ideal) x9) n) :
    val_main_v65 (F := Ideal) x9 (ix1 e) = ((d.dis (d.s e) * d.dis n : ℝ) : EReal) := by
  rw [val_main_v65_apply, Ideal.mulf_def, dis_src2 x9 d hdis hs, dis_dst2 x9 d hdis n e he, ← EReal.coe_mul]

/-- The transformed row of an edge's source. -/
theorem rows2
    (h49 : ∀ n j, val_main_v49 (F := Ideal) x0 x1 x2 x9 (ix2 n j) = ((Cert.Model.rH1 d n j : ℝ) : EReal))
    (hW2 : ∀ k j, x3 (ix2 k j) = ((d.W2 k j : ℝ) : EReal))
    (hs : ∀ e, d.s e = RowGather.clampRow 150000 (by decide) (val_main_v38 (F := Ideal) x9 (ix2 e (0 : Fin 1))))
    (e : Fin 4950000) (j : Fin 16) :
    val_main_v72 (F := Ideal) x0 x1 x2 x3 x9 (ix2 e j) = ((Cert.Model.rXW2 d (d.s e) j : ℝ) : EReal) := by
  unfold val_main_v72
  rw [src_col_rows2]
  have hG : gather_S150000x16_S4950000x1_S4950000x16_1_0_n_n_0_1_116
      = RowGather.rowDims 150000 16 4950000 Gen.gather_S150000x16_S4950000x1_S4950000x16_1_0_n_n_0_1_116_wf := rfl
  rw [hG, RowGather.gather_rows_apply (by decide), ← hs]
  exact transform2 x0 x1 x2 x3 x9 d h49 hW2 _ _

/-- The normalisation spread along a row is the edge's normalisation. -/
theorem norm_bcast2 (e : Fin 4950000) (j : Fin 16) :
    val_main_v74 (F := Ideal) x9 (ix2 e j) = val_main_v65 (F := Ideal) x9 (ix1 e) := by
  have hi : idx_main_v73 (idx_main_v74 (ix2 e j)) = ix1 e := by
    funext a; match a with | ⟨0, _⟩ => rfl
  rw [val_main_v74_apply, val_main_v73_apply, hi]

/-- The segment sum of the scaled rows over the edges landing on `n`. -/
theorem aggregate2
    (h49 : ∀ n j, val_main_v49 (F := Ideal) x0 x1 x2 x9 (ix2 n j) = ((Cert.Model.rH1 d n j : ℝ) : EReal))
    (hW2 : ∀ k j, x3 (ix2 k j) = ((d.W2 k j : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n)
    (n : Fin 150000) (j : Fin 16) :
    val_main_v78 (F := Ideal) x0 x1 x2 x3 x9 (ix2 n j)
      = ((∑ e ∈ d.D n, Cert.Model.rXW2 d (d.s e) j * (d.dis (d.s e) * d.dis n) : ℝ) : EReal) := by
  have hupd : ∀ e ∈ d.D n, val_main_v75 (F := Ideal) x0 x1 x2 x3 x9 (ix2 e j)
      = ((Cert.Model.rXW2 d (d.s e) j * (d.dis (d.s e) * d.dis n) : ℝ) : EReal) := by
    intro e he
    rw [val_main_v75_apply, Ideal.mulf_def, rows2 x0 x1 x2 x3 x9 d h49 hW2 hs, norm_bcast2,
      norm2 x9 d hdis hs n e (by rw [← hD]; exact he), ← EReal.coe_mul]
  have h0 : val_main_v76 (F := Ideal) (ix2 n j) = 0 := by
    rw [val_main_v76_apply, val_main_cst_16_apply, Ideal.ofBits_def, Ideal.ofBits_zero_f32]
  have hrows : SegSum.rowsOf (val_main_v77 (F := Ideal) x9) n = d.D n := by
    rw [dst_col_raw2]; exact (hD n).symm
  have hS : scatter_S150000x16_S4950000x1_S4950000x16_1_0_0_1
      = SegSum.rowsDims 150000 4950000 16 Gen.scatter_S150000x16_S4950000x1_S4950000x16_1_0_0_1_wf := rfl
  unfold val_main_v78
  generalize val_main_v75 (F := Ideal) x0 x1 x2 x3 x9 = upd at hupd ⊢
  generalize val_main_v76 (F := Ideal) = z at h0 ⊢
  generalize val_main_v77 (F := Ideal) x9 = col at hrows ⊢
  rw [hS, scatterAdd_rows_apply, h0, hrows, zero_add, ← Cert.Lift.coe_sum]
  exact Finset.sum_congr rfl hupd

end Stages

section Rest2
variable (x0 : (⟨S150000x4, .f32⟩ : BufTy).Contents (Elt Ideal)) (x1 : (⟨S4x16, .f32⟩ : BufTy).Contents (Elt Ideal))
  (x2 : (⟨S16, .f32⟩ : BufTy).Contents (Elt Ideal)) (x3 : (⟨S16x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x1, .f32⟩ : BufTy).Contents (Elt Ideal))
  (x8 : (⟨S1, .f32⟩ : BufTy).Contents (Elt Ideal)) (x9 : (⟨S2x4800000, .i32⟩ : BufTy).Contents (Elt Ideal))
  (x10 : (⟨S150000, .i32⟩ : BufTy).Contents (Elt Ideal)) (d : Cert.Model.Data)

/-- The second layer after its bias and activation. -/
theorem layer2
    (h49 : ∀ n j, val_main_v49 (F := Ideal) x0 x1 x2 x9 (ix2 n j) = ((Cert.Model.rH1 d n j : ℝ) : EReal))
    (hW2 : ∀ k j, x3 (ix2 k j) = ((d.W2 k j : ℝ) : EReal)) (hb2 : ∀ j, x4 (ix1 j) = ((d.b2 j : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n)
    (n : Fin 150000) (j : Fin 16) :
    val_main_v82 (F := Ideal) x0 x1 x2 x3 x4 x9 (ix2 n j) = ((Cert.Model.rH2 d n j : ℝ) : EReal) := by
  have hi : idx_main_v79 (idx_main_v80 (ix2 n j)) = ix1 j := by
    funext a; match a with | ⟨0, _⟩ => rfl
  unfold Cert.Model.rH2
  rw [val_main_v82_apply, Ideal.maximumf_def, val_main_v81_apply, Ideal.addf_def,
    aggregate2 x0 x1 x2 x3 x9 d h49 hW2 hdis hs hD, val_main_v80_apply, val_main_v79_apply, hi, hb2,
    val_main_call2_v0_apply, val_main_call2_cst_apply, Ideal.ofBits_def, Ideal.ofBits_zero_f32,
    ← EReal.coe_add, Cert.Lift.coe_max_zero]

/-- The nodes whose graph word is `g` are the graph's nodes. -/
theorem pool_rows
    (hB : ∀ g, d.B g = Finset.univ.filter fun n : Fin 150000 => (x10 (ix1 n)).toInt = (g.val : Int))
    (g : Fin 512) : SegSum.rowsOf (val_main_v84 (F := Ideal) x10) g = d.B g := by
  rw [hB]
  unfold SegSum.rowsOf
  refine Finset.filter_congr fun n _ => ?_
  have hi : idx_main_v84 (ix2 n (0 : Fin 1)) = ix1 n := by
    funext a; match a with | ⟨0, _⟩ => rfl
  rw [val_main_v84_apply, hi]

/-- The rows of each graph summed. -/
theorem pool2
    (h49 : ∀ n j, val_main_v49 (F := Ideal) x0 x1 x2 x9 (ix2 n j) = ((Cert.Model.rH1 d n j : ℝ) : EReal))
    (hW2 : ∀ k j, x3 (ix2 k j) = ((d.W2 k j : ℝ) : EReal)) (hb2 : ∀ j, x4 (ix1 j) = ((d.b2 j : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n)
    (hB : ∀ g, d.B g = Finset.univ.filter fun n : Fin 150000 => (x10 (ix1 n)).toInt = (g.val : Int))
    (g : Fin 512) (j : Fin 16) :
    val_main_v85 (F := Ideal) x0 x1 x2 x3 x4 x9 x10 (ix2 g j) = ((Cert.Model.rPool d g j : ℝ) : EReal) := by
  have hupd : ∀ n, val_main_v82 (F := Ideal) x0 x1 x2 x3 x4 x9 (ix2 n j) = ((Cert.Model.rH2 d n j : ℝ) : EReal) :=
    fun n => layer2 x0 x1 x2 x3 x4 x9 d h49 hW2 hb2 hdis hs hD n j
  have h0 : val_main_v83 (F := Ideal) (ix2 g j) = 0 := by
    rw [val_main_v83_apply, val_main_cst_17_apply, Ideal.ofBits_def, Ideal.ofBits_zero_f32]
  have hrows : SegSum.rowsOf (val_main_v84 (F := Ideal) x10) g = d.B g := pool_rows x10 d hB g
  have hS : scatter_S512x16_S150000x1_S150000x16_1_0_0_1
      = SegSum.rowsDims 512 150000 16 Gen.scatter_S512x16_S150000x1_S150000x16_1_0_0_1_wf := rfl
  unfold val_main_v85 Cert.Model.rPool
  generalize val_main_v82 (F := Ideal) x0 x1 x2 x3 x4 x9 = upd at hupd ⊢
  generalize val_main_v83 (F := Ideal) = z at h0 ⊢
  generalize val_main_v84 (F := Ideal) x10 = col at hrows ⊢
  rw [hS, scatterAdd_rows_apply, h0, hrows, zero_add, ← Cert.Lift.coe_sum]
  exact Finset.sum_congr rfl fun n _ => hupd n

/-- The head's hidden layer. -/
theorem hidden
    (h49 : ∀ n j, val_main_v49 (F := Ideal) x0 x1 x2 x9 (ix2 n j) = ((Cert.Model.rH1 d n j : ℝ) : EReal))
    (hW2 : ∀ k j, x3 (ix2 k j) = ((d.W2 k j : ℝ) : EReal)) (hb2 : ∀ j, x4 (ix1 j) = ((d.b2 j : ℝ) : EReal))
    (hWf1 : ∀ k j, x5 (ix2 k j) = ((d.Wf1 k j : ℝ) : EReal)) (hbf1 : ∀ j, x6 (ix1 j) = ((d.bf1 j : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n)
    (hB : ∀ g, d.B g = Finset.univ.filter fun n : Fin 150000 => (x10 (ix1 n)).toInt = (g.val : Int))
    (g : Fin 512) (j : Fin 16) :
    val_main_v90 (F := Ideal) x0 x1 x2 x3 x4 x5 x6 x9 x10 (ix2 g j)
      = ((max ((∑ k, Cert.Model.rPool d g k * d.Wf1 k j) + d.bf1 j) 0 : ℝ) : EReal) := by
  have hi : idx_main_v87 (idx_main_v88 (ix2 g j)) = ix1 j := by
    funext a; match a with | ⟨0, _⟩ => rfl
  have hsum : (∑ k : Fin 16, val_main_v85 (F := Ideal) x0 x1 x2 x3 x4 x9 x10 (lidx_main_v86 (ix2 g j) k)
        * x5 (ridx_main_v86 (ix2 g j) k)) = ((∑ k, Cert.Model.rPool d g k * d.Wf1 k j : ℝ) : EReal) := by
    rw [← Cert.Lift.coe_sum_univ]
    refine Finset.sum_congr rfl fun k _ => ?_
    have hl : lidx_main_v86 (ix2 g j) k = ix2 g k := by
      funext a; match a with | ⟨0, _⟩ => rfl | ⟨1, _⟩ => rfl
    have hr : ridx_main_v86 (ix2 g j) k = ix2 k j := by
      funext a; match a with | ⟨0, _⟩ => rfl | ⟨1, _⟩ => rfl
    rw [hl, hr, pool2 x0 x1 x2 x3 x4 x9 x10 d h49 hW2 hb2 hdis hs hD hB, hWf1, EReal.coe_mul]
  rw [val_main_v90_apply, Ideal.maximumf_def, val_main_v89_apply, Ideal.addf_def, val_main_v86_apply, hsum,
    val_main_v88_apply, val_main_v87_apply, hi, hbf1, val_main_call3_v0_apply, val_main_call3_cst_apply,
    Ideal.ofBits_def, Ideal.ofBits_zero_f32, ← EReal.coe_add, Cert.Lift.coe_max_zero]

end Rest2

/-- THE REFERENCE FROM ITS FIRST LAYER'S ACTIVATIONS TO ITS RESULT. -/
theorem ref_rest
    (x0 : (⟨S150000x4, .f32⟩ : BufTy).Contents (Elt Ideal)) (x1 : (⟨S4x16, .f32⟩ : BufTy).Contents (Elt Ideal))
    (x2 : (⟨S16, .f32⟩ : BufTy).Contents (Elt Ideal)) (x3 : (⟨S16x16, .f32⟩ : BufTy).Contents (Elt Ideal))
    (x4 : (⟨S16, .f32⟩ : BufTy).Contents (Elt Ideal)) (x5 : (⟨S16x16, .f32⟩ : BufTy).Contents (Elt Ideal))
    (x6 : (⟨S16, .f32⟩ : BufTy).Contents (Elt Ideal)) (x7 : (⟨S16x1, .f32⟩ : BufTy).Contents (Elt Ideal))
    (x8 : (⟨S1, .f32⟩ : BufTy).Contents (Elt Ideal)) (x9 : (⟨S2x4800000, .i32⟩ : BufTy).Contents (Elt Ideal))
    (x10 : (⟨S150000, .i32⟩ : BufTy).Contents (Elt Ideal)) (d : Cert.Model.Data)
    (h49 : ∀ n j, val_main_v49 (F := Ideal) x0 x1 x2 x9 (ix2 n j) = ((Cert.Model.rH1 d n j : ℝ) : EReal))
    (hW2 : ∀ k j, x3 (ix2 k j) = ((d.W2 k j : ℝ) : EReal)) (hb2 : ∀ j, x4 (ix1 j) = ((d.b2 j : ℝ) : EReal))
    (hWf1 : ∀ k j, x5 (ix2 k j) = ((d.Wf1 k j : ℝ) : EReal)) (hbf1 : ∀ j, x6 (ix1 j) = ((d.bf1 j : ℝ) : EReal))
    (hWf2 : ∀ j u, x7 (ix2 j u) = ((d.Wf2 j u : ℝ) : EReal)) (hbf2 : ∀ u, x8 (ix1 u) = ((d.bf2 u : ℝ) : EReal))
    (hdis : ∀ n, val_main_v16 (F := Ideal) x9 (ix1 n) = ((d.dis n : ℝ) : EReal))
    (hs : ∀ e, d.s e = RowGather.clampRow 150000 (by decide) (val_main_v38 (F := Ideal) x9 (ix2 e (0 : Fin 1))))
    (hD : ∀ n, d.D n = SegSum.rowsOf (val_main_v44 (F := Ideal) x9) n)
    (hB : ∀ g, d.B g = Finset.univ.filter fun n : Fin 150000 => (x10 (ix1 n)).toInt = (g.val : Int)) :
    ∀ g : Fin 512, val_main_v94 (F := Ideal) x0 x1 x2 x3 x4 x5 x6 x7 x8 x9 x10 (ix2 g (0 : Fin 1))
      = ((Cert.Model.rOut d g : ℝ) : EReal) := by
  intro g
  have hi : idx_main_v92 (idx_main_v93 (ix2 g (0 : Fin 1))) = ix1 (0 : Fin 1) := by
    funext a; match a with | ⟨0, _⟩ => rfl
  have hsum : (∑ k : Fin 16, val_main_v90 (F := Ideal) x0 x1 x2 x3 x4 x5 x6 x9 x10 (lidx_main_v91 (ix2 g (0 : Fin 1)) k)
        * x7 (ridx_main_v91 (ix2 g (0 : Fin 1)) k))
      = ((∑ j, max ((∑ k, Cert.Model.rPool d g k * d.Wf1 k j) + d.bf1 j) 0 * d.Wf2 j 0 : ℝ) : EReal) := by
    rw [← Cert.Lift.coe_sum_univ]
    refine Finset.sum_congr rfl fun k _ => ?_
    have hl : lidx_main_v91 (ix2 g (0 : Fin 1)) k = ix2 g k := by
      funext a; match a with | ⟨0, _⟩ => rfl | ⟨1, _⟩ => rfl
    have hr : ridx_main_v91 (ix2 g (0 : Fin 1)) k = ix2 k (0 : Fin 1) := by
      funext a; match a with | ⟨0, _⟩ => rfl | ⟨1, _⟩ => rfl
    rw [hl, hr, hidden x0 x1 x2 x3 x4 x5 x6 x9 x10 d h49 hW2 hb2 hWf1 hbf1 hdis hs hD hB, hWf2, EReal.coe_mul]
  unfold Cert.Model.rOut
  rw [val_main_v94_apply, Ideal.addf_def, val_main_v91_apply, hsum, val_main_v93_apply, val_main_v92_apply, hi, hbf2,
    ← EReal.coe_add]

end Cert.RefSide

end
-- ==== Proof.Finite.lean ====
/-
  From the precondition to "every float entry is a real number".

  The precondition states, for each of the nine float arrays `a`, that `|a i| < +∞` at every index `i`
  (an `and`-reduction over all axes of the elementwise comparison), and conjoins the nine results.
  In the extended reals `|x| = max x (-x)`, and both `⊥` and `⊤` have absolute value `⊤`; so
  `|x| < ⊤` holds exactly when `x` is (the image of) a real number.
-/
import proofs.«400391_j66829691126192_3_alg».proof.Pre_finite_inputs
import Idealize.ShloMosaic.PureOps.Ideal.Laws
import Idealize.ShloMosaic.Lib.ReduceAll
import Idealize.ShloMosaic.Lib.ValueIdx

namespace Cert.Finite

open Idealize.ShloMosaic
open Cert.Pre_finite_inputs

/-- The rank-0 shape has exactly one index. -/
instance : Subsingleton S_.Idx := ⟨fun a b => funext fun d => d.elim0⟩

/-- The pattern `0x7F800000` (zero sign, all-ones exponent, zero fraction) denotes `+∞`. -/
theorem posInf_bits : Ideal.ofBits .f32 0x7F800000#32 = (⊤ : EReal) := by
  simp [Ideal.ofBits, Ideal.ieee]

/-- An extended real whose absolute value `max x (-x)` lies strictly below `⊤` is a real number:
    `⊥` and `⊤` both have absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, at any shape: if the `and`-reduction over all axes of
    `|a i| < +∞` is true, every entry of `a` is a real number. -/
theorem real_of_all_lt_inf {S : Shape} {axes : List (Fin S.rank)} (a : FVec Ideal S .f32)
    (hb : S_.BroadcastsInDim S (![] : Fin 0 → Fin S.rank)) (hr : S.ReducesTo axes S_) (hS : 0 < S_.numel)
    (h : Host.reduce IntOp.andi
          (cmpf .olt (Host.absf a) (broadcastInDim S ![] hb (constant S_ .f32 0x7F800000#32)))
          (constantI S_ 1 1#1) hr hS ValueIdx.ix0 = 1#1) :
    ∀ i, ∃ r : ℝ, a i = (r : EReal) := by
  intro i
  have e := Host.reduce_andi_all _ _ hr hS _ h i
  -- at this index the comparison reads `max (a i) (-(a i)) < +∞`, as a one-bit word
  change Ideal.cmp .olt (max (a i) (-(a i))) (Ideal.ofBits .f32 0x7F800000#32) = 1#1 at e
  rw [posInf_bits] at e
  refine real_of_abs_lt_top (a i) ?_
  by_contra hn
  simp [Ideal.cmp, hn] at e

/-- The elementwise `and` of two arrays of one-bit words is 1 at an index exactly when both are. -/
theorem both_of_and_eq_one {s : Shape} (x y : IVec s 1) (j : s.Idx) (h : andi x y j = 1#1) :
    x j = 1#1 ∧ y j = 1#1 :=
  IntOp.andi_eq_one.1 h

/-- The precondition gives: every entry of each of the nine float arrays is a real number. -/
theorem real_of_pre [Cert.Pre_finite_inputs.Facts] (a0 : FVec Ideal S150000x4 .f32) (a1 : FVec Ideal S4x16 .f32)
    (a2 : FVec Ideal S16 .f32) (a3 : FVec Ideal S16x16 .f32) (a4 : FVec Ideal S16 .f32)
    (a5 : FVec Ideal S16x16 .f32) (a6 : FVec Ideal S16 .f32) (a7 : FVec Ideal S16x1 .f32)
    (a8 : FVec Ideal S1 .f32) (a9 : IVec S2x4800000 32) (a10 : IVec S150000 32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) := by
  have h0 := congrFun h ValueIdx.ix0
  dsimp only [fn, fn_part1, fn_part2] at h0
  -- the nine conjuncts, peeled from the outermost (the last array) inwards
  obtain ⟨h0, h8⟩ := both_of_and_eq_one _ _ _ h0
  obtain ⟨h0, h7⟩ := both_of_and_eq_one _ _ _ h0
  obtain ⟨h0, h6⟩ := both_of_and_eq_one _ _ _ h0
  obtain ⟨h0, h5⟩ := both_of_and_eq_one _ _ _ h0
  obtain ⟨h0, h4⟩ := both_of_and_eq_one _ _ _ h0
  obtain ⟨h0, h3⟩ := both_of_and_eq_one _ _ _ h0
  obtain ⟨h0, h2⟩ := both_of_and_eq_one _ _ _ h0
  obtain ⟨h0, h1⟩ := both_of_and_eq_one _ _ _ h0
  exact ⟨real_of_all_lt_inf a0 _ _ _ h0, real_of_all_lt_inf a1 _ _ _ h1, real_of_all_lt_inf a2 _ _ _ h2,
    real_of_all_lt_inf a3 _ _ _ h3, real_of_all_lt_inf a4 _ _ _ h4, real_of_all_lt_inf a5 _ _ _ h5,
    real_of_all_lt_inf a6 _ _ _ h6, real_of_all_lt_inf a7 _ _ _ h7, real_of_all_lt_inf a8 _ _ _ h8⟩

end Cert.Finite
-- ==== Proof.DisReal.lean ====
/-
  The inverse square root of every degree is a real number.  The degree of node n is a sum of ones over the edges
  landing on n: a natural number.  Where it is zero the program puts zero; where it is positive it takes the reciprocal
  square root of the larger of the degree and a positive constant, a positive real.
-/
import proofs.«400391_j66829691126192_3_alg».proof.Proof.RefImports
import proofs.«400391_j66829691126192_3_alg».proof.Proof.LibScatterRows
import proofs.«400391_j66829691126192_3_alg».proof.Proof.Lift
import Idealize.ShloMosaic.Lib.ValueIdx
import Idealize.ShloMosaic.PureOps.Ideal.Laws

noncomputable section

namespace Cert.RefSide.Dis

open Cert.ReferenceIdeal Cert.ReferenceIdeal.Read Idealize.ShloMosaic Idealize.ShloMosaic.ValueIdx

/-- The flat accumulating scatter of the degree computation, read at a node: the operand's entry plus the updates of
    the edges landing there. -/
theorem scatter_flat_apply (x : FVec Ideal S150000 .f32) (col : IVec S4950000x1 32) (u : FVec Ideal S4950000 .f32) (n : Fin 150000) :
    Host.scatterAdd (F := Ideal) scatter_S150000_S4950000x1_S4950000_n_0_0_1 x col u (ix1 n)
      = x (ix1 n) + ∑ e ∈ SegSum.rowsOf col n, u (ix1 e) :=
  SegSum.hostScatterAdd_flat_apply Gen.scatter_S150000_S4950000x1_S4950000_n_0_0_1_wf x col u n

/-- The degree of a node: the number of edges landing on it. -/
theorem deg_apply (x9 : (⟨S2x4800000, .i32⟩ : BufTy).Contents (Elt Ideal)) (n : Fin 150000) :
    val_main_v10 (F := Ideal) x9 (ix1 n) = ((((SegSum.rowsOf (val_main_v9 (F := Ideal) x9) n).card : ℕ) : ℝ) : EReal) := by
  unfold val_main_v10
  generalize val_main_v9 (F := Ideal) x9 = col
  rw [scatter_flat_apply]
  simp only [val_main_v8_apply, val_main_cst_0_apply, val_main_v7_apply, val_main_cst_apply, Ideal.ofBits_def,
    Cert.Lift.ofBits_zero, Cert.Lift.ofBits_one, Cert.Lift.coe_sum, Cert.Lift.coe_add']
  congr 1
  rw [Finset.sum_const, nsmul_eq_mul, mul_one, zero_add]

/-- Every inverse square root of a degree is a real number. -/
theorem dis_real (x9 : (⟨S2x4800000, .i32⟩ : BufTy).Contents (Elt Ideal)) (n : Fin 150000) :
    ∃ r : ℝ, val_main_v16 (F := Ideal) x9 (ix1 n) = (r : EReal) := by
  rw [val_main_v16_apply, val_main_v12_apply, val_main_v15_apply, val_main_v14_apply, deg_apply, val_main_v11_apply,
    val_main_cst_1_apply, val_main_v13_apply, val_main_cst_2_apply, val_main_call0_v1_apply, val_main_call0_v0_apply,
    val_main_cst_3_apply]
  obtain ⟨eps, he, hpos, -⟩ := Cert.Lift.eps_spec
  simp only [Ideal.ofBits_def, Ideal.cmpf_def, Ideal.maximumf_def, Ideal.hostUnary_rsqrt_def, Cert.Lift.ofBits_zero, he,
    Cert.Lift.coe_max', Cert.Lift.rsqrt_coe_max_pos _ _ hpos, Cert.Lift.select_cmp_ogt_coe]
  split_ifs <;> exact ⟨_, rfl⟩

end Cert.RefSide.Dis

end
-- ==== Proof.lean ====
/-
  The certificate's five claims assembled.

  The three frames: each program runs to the end, faults nowhere and leaves its argument arrays as launched — for the
  kernel's program (word level and idealized) by the run of its two regions among the host stretches, for the
  reference by its run with the result dropped.  The idealization rewrote nothing, so nothing is owed for it.
  Equality over the extended reals: under the precondition every float argument entry is a real number, and so is every
  inverse square root of a degree; then every array the two programs compute is the coercion of a real array, the two
  real arrangements agree (sums commute, a factor moves across a finite sum), and the results coincide entry by entry.
-/
import proofs.«400391_j66829691126192_3_alg».proof.Defs
import proofs.«400391_j66829691126192_3_alg».proof.Proof.Gen.Kernel
import proofs.«400391_j66829691126192_3_alg».proof.Proof.Gen.KernelIdeal
import proofs.«400391_j66829691126192_3_alg».proof.Proof.Gen.ReferenceIdeal
import proofs.«400391_j66829691126192_3_alg».proof.Proof.Gen.Pre_finite_inputs
import proofs.«400391_j66829691126192_3_alg».proof.Proof.KRun
import proofs.«400391_j66829691126192_3_alg».proof.Proof.KIRun
import proofs.«400391_j66829691126192_3_alg».proof.Proof.KIChain
import proofs.«400391_j66829691126192_3_alg».proof.Proof.Bridge
import proofs.«400391_j66829691126192_3_alg».proof.Proof.RefImports
import proofs.«400391_j66829691126192_3_alg».proof.Proof.RefLayer1
import proofs.«400391_j66829691126192_3_alg».proof.Proof.RefLayer2
import proofs.«400391_j66829691126192_3_alg».proof.Proof.Finite
import proofs.«400391_j66829691126192_3_alg».proof.Proof.DisReal
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-! ## The float arguments and the inverse square roots of the degrees are real -/

/-- An extended real that is some real's coercion is the coercion of its own real part. -/
theorem coe_toReal_of_exists {a : EReal} (h : ∃ r : ℝ, a = (r : EReal)) : a = ((a.toReal : ℝ) : EReal) := by
  obtain ⟨r, rfl⟩ := h; rw [EReal.toReal_coe]

open Cert.KernelIdeal Cert.KernelIdeal.Hand in
/-- Every inverse square root of a degree, as the kernel's program holds it, is a real number. -/
theorem dis_real_at (m : (ℓ : Loc Cert.KernelIdeal.nD Cert.KernelIdeal.τ Cert.KernelIdeal.sig) → Buf (Elt Ideal) ℓ)
    (c : Dev Cert.KernelIdeal.nD) (n : Fin 150000) : ∃ r : ℝ, disArr m c (ix1 n) = (r : EReal) := by
  rw [disArr_ref m c]; exact Cert.RefSide.Dis.dis_real _ n

open Cert.KernelIdeal Cert.KernelIdeal.Hand in
/-- The model's inverse square root of a degree is the real part of the program's. -/
theorem dataOf_dis (m : (ℓ : Loc Cert.KernelIdeal.nD Cert.KernelIdeal.τ Cert.KernelIdeal.sig) → Buf (Elt Ideal) ℓ)
    (c : Dev Cert.KernelIdeal.nD) (n : Fin 150000) : (dataOf m c).dis n = (disArr m c (ix1 n)).toReal := by
  simp only [dataOf]

open Cert.KernelIdeal Cert.KernelIdeal.Hand in
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : RealArgs m c := by
  obtain ⟨h0, h1, h2, h3, h4, h5, h6, h7, h8⟩ := Cert.Finite.real_of_pre (aX m c) (aW1 m c) (aB1 m c) (aW2 m c) (aB2 m c) (aWf1 m c) (aBf1 m c)
    (aWf2 m c) (aBf2 m c) (m ((c.tc : Thread nD τ).loc main_arg9)) (aBatch m c) (hpre c)
  exact
    { hx := fun n k => coe_toReal_of_exists (h0 _)
      hW1 := fun i k => coe_toReal_of_exists (h1 _)
      hb1 := fun k => coe_toReal_of_exists (h2 _)
      hW2 := fun k j => coe_toReal_of_exists (h3 _)
      hb2 := fun j => coe_toReal_of_exists (h4 _)
      hWf1 := fun k j => coe_toReal_of_exists (h5 _)
      hbf1 := fun j => coe_toReal_of_exists (h6 _)
      hWf2 := fun j u => coe_toReal_of_exists (h7 _)
      hbf2 := fun u => coe_toReal_of_exists (h8 _)
      hdis := fun n => by rw [dataOf_dis]; exact coe_toReal_of_exists (dis_real_at m c n) }

/-! ## Equality over the extended reals -/

open Cert.KernelIdeal.Hand in
theorem algebraic : Cert.algebraic_KernelIdeal_ReferenceIdeal := by
  intro m ρ m' ρ' hpre hagree
  refine ⟨fun c => o6 m c, run_value m ρ, ?_⟩
  refine (θ_run Cert.ReferenceIdeal.defs _ _).mono (fun _ h c => ⟨(h c).1.trans ?_, (h c).2⟩)
    (Cert.ReferenceIdeal.Value.run (F := Ideal) m' ρ')
  have hR := realArgs m hpre c
  obtain ⟨e0, e1, e2, e3, e4, e5, e6, e7, e8, e9, e10⟩ := hagree c
  rw [Cert.ReferenceIdeal.Read.val_main_v94_eq, e0, e1, e2, e3, e4, e5, e6, e7, e8, e9, e10]
  funext i
  obtain ⟨g, u, rfl⟩ : ∃ (g : Fin 512) (u : Fin 1), i = ix2 g u := ⟨i 0, i 1, eq_ix2 i⟩
  obtain rfl : u = 0 := Subsingleton.elim _ _
  have hdis : ∀ n, Cert.ReferenceIdeal.Read.val_main_v16 (F := Ideal) (m ((c.tc : Thread Cert.KernelIdeal.nD Cert.KernelIdeal.τ).loc Cert.KernelIdeal.main_arg9)) (ix1 n)
      = (((dataOf m c).dis n : ℝ) : EReal) := fun n => by rw [← disArr_ref m c]; exact hR.hdis n
  have hs : ∀ e, (dataOf m c).s e = RowGather.clampRow 150000 (by decide)
      (Cert.ReferenceIdeal.Read.val_main_v38 (F := Ideal) (m ((c.tc : Thread Cert.KernelIdeal.nD Cert.KernelIdeal.τ).loc Cert.KernelIdeal.main_arg9)) (ix2 e (0 : Fin 1))) :=
    fun e => by rw [← srcCol_ref m c]; rfl
  have hD : ∀ n, (dataOf m c).D n = SegSum.rowsOf
      (Cert.ReferenceIdeal.Read.val_main_v44 (F := Ideal) (m ((c.tc : Thread Cert.KernelIdeal.nD Cert.KernelIdeal.τ).loc Cert.KernelIdeal.main_arg9))) n :=
    fun n => by rw [← dstCol_ref m c]; rfl
  rw [Cert.RefSide.ref_rest _ _ _ _ _ _ _ _ _ _ _ (dataOf m c)
      (Cert.RefSide.ref_layer1 _ _ _ _ (dataOf m c) hR.hx hR.hW1 hR.hb1 hdis hs hD)
      hR.hW2 hR.hb2 hR.hWf1 hR.hbf1 hR.hWf2 hR.hbf2 hdis hs hD (fun g => rfl) g]
  show _ = o6 m c (ix2 g (0 : Fin 1))
  rw [o6_real m c hR g, Cert.Model.kOut_eq]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
